-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S1000x256 : Shape := ⟨2, ![1000, 256]⟩
abbrev S131072 : Shape := ⟨1, ![131072]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S1000x256 : S_.BroadcastsInDim S1000x256 (![] : Fin 0 → Fin S1000x256.rank)
  reducesTo_S1000x256_S_d0_1 : S1000x256.ReducesTo [0, 1] S_
  bcast_S_S131072 : S_.BroadcastsInDim S131072 (![] : Fin 0 → Fin S131072.rank)
  reducesTo_S131072_S_d0 : S131072.ReducesTo [0] S_

variable [Facts]

def fn {F : FTy → Type} [FloatOps F] (main_arg0 : FVec F S131072x256 .f32) (main_arg1 : FVec F S1000x256 .f32) (main_arg2 : IVec S131072 32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S1000x256 .f32 := Host.absf main_arg1
  let main_cst_0 : FVec F S_ .f32 := constant S_ .f32 0x7F800000#32
  let main_v5 : FVec F S1000x256 .f32 := broadcastInDim S1000x256 ![] bcast_S_S1000x256 main_cst_0
  let main_v6 : IVec S1000x256 1 := cmpf .olt main_v4 main_v5
  let main_c_1 : IVec S_ 1 := constantI S_ 1 1#1
  let main_v7 : IVec S_ 1 := (fun x v => Host.reduce IntOp.andi x v reducesTo_S1000x256_S_d0_1 h_S_) main_v6 main_c_1
  let main_v8 : IVec S_ 1 := andi main_v3 main_v7
  let main_c_2 : IVec S_ 32 := constantI S_ 32 0#32
  let main_v9 : IVec S131072 32 := broadcastInDim S131072 ![] bcast_S_S131072 main_c_2
  let main_v10 : IVec S131072 1 := cmpi .sge main_arg2 main_v9
  let main_c_3 : IVec S_ 32 := constantI S_ 32 1000#32
  let main_v11 : IVec S131072 32 := broadcastInDim S131072 ![] bcast_S_S131072 main_c_3
  let main_v12 : IVec S131072 1 := cmpi .slt main_arg2 main_v11
  let main_v13 : IVec S131072 1 := andi main_v10 main_v12
  let main_c_4 : IVec S_ 1 := constantI S_ 1 1#1
  let main_v14 : IVec S_ 1 := (fun x v => Host.reduce IntOp.andi x v reducesTo_S131072_S_d0 h_S_) main_v13 main_c_4
  let main_v15 : IVec S_ 1 := andi main_v8 main_v14
  main_v15
-- ==== Kernel.lean ====
abbrev S131072x256 : Shape := ⟨2, ![131072, 256]⟩
abbrev S1000x256 : Shape := ⟨2, ![1000, 256]⟩
abbrev S131072 : Shape := ⟨1, ![131072]⟩
abbrev S131072x1 : Shape := ⟨2, ![131072, 1]⟩
abbrev S2x1024x256 : Shape := ⟨3, ![2, 1024, 256]⟩
abbrev S2x1x1024 : Shape := ⟨3, ![2, 1, 1024]⟩
abbrev S1024x256 : Shape := ⟨2, ![1024, 256]⟩
abbrev S1024x1 : Shape := ⟨2, ![1024, 1]⟩
abbrev S1x1024x256 : Shape := ⟨3, ![1, 1024, 256]⟩
abbrev S1x1x1024 : Shape := ⟨3, ![1, 1, 1024]⟩
abbrev S1x1024 : Shape := ⟨2, ![1, 1024]⟩
abbrev S1024 : Shape := ⟨1, ![1024]⟩
abbrev S1024x1024 : Shape := ⟨2, ![1024, 1024]⟩
abbrev S_ : Shape := ⟨0, ![]⟩
abbrev S1x1000 : Shape := ⟨2, ![1, 1000]⟩
abbrev S1000 : Shape := ⟨1, ![1000]⟩
abbrev S1000x1 : Shape := ⟨2, ![1000, 1]⟩
abbrev S1 : Shape := ⟨1, ![1]⟩
abbrev S2x1x1 : Shape := ⟨3, ![2, 1, 1]⟩
abbrev S1x1x1 : Shape := ⟨3, ![1, 1, 1]⟩
abbrev S1x1 : Shape := ⟨2, ![1, 1]⟩

abbrev nBuf : Space → Nat
  | .hbm => 70
  | .vmem => 15
  | .smem => 0
  | _ => 0

abbrev bufTy : (tb : Table) → Fin (tcTables nBuf tb) → BufTy
  | .hbm, ⟨0, _⟩ => ⟨S131072x256, .f32⟩
  | .hbm, ⟨1, _⟩ => ⟨S1000x256, .f32⟩
  | .hbm, ⟨2, _⟩ => ⟨S131072, .i32⟩
  | .hbm, ⟨3, _⟩ => ⟨S131072x1, .i32⟩
  | .hbm, ⟨4, _⟩ => ⟨S2x1024x256, .f32⟩
  | .hbm, ⟨5, _⟩ => ⟨S2x1x1024, .f32⟩
  | .hbm, ⟨6, _⟩ => ⟨S_, .f32⟩
  | .hbm, ⟨7, _⟩ => ⟨S1024x256, .f32⟩
  | .hbm, ⟨8, _⟩ => ⟨S1000x256, .f32⟩
  | .hbm, ⟨9, _⟩ => ⟨S_, .f32⟩
  | .hbm, ⟨10, _⟩ => ⟨S1x1024, .f32⟩
  | .hbm, ⟨11, _⟩ => ⟨S1x1000, .f32⟩
  | .hbm, ⟨12, _⟩ => ⟨S1000, .f32⟩
  | .hbm, ⟨13, _⟩ => ⟨S_, .f32⟩
  | .hbm, ⟨14, _⟩ => ⟨S1000, .f32⟩
  | .hbm, ⟨15, _⟩ => ⟨S1000, .i1⟩
  | .hbm, ⟨16, _⟩ => ⟨S1000, .f32⟩
  | .hbm, ⟨17, _⟩ => ⟨S1000x1, .f32⟩
  | .hbm, ⟨18, _⟩ => ⟨S1000x256, .f32⟩
  | .hbm, ⟨19, _⟩ => ⟨S_, .f32⟩
  | .hbm, ⟨20, _⟩ => ⟨S1000, .f32⟩
  | .hbm, ⟨21, _⟩ => ⟨S1000x1, .f32⟩
  | .hbm, ⟨22, _⟩ => ⟨S1000x1, .f32⟩
  | .hbm, ⟨23, _⟩ => ⟨S_, .f32⟩
  | .hbm, ⟨24, _⟩ => ⟨S1000x1, .f32⟩
  | .hbm, ⟨25, _⟩ => ⟨S1000x1, .f32⟩
  | .hbm, ⟨26, _⟩ => ⟨S1000x256, .f32⟩
  | .hbm, ⟨27, _⟩ => ⟨S1000x256, .f32⟩
  | .hbm, ⟨28, _⟩ => ⟨S1000x256, .f32⟩
  | .hbm, ⟨29, _⟩ => ⟨S1000x256, .f32⟩
  | .hbm, ⟨30, _⟩ => ⟨S1000x256, .f32⟩
  | .hbm, ⟨31, _⟩ => ⟨S_, .f32⟩
  | .hbm, ⟨32, _⟩ => ⟨S1000, .f32⟩
  | .hbm, ⟨33, _⟩ => ⟨S1000x1, .f32⟩
  | .hbm, ⟨34, _⟩ => ⟨S_, .f32⟩
  | .hbm, ⟨35, _⟩ => ⟨S1000x1, .f32⟩
  | .hbm, ⟨36, _⟩ => ⟨S1000x1, .f32⟩
  | .hbm, ⟨37, _⟩ => ⟨S1000x1, .f32⟩
  | .hbm, ⟨38, _⟩ => ⟨S_, .f32⟩
  | .hbm, ⟨39, _⟩ => ⟨S1000x1, .f32⟩
  | .hbm, ⟨40, _⟩ => ⟨S1000x1, .f32⟩
  | .hbm, ⟨41, _⟩ => ⟨S1000x256, .f32⟩
  | .hbm, ⟨42, _⟩ => ⟨S1000x256, .f32⟩
  | .hbm, ⟨43, _⟩ => ⟨S_, .f32⟩
  | .hbm, ⟨44, _⟩ => ⟨S1000x1, .f32⟩
  | .hbm, ⟨45, _⟩ => ⟨S1000x1, .f32⟩
  | .hbm, ⟨46, _⟩ => ⟨S1000x256, .f32⟩
  | .hbm, ⟨47, _⟩ => ⟨S1000x256, .f32⟩
  | .hbm, ⟨48, _⟩ => ⟨S1000x256, .f32⟩
  | .hbm, ⟨49, _⟩ => ⟨S1000x256, .f32⟩
  | .hbm, ⟨50, _⟩ => ⟨S_, .f32⟩
  | .hbm, ⟨51, _⟩ => ⟨S1000, .f32⟩
  | .hbm, ⟨52, _⟩ => ⟨S1000x1, .f32⟩
  | .hbm, ⟨53, _⟩ => ⟨S1000x1, .f32⟩
  | .hbm, ⟨54, _⟩ => ⟨S_, .f32⟩
  | .hbm, ⟨55, _⟩ => ⟨S1000x1, .f32⟩
  | .hbm, ⟨56, _⟩ => ⟨S1000x1, .f32⟩
  | .hbm, ⟨57, _⟩ => ⟨S1000x256, .f32⟩
  | .hbm, ⟨58, _⟩ => ⟨S1000x256, .f32⟩
  | .hbm, ⟨59, _⟩ => ⟨S_, .f32⟩
  | .hbm, ⟨60, _⟩ => ⟨S1024x256, .f32⟩
  | .hbm, ⟨61, _⟩ => ⟨S_, .i32⟩
  | .hbm, ⟨62, _⟩ => ⟨S1, .i32⟩
  | .hbm, ⟨63, _⟩ => ⟨S1024x256, .f32⟩
  | .hbm, ⟨64, _⟩ => ⟨S1024x256, .bf16⟩
  | .hbm, ⟨65, _⟩ => ⟨S2x1x1, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x1, .i32⟩
  | .local _ .vmem, ⟨3, _⟩ => ⟨S1024x1, .i32⟩
  | .local _ .vmem, ⟨4, _⟩ => ⟨S1x1024x256, .f32⟩
  | .local _ .vmem, ⟨5, _⟩ => ⟨S1x1024x256, .f32⟩
  | .local _ .vmem, ⟨6, _⟩ => ⟨S1x1x1024, .f32⟩
  | .local _ .vmem, ⟨7, _⟩ => ⟨S1x1x1024, .f32⟩
  | .local _ .vmem, ⟨8, _⟩ => ⟨S1024x256, .f32⟩
  | .local _ .vmem, ⟨9, _⟩ => ⟨S1024x256, .f32⟩
  | .local _ .vmem, ⟨10, _⟩ => ⟨S1024x1, .i32⟩
  | .local _ .vmem, ⟨11, _⟩ => ⟨S1024x1, .i32⟩
  | .local _ .vmem, ⟨12, _⟩ => ⟨S1024x256, .bf16⟩
  | .local _ .vmem, ⟨13, _⟩ => ⟨S1x1x1, .f32⟩
  | .local _ .vmem, ⟨14, _⟩ => ⟨S1x1x1, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_v0 : Ref sig .tc := ⟨.hbm, 18, rfl⟩
abbrev main_call0_cst : Ref sig .tc := ⟨.hbm, 19, rfl⟩
abbrev main_call0_v1 : Ref sig .tc := ⟨.hbm, 20, rfl⟩
abbrev main_call0_v2 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call1_v0 : Ref sig .tc := ⟨.hbm, 49, rfl⟩
abbrev main_call1_cst : Ref sig .tc := ⟨.hbm, 50, rfl⟩
abbrev main_call1_v1 : Ref sig .tc := ⟨.hbm, 51, rfl⟩
abbrev main_call1_v2 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_8 : Ref sig .tc := ⟨.hbm, 59, rfl⟩
abbrev main_v38 : Ref sig .tc := ⟨.hbm, 60, rfl⟩
abbrev main_c : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_cst_10 : Ref sig .tc := ⟨.hbm, 68, rfl⟩
abbrev main_v44 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 64], ![false, false]⟩

def cc1_transform_0 (i : grid1.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1024x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x1x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S131072_S131072x1 : S131072.ShapeCasts S131072x1
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  broadcasts_S1024x1_S1024x256 : S1024x1.Broadcasts S1024x256
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x1024_d1_w32 : S1024x1024.Iotas .tc 32 [1]
  broadcasts_S1024x1_S1024x1024 : S1024x1.Broadcasts S1024x1024
  natLt_1_32 : 1 < 32
  reduces_S1024x1024_S1024 : S1024x1024.Reduces [0] S1024
  shapeCasts_S1024_S1x1024 : S1024.ShapeCasts S1x1024
  reducesTo_S2x1024x256_S1024x256_d0 : S2x1024x256.ReducesTo [0] S1024x256
  h_S_ : 0 < S_.numel
  slices_S1024x256_S1000x256_0_0 : S1024x256.Slices ![0, 0] S1000x256
  reducesTo_S2x1x1024_S1x1024_d0 : S2x1x1024.ReducesTo [0] S1x1024
  slices_S1x1024_S1x1000_0_0 : S1x1024.Slices ![0, 0] S1x1000
  shapeCasts_S1x1000_S1000 : S1x1000.ShapeCasts S1000
  bcast_S_S1000 : S_.BroadcastsInDim S1000 (![] : Fin 0 → Fin S1000.rank)
  bcast_S1000_S1000x1_0 : S1000.BroadcastsInDim S1000x1 (![0] : Fin 1 → Fin S1000x1.rank)
  reducesTo_S1000x256_S1000_d1 : S1000x256.ReducesTo [1] S1000
  bcast_S_S1000x1 : S_.BroadcastsInDim S1000x1 (![] : Fin 0 → Fin S1000x1.rank)
  bcast_S1000x1_S1000x256_0_1 : S1000x1.BroadcastsInDim S1000x256 (![0, 1] : Fin 2 → Fin S1000x256.rank)
  bcast_S_S1024x256 : S_.BroadcastsInDim S1024x256 (![] : Fin 0 → Fin S1024x256.rank)
  bcast_S_S1 : S_.BroadcastsInDim S1 (![] : Fin 0 → Fin S1.rank)
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  shapeCasts_S1024x256_S1024x256 : S1024x256.ShapeCasts S1024x256
  reduces_S1024x1024_S1024_2 : S1024x1024.Reduces [1] S1024
  reduces_S1024x1_S1 : S1024x1.Reduces [0] S1
  shapeCasts_S1_S1x1 : S1.ShapeCasts S1x1
  reducesTo_S2x1x1_S_d0_1_2 : S2x1x1.ReducesTo [0, 1, 2] S_
  dot_S1024x1024_S1024x256_S1024x256_0_0_1_1_n_n_wf : DotDims.WF S1024x1024 S1024x256 S1024x256 [0] [0] [1] [1] [] []
  scatter_S1024x256_S1_S1000x256_01_n_0_0_wf : ScatterDims.WF S1024x256 S1 S1000x256 [0, 1] [] [0] 0
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S131072x256.size a
  hwx0_0 : ∀ i : grid0.Coords, EltTy.bits .f32 = 32 ∨ (Rect.block (s := S131072x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S131072x1.size a
  hwx0_1 : ∀ i : grid0.Coords, EltTy.bits .i32 = 32 ∨ (Rect.block (s := S131072x1) S1024x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x256.size a ≤ S2x1024x256.size a
  hwx0_2 : ∀ i : grid0.Coords, EltTy.bits .f32 = 32 ∨ (Rect.block (s := S2x1024x256) S1x1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S2x1x1024.size a
  hwx0_3 : ∀ i : grid0.Coords, EltTy.bits .f32 = 32 ∨ (Rect.block (s := S2x1x1024) S1x1x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S131072x256.size a
  hwx1_0 : ∀ i : grid1.Coords, EltTy.bits .f32 = 32 ∨ (Rect.block (s := S131072x256) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S131072x1.size a
  hwx1_1 : ∀ i : grid1.Coords, EltTy.bits .i32 = 32 ∨ (Rect.block (s := S131072x1) S1024x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S1024x256.size a
  hwx1_2 : ∀ i : grid1.Coords, EltTy.bits .bf16 = 32 ∨ (Rect.block (s := S1024x256) S1024x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1.size a ≤ S2x1x1.size a
  hwx1_3 : ∀ i : grid1.Coords, EltTy.bits .f32 = 32 ∨ (Rect.block (s := S2x1x1) S1x1x1.size (cc1_transform_3 i) (hinb1_3 i)).WholeWords (EltTy.packing .f32)

variable [Facts₀]

def dot_S1024x1024_S1024x256_S1024x256_0_0_1_1_n_n : DotDims S1024x1024 S1024x256 S1024x256 where
  lhsContracting := [0]
  rhsContracting := [0]
  lhsNonContracting := [1]
  rhsNonContracting := [1]
  lhsBatch := []
  rhsBatch := []
  wf := dot_S1024x1024_S1024x256_S1024x256_0_0_1_1_n_n_wf
def scatter_S1024x256_S1_S1000x256_01_n_0_0 : ScatterDims S1024x256 S1 S1000x256 where
  updateWindowDims := [0, 1]
  insertedWindowDims := []
  scatterDimsToOperandDims := [0]
  indexVectorDim := 0
  wf := scatter_S1024x256_S1_S1000x256_01_n_0_0_wf
def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1024x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S1024x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x1x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S131072x256 : Shape := ⟨2, ![131072, 256]⟩
abbrev S1000x256 : Shape := ⟨2, ![1000, 256]⟩
abbrev S131072 : Shape := ⟨1, ![131072]⟩
abbrev S_ : Shape := ⟨0, ![]⟩
abbrev S131072x1 : Shape := ⟨2, ![131072, 1]⟩
abbrev S1000 : Shape := ⟨1, ![1000]⟩
abbrev S1000x1 : Shape := ⟨2, ![1000, 1]⟩
abbrev S131072x1000 : Shape := ⟨2, ![131072, 1000]⟩
abbrev S131072x1x1 : Shape := ⟨3, ![131072, 1, 1]⟩
abbrev S1 : Shape := ⟨1, ![1]⟩
abbrev S1x1x1 : Shape := ⟨3, ![1, 1, 1]⟩

abbrev nBuf : Space → Nat
  | .hbm => 116
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S1000x256, .f32⟩
  | .hbm, ⟨2, _⟩ => ⟨S131072, .i32⟩
  | .hbm, ⟨3, _⟩ => ⟨S131072x256, .f32⟩
  | .hbm, ⟨4, _⟩ => ⟨S_, .f32⟩
  | .hbm, ⟨5, _⟩ => ⟨S131072, .f32⟩
  | .hbm, ⟨6, _⟩ => ⟨S131072x1, .f32⟩
  | .hbm, ⟨7, _⟩ => ⟨S131072x1, .f32⟩
  | .hbm, ⟨8, _⟩ => ⟨S_, .f32⟩
  | .hbm, ⟨9, _⟩ => ⟨S131072x1, .f32⟩
  | .hbm, ⟨10, _⟩ => ⟨S131072x1, .f32⟩
  | .hbm, ⟨11, _⟩ => ⟨S131072x256, .f32⟩
  | .hbm, ⟨12, _⟩ => ⟨S131072x256, .f32⟩
  | .hbm, ⟨13, _⟩ => ⟨S_, .f32⟩
  | .hbm, ⟨14, _⟩ => ⟨S1000x256, .f32⟩
  | .hbm, ⟨15, _⟩ => ⟨S131072x1, .i32⟩
  | .hbm, ⟨16, _⟩ => ⟨S1000x256, .f32⟩
  | .hbm, ⟨17, _⟩ => ⟨S_, .f32⟩
  | .hbm, ⟨18, _⟩ => ⟨S131072, .f32⟩
  | .hbm, ⟨19, _⟩ => ⟨S_, .f32⟩
  | .hbm, ⟨20, _⟩ => ⟨S1000, .f32⟩
  | .hbm, ⟨21, _⟩ => ⟨S131072x1, .i32⟩
  | .hbm, ⟨22, _⟩ => ⟨S1000, .f32⟩
  | .hbm, ⟨23, _⟩ => ⟨S_, .f32⟩
  | .hbm, ⟨24, _⟩ => ⟨S1000, .f32⟩
  | .hbm, ⟨25, _⟩ => ⟨S1000, .i1⟩
  | .hbm, ⟨26, _⟩ => ⟨S1000, .f32⟩
  | .hbm, ⟨27, _⟩ => ⟨S1000x1, .f32⟩
  | .hbm, ⟨28, _⟩ => ⟨S1000x256, .f32⟩
  | .hbm, ⟨29, _⟩ => ⟨S_, .f32⟩
  | .hbm, ⟨30, _⟩ => ⟨S1000, .f32⟩
  | .hbm, ⟨31, _⟩ => ⟨S1000x1, .f32⟩
  | .hbm, ⟨32, _⟩ => ⟨S1000x1, .f32⟩
  | .hbm, ⟨33, _⟩ => ⟨S_, .f32⟩
  | .hbm, ⟨34, _⟩ => ⟨S1000x1, .f32⟩
  | .hbm, ⟨35, _⟩ => ⟨S1000x1, .f32⟩
  | .hbm, ⟨36, _⟩ => ⟨S1000x256, .f32⟩
  | .hbm, ⟨37, _⟩ => ⟨S1000x256, .f32⟩
  | .hbm, ⟨38, _⟩ => ⟨S1000x256, .f32⟩
  | .hbm, ⟨39, _⟩ => ⟨S1000x256, .f32⟩
  | .hbm, ⟨40, _⟩ => ⟨S1000x256, .f32⟩
  | .hbm, ⟨41, _⟩ => ⟨S_, .f32⟩
  | .hbm, ⟨42, _⟩ => ⟨S1000, .f32⟩
  | .hbm, ⟨43, _⟩ => ⟨S1000x1, .f32⟩
  | .hbm, ⟨44, _⟩ => ⟨S_, .f32⟩
  | .hbm, ⟨45, _⟩ => ⟨S1000x1, .f32⟩
  | .hbm, ⟨46, _⟩ => ⟨S1000x1, .f32⟩
  | .hbm, ⟨47, _⟩ => ⟨S1000x1, .f32⟩
  | .hbm, ⟨48, _⟩ => ⟨S_, .f32⟩
  | .hbm, ⟨49, _⟩ => ⟨S1000x1, .f32⟩
  | .hbm, ⟨50, _⟩ => ⟨S1000x1, .f32⟩
  | .hbm, ⟨51, _⟩ => ⟨S1000x256, .f32⟩
  | .hbm, ⟨52, _⟩ => ⟨S1000x256, .f32⟩
  | .hbm, ⟨53, _⟩ => ⟨S_, .f32⟩
  | .hbm, ⟨54, _⟩ => ⟨S1000x1, .f32⟩
  | .hbm, ⟨55, _⟩ => ⟨S1000x1, .f32⟩
  | .hbm, ⟨56, _⟩ => ⟨S1000x256, .f32⟩
  | .hbm, ⟨57, _⟩ => ⟨S1000x256, .f32⟩
  | .hbm, ⟨58, _⟩ => ⟨S1000x256, .f32⟩
  | .hbm, ⟨59, _⟩ => ⟨S1000x256, .f32⟩
  | .hbm, ⟨60, _⟩ => ⟨S_, .f32⟩
  | .hbm, ⟨61, _⟩ => ⟨S1000, .f32⟩
  | .hbm, ⟨62, _⟩ => ⟨S1000x1, .f32⟩
  | .hbm, ⟨63, _⟩ => ⟨S1000x1, .f32⟩
  | .hbm, ⟨64, _⟩ => ⟨S_, .f32⟩
  | .hbm, ⟨65, _⟩ => ⟨S1000x1, .f32⟩
  | .hbm, ⟨66, _⟩ => ⟨S1000x1, .f32⟩
  | .hbm, ⟨67, _⟩ => ⟨S1000x256, .f32⟩
  | .hbm, ⟨68, _⟩ => ⟨S1000x256, .f32⟩
  | .hbm, ⟨69, _⟩ => ⟨S131072x1000, .f32⟩
  | .hbm, ⟨70, _⟩ => ⟨S_, .f32⟩
  | .hbm, ⟨71, _⟩ => ⟨S131072x1000, .f32⟩
  | .hbm, ⟨72, _⟩ => ⟨S131072x1000, .f32⟩
  | .hbm, ⟨73, _⟩ => ⟨S_, .f32⟩
  | .hbm, ⟨74, _⟩ => ⟨S131072, .f32⟩
  | .hbm, ⟨75, _⟩ => ⟨S_, .f32⟩
  | .hbm, ⟨76, _⟩ => ⟨S131072, .f32⟩
  | .hbm, ⟨77, _⟩ => ⟨S131072, .f32⟩
  | .hbm, ⟨78, _⟩ => ⟨S131072x1, .f32⟩
  | .hbm, ⟨79, _⟩ => ⟨S131072x1000, .f32⟩
  | .hbm, ⟨80, _⟩ => ⟨S131072x1000, .f32⟩
  | .hbm, ⟨81, _⟩ => ⟨S131072x1000, .f32⟩
  | .hbm, ⟨82, _⟩ => ⟨S_, .f32⟩
  | .hbm, ⟨83, _⟩ => ⟨S131072, .f32⟩
  | .hbm, ⟨84, _⟩ => ⟨S131072x1, .f32⟩
  | .hbm, ⟨85, _⟩ => ⟨S131072x1, .f32⟩
  | .hbm, ⟨86, _⟩ => ⟨S131072x1000, .f32⟩
  | .hbm, ⟨87, _⟩ => ⟨S131072x1000, .f32⟩
  | .hbm, ⟨88, _⟩ => ⟨S131072x1, .i32⟩
  | .hbm, ⟨89, _⟩ => ⟨S_, .i32⟩
  | .hbm, ⟨90, _⟩ => ⟨S131072x1, .i32⟩
  | .hbm, ⟨91, _⟩ => ⟨S131072x1, .i1⟩
  | .hbm, ⟨92, _⟩ => ⟨S_, .i32⟩
  | .hbm, ⟨93, _⟩ => ⟨S131072x1, .i32⟩
  | .hbm, ⟨94, _⟩ => ⟨S131072x1, .i32⟩
  | .hbm, ⟨95, _⟩ => ⟨S131072x1, .i32⟩
  | .hbm, ⟨96, _⟩ => ⟨S131072x1x1, .i32⟩
  | .hbm, ⟨97, _⟩ => ⟨S1, .i32⟩
  | .hbm, ⟨98, _⟩ => ⟨S_, .i32⟩
  | .hbm, ⟨99, _⟩ => ⟨S131072x1x1, .i32⟩
  | .hbm, ⟨100, _⟩ => ⟨S131072x1x1, .i1⟩
  | .hbm, ⟨101, _⟩ => ⟨S1x1x1, .i32⟩
  | .hbm, ⟨102, _⟩ => ⟨S131072x1x1, .i32⟩
  | .hbm, ⟨103, _⟩ => ⟨S131072x1x1, .i1⟩
  | .hbm, ⟨104, _⟩ => ⟨S131072x1x1, .i1⟩
  | .hbm, ⟨105, _⟩ => ⟨S_, .i1⟩
  | .hbm, ⟨106, _⟩ => ⟨S131072x1, .i1⟩
  | .hbm, ⟨107, _⟩ => ⟨S131072x1, .f32⟩
  | .hbm, ⟨108, _⟩ => ⟨S_, .f32⟩
  | .hbm, ⟨109, _⟩ => ⟨S131072x1, .f32⟩
  | .hbm, ⟨110, _⟩ => ⟨S131072x1, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call1_v0 : Ref sig .tc := ⟨.hbm, 28, rfl⟩
abbrev main_call1_cst : Ref sig .tc := ⟨.hbm, 29, rfl⟩
abbrev main_call1_v1 : Ref sig .tc := ⟨.hbm, 30, rfl⟩
abbrev main_call1_v2 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_8 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_call2_v0 : Ref sig .tc := ⟨.hbm, 59, rfl⟩
abbrev main_call2_cst : Ref sig .tc := ⟨.hbm, 60, rfl⟩
abbrev main_call2_v1 : Ref sig .tc := ⟨.hbm, 61, rfl⟩
abbrev main_call2_v2 : Ref sig .tc := ⟨.hbm, 62, rfl⟩
abbrev main_v38 : Ref sig .tc := ⟨.hbm, 63, rfl⟩
abbrev main_cst_9 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_10 : Ref sig .tc := ⟨.hbm, 70, rfl⟩
abbrev main_v44 : Ref sig .tc := ⟨.hbm, 71, rfl⟩
abbrev main_v45 : Ref sig .tc := ⟨.hbm, 72, rfl⟩
abbrev main_call3_cst : Ref sig .tc := ⟨.hbm, 73, rfl⟩
abbrev main_call3_v0 : Ref sig .tc := ⟨.hbm, 74, rfl⟩
abbrev main_call3_cst_0 : Ref sig .tc := ⟨.hbm, 75, rfl⟩
abbrev main_call3_v1 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_v5 : Ref sig .tc := ⟨.hbm, 80, rfl⟩
abbrev main_call3_v6 : Ref sig .tc := ⟨.hbm, 81, rfl⟩
abbrev main_call3_cst_1 : Ref sig .tc := ⟨.hbm, 82, rfl⟩
abbrev main_call3_v7 : Ref sig .tc := ⟨.hbm, 83, rfl⟩
abbrev main_call3_v8 : Ref sig .tc := ⟨.hbm, 84, rfl⟩
abbrev main_call3_v9 : Ref sig .tc := ⟨.hbm, 85, rfl⟩
abbrev main_call3_v10 : Ref sig .tc := ⟨.hbm, 86, rfl⟩
abbrev main_v46 : Ref sig .tc := ⟨.hbm, 87, rfl⟩
abbrev main_v47 : Ref sig .tc := ⟨.hbm, 88, rfl⟩
abbrev main_call4_c : Ref sig .tc := ⟨.hbm, 89, rfl⟩
abbrev main_call4_v0 : Ref sig .tc := ⟨.hbm, 90, rfl⟩
abbrev main_call4_v1 : Ref sig .tc := ⟨.hbm, 91, rfl⟩
abbrev main_call4_c_0 : Ref sig .tc := ⟨.hbm, 92, rfl⟩
abbrev main_call4_v2 : Ref sig .tc := ⟨.hbm, 93, rfl⟩
abbrev main_call4_v3 : Ref sig .tc := ⟨.hbm, 94, rfl⟩
abbrev main_call4_v4 : Ref sig .tc := ⟨.hbm, 95, rfl⟩
abbrev main_call4_v5 : Ref sig .tc := ⟨.hbm, 96, rfl⟩
abbrev main_call4_c_1 : Ref sig .tc := ⟨.hbm, 97, rfl⟩
abbrev main_call4_c_2 : Ref sig .tc := ⟨.hbm, 98, rfl⟩
abbrev main_call4_v6 : Ref sig .tc := ⟨.hbm, 99, rfl⟩
abbrev main_call4_v7 : Ref sig .tc := ⟨.hbm, 100, rfl⟩
abbrev main_call4_v8 : Ref sig .tc := ⟨.hbm, 101, rfl⟩
abbrev main_call4_v9 : Ref sig .tc := ⟨.hbm, 102, rfl⟩
abbrev main_call4_v10 : Ref sig .tc := ⟨.hbm, 103, rfl⟩
abbrev main_call4_v11 : Ref sig .tc := ⟨.hbm, 104, rfl⟩
abbrev main_call4_c_3 : Ref sig .tc := ⟨.hbm, 105, rfl⟩
abbrev main_call4_v12 : Ref sig .tc := ⟨.hbm, 106, rfl⟩
abbrev main_call4_v13 : Ref sig .tc := ⟨.hbm, 107, rfl⟩
abbrev main_call4_cst : Ref sig .tc := ⟨.hbm, 108, rfl⟩
abbrev main_call4_v14 : Ref sig .tc := ⟨.hbm, 109, rfl⟩
abbrev main_v48 : Ref sig .tc := ⟨.hbm, 110, rfl⟩
abbrev main_cst_11 : Ref sig .tc := ⟨.hbm, 111, rfl⟩
abbrev main_v49 : Ref sig .tc := ⟨.hbm, 112, rfl⟩
abbrev main_cst_12 : Ref sig .tc := ⟨.hbm, 113, rfl⟩
abbrev main_v50 : Ref sig .tc := ⟨.hbm, 114, rfl⟩
abbrev main_v51 : Ref sig .tc := ⟨.hbm, 115, rfl⟩

abbrev nD : Nat := 1
abbrev τ : Topo := Topo.v7x

variable {F : FTy → Type} [FloatOps F]

class Facts₀ : Prop where
  reducesTo_S131072x256_S131072_d1 : S131072x256.ReducesTo [1] S131072
  h_S_ : 0 < S_.numel
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S131072x1_S131072x256_0_1 : S131072x1.BroadcastsInDim S131072x256 (![0, 1] : Fin 2 → Fin S131072x256.rank)
  bcast_S_S1000x256 : S_.BroadcastsInDim S1000x256 (![] : Fin 0 → Fin S1000x256.rank)
  bcast_S_S131072 : S_.BroadcastsInDim S131072 (![] : Fin 0 → Fin S131072.rank)
  bcast_S_S1000 : S_.BroadcastsInDim S1000 (![] : Fin 0 → Fin S1000.rank)
  bcast_S1000_S1000x1_0 : S1000.BroadcastsInDim S1000x1 (![0] : Fin 1 → Fin S1000x1.rank)
  reducesTo_S1000x256_S1000_d1 : S1000x256.ReducesTo [1] S1000
  bcast_S_S1000x1 : S_.BroadcastsInDim S1000x1 (![] : Fin 0 → Fin S1000x1.rank)
  bcast_S1000x1_S1000x256_0_1 : S1000x1.BroadcastsInDim S1000x256 (![0, 1] : Fin 2 → Fin S1000x256.rank)
  bcast_S_S131072x1000 : S_.BroadcastsInDim S131072x1000 (![] : Fin 0 → Fin S131072x1000.rank)
  reducesTo_S131072x1000_S131072_d1 : S131072x1000.ReducesTo [1] S131072
  bcast_S131072x1_S131072x1000_0_1 : S131072x1.BroadcastsInDim S131072x1000 (![0, 1] : Fin 2 → Fin S131072x1000.rank)
  shapeCasts_S131072x1_S131072x1x1 : S131072x1.ShapeCasts S131072x1x1
  bcast_S_S131072x1x1 : S_.BroadcastsInDim S131072x1x1 (![] : Fin 0 → Fin S131072x1x1.rank)
  bcast_S1_S1x1x1_2 : S1.BroadcastsInDim S1x1x1 (![2] : Fin 1 → Fin S1x1x1.rank)
  bcast_S1x1x1_S131072x1x1_0_1_2 : S1x1x1.BroadcastsInDim S131072x1x1 (![0, 1, 2] : Fin 3 → Fin S131072x1x1.rank)
  reducesTo_S131072x1x1_S131072x1_d2 : S131072x1x1.ReducesTo [2] S131072x1
  reducesTo_S131072x1_S_d0_1 : S131072x1.ReducesTo [0, 1] S_
  scatter_S1000x256_S131072x1_S131072x256_1_0_0_1_wf : ScatterDims.WF S1000x256 S131072x1 S131072x256 [1] [0] [0] 1
  scatter_S1000_S131072x1_S131072_n_0_0_1_wf : ScatterDims.WF S1000 S131072x1 S131072 [] [0] [0] 1
  dot_S131072x256_S1000x256_S131072x1000_1_1_0_0_n_n_wf : DotDims.WF S131072x256 S1000x256 S131072x1000 [1] [1] [0] [0] [] []
  gather_S131072x1000_S131072x1x1_S131072x1_n_1_0_0_1_2_11_wf : GatherDims.WF S131072x1000 S131072x1x1 S131072x1 [] [1] [0] [1] [0] 2 ![1, 1]

variable [Facts₀]

def scatter_S1000x256_S131072x1_S131072x256_1_0_0_1 : ScatterDims S1000x256 S131072x1 S131072x256 where
  updateWindowDims := [1]
  insertedWindowDims := [0]
  scatterDimsToOperandDims := [0]
  indexVectorDim := 1
  wf := scatter_S1000x256_S131072x1_S131072x256_1_0_0_1_wf
def scatter_S1000_S131072x1_S131072_n_0_0_1 : ScatterDims S1000 S131072x1 S131072 where
  updateWindowDims := []
  insertedWindowDims := [0]
  scatterDimsToOperandDims := [0]
  indexVectorDim := 1
  wf := scatter_S1000_S131072x1_S131072_n_0_0_1_wf
def dot_S131072x256_S1000x256_S131072x1000_1_1_0_0_n_n : DotDims S131072x256 S1000x256 S131072x1000 where
  lhsContracting := [1]
  rhsContracting := [1]
  lhsNonContracting := [0]
  rhsNonContracting := [0]
  lhsBatch := []
  rhsBatch := []
  wf := dot_S131072x256_S1000x256_S131072x1000_1_1_0_0_n_n_wf
def gather_S131072x1000_S131072x1x1_S131072x1_n_1_0_0_1_2_11 : GatherDims S131072x1000 S131072x1x1 S131072x1 where
  offsetDims := []
  collapsedSliceDims := [1]
  operandBatchingDims := [0]
  startIndicesBatchingDims := [0]
  startIndexMap := [1]
  indexVectorDim := 2
  sliceSizes := ![1, 1]
  wf := gather_S131072x1000_S131072x1x1_S131072x1_n_1_0_0_1_2_11_wf

class Facts : Prop extends Facts₀ where

variable [Facts]
-- ==== Proof.Spec.lean ====
/-
  The mathematics of the memory-bank loss, stated once over the extended reals, for both programs to be read against.

  Inputs: a feature table `x` of 131072 rows by 256 columns, a bank `nm` of 1000 unit rows by 256 (or its zero-padded
  1024-row copy `pm`), and one class label per feature row.  A row is normalised by `max (‖row‖, ε)`; the loss is the
  mean over the rows of minus the log-softmax, at the row's label, of the row's inner products with the bank.
-/
import Idealize.ShloMosaic.PureOps.Ideal
import Idealize.ShloMosaic.Lib.ValueIdx

noncomputable section

namespace LossSpec

open Idealize.ShloMosaic Idealize.ShloMosaic.ValueIdx

/-- The feature table, the bank, the padded bank and the labels as arrays over their index types. -/
abbrev Feat : Type := (⟨2, ![131072, 256]⟩ : Shape).Idx → EReal
abbrev Bank : Type := (⟨2, ![1000, 256]⟩ : Shape).Idx → EReal
abbrev PBank : Type := (⟨2, ![1024, 256]⟩ : Shape).Idx → EReal
abbrev Lab : Type := (⟨1, ![131072]⟩ : Shape).Idx → BitVec 32

/-- The clamp `ε` under the norm: the single-precision word both programs carry. -/
def eps : EReal := Ideal.ofBits .f32 0x2B8CBCCC#32

/-- The divisor of row `n` of a table with 256 columns: `max (√(Σ_d x[n,d]²), ε)`. -/
def rowDen {R : Nat} (x : (⟨2, ![R, 256]⟩ : Shape).Idx → EReal) (n : Fin R) : EReal :=
  max (Ideal.sqrt (∑ d : Fin 256, x (ix2 n d) * x (ix2 n d))) eps

/-- Entry `(n, d)` of the row-normalised table. -/
def unit {R : Nat} (x : (⟨2, ![R, 256]⟩ : Shape).Idx → EReal) (n : Fin R) (d : Fin 256) : EReal :=
  Ideal.div (x (ix2 n d)) (rowDen x n)

/-- The sum, over the rows labelled `c`, of the normalised rows: entry `(c, d)`. -/
def sums (x : Feat) (l : Lab) (c : Fin 1000) (d : Fin 256) : EReal :=
  ∑ n : Fin 131072, if (l (ix1 n)).toNat = c.val then unit x n d else 0

/-- The number of rows labelled `c`. -/
def counts (l : Lab) (c : Fin 1000) : EReal :=
  ∑ n : Fin 131072, if (l (ix1 n)).toNat = c.val then 1 else 0

/-- The same two tables as arrays over their index types. -/
def sumsV (x : Feat) (l : Lab) : Bank := fun j => sums x l (j 0) (j 1)
def countsV (l : Lab) : (⟨1, ![1000]⟩ : Shape).Idx → EReal := fun j => counts l (j 0)

/-- Row `n`'s inner product with bank row `c` (the bank may have 1000 or 1024 rows). -/
def logit {C : Nat} (x : Feat) (b : (⟨2, ![C, 256]⟩ : Shape).Idx → EReal)
    (n : Fin 131072) (c : Fin C) : EReal :=
  ∑ d : Fin 256, unit x n d * b (ix2 c d)

/-! ## The reference's arrangement: 1000 classes, shift by the row maximum inside the logarithm -/

def rMax (x : Feat) (nm : Bank) (n : Fin 131072) : EReal :=
  Finset.univ.sup fun c : Fin 1000 => logit x nm n c
def rLogp (x : Feat) (nm : Bank) (n : Fin 131072) (c : Fin 1000) : EReal :=
  (logit x nm n c - rMax x nm n) - Ideal.log (∑ c' : Fin 1000, Ideal.exp (logit x nm n c' - rMax x nm n))
/-- The class of row `n` as an index below 1000 (the label itself when it is in range). -/
def lab (l : Lab) (n : Fin 131072) : Fin 1000 :=
  ⟨(l (ix1 n)).toNat % 1000, Nat.mod_lt _ (by decide)⟩
def rLoss (x : Feat) (nm : Bank) (l : Lab) : EReal :=
  -(Ideal.div (∑ n : Fin 131072, rLogp x nm n (lab l n)) (131072 : ℝ))

/-! ## The kernel's arrangement: 1024 padded classes masked by `-∞`, the maximum added back outside the logarithm,
    rows taken tile by tile -/

/-- Row `r` of tile `i` of core `k`. -/
def rowOf (k : Fin 2) (i : Fin 64) (r : Fin 1024) : Fin 131072 :=
  ⟨(k.val * 64 + i.val) * 1024 + r.val, by have := k.isLt; have := i.isLt; have := r.isLt; omega⟩

/-- The masked logits: the inner product below class 1000, `-∞` on the 24 padding classes. -/
def kLogit (x : Feat) (pm : PBank) (n : Fin 131072) (c : Fin 1024) : EReal :=
  if c.val < 1000 then logit x pm n c else ⊥
def kMax (x : Feat) (pm : PBank) (n : Fin 131072) : EReal :=
  Finset.univ.sup fun c : Fin 1024 => kLogit x pm n c
def kLse (x : Feat) (pm : PBank) (n : Fin 131072) : EReal :=
  Ideal.log (∑ c : Fin 1024, Ideal.exp (kLogit x pm n c - kMax x pm n)) + kMax x pm n
def kTgt (x : Feat) (pm : PBank) (l : Lab) (n : Fin 131072) : EReal :=
  ∑ c : Fin 1024, if (l (ix1 n)).toNat = c.val then kLogit x pm n c else 0
def kRow (x : Feat) (pm : PBank) (l : Lab) (n : Fin 131072) : EReal :=
  0 - (kTgt x pm l n - kLse x pm n)
/-- Core `k`'s partial sum of the rows' losses. -/
def kPart (x : Feat) (pm : PBank) (l : Lab) (k : Fin 2) : EReal :=
  ∑ i : Fin 64, ∑ r : Fin 1024, kRow x pm l (rowOf k i r)
def kLoss (x : Feat) (pm : PBank) (l : Lab) : EReal :=
  Ideal.div (∑ k : Fin 2, kPart x pm l k) (131072 : ℝ)

/-- Core `k`'s partial class sums and counts over 1024 padded classes, tile by tile. -/
def kSums (x : Feat) (l : Lab) (k : Fin 2) (c : Fin 1024) (d : Fin 256) : EReal :=
  ∑ i : Fin 64, ∑ r : Fin 1024, if (l (ix1 (rowOf k i r))).toNat = c.val then unit x (rowOf k i r) d else 0
def kCounts (l : Lab) (k : Fin 2) (c : Fin 1024) : EReal :=
  ∑ i : Fin 64, ∑ r : Fin 1024, if (l (ix1 (rowOf k i r))).toNat = c.val then 1 else 0

/-- The labels as the kernel's windows see them, a column of 131072 rows, read back as a vector. -/
def colLab (lc : (⟨2, ![131072, 1]⟩ : Shape).Idx → BitVec 32) : Lab := fun j => lc (ix2 (j 0) (0 : Fin 1))

/-- The two cores' partial class sums added, the 24 padding classes dropped; the same for the counts. -/
def foldSums (sp : (⟨3, ![2, 1024, 256]⟩ : Shape).Idx → EReal) : Bank :=
  fun j => ∑ k : Fin 2, sp (ix3 k (⟨(j 0).val, Nat.lt_of_lt_of_le (j 0).isLt (by decide)⟩ : Fin 1024) (j 1))
def foldCounts (cp : (⟨3, ![2, 1, 1024]⟩ : Shape).Idx → EReal) : (⟨1, ![1000]⟩ : Shape).Idx → EReal :=
  fun j => ∑ k : Fin 2, cp (ix3 k (0 : Fin 1) (⟨(j 0).val, Nat.lt_of_lt_of_le (j 0).isLt (by decide)⟩ : Fin 1024))

/-- The bank padded with 24 zero rows. -/
def pad (nm : Bank) : PBank :=
  fun j => if h : (j 0).val < 1000 then nm (ix2 (⟨(j 0).val, h⟩ : Fin 1000) (j 1)) else 0

end LossSpec

end
-- ==== Proof.NewMem.lean ====
/-
  The bank update as ONE function of the class sums, the class counts and the old bank: both programs apply the same
  chain of host operations to them (flags = counts > 0; centre = normalised sums, zeroed where a class is empty;
  similarity = row inner product of the bank with the centre; weight = 1 - (1 - similarity)·flag; the new row is the
  normalised weight·old + (1 - weight)·centre).  The chain is named here and never opened, except for its last step,
  the row normalisation, whose entries are read at an index.
-/
import proofs.«400353_j90031104459200_3_alg».proof.ReferenceIdeal
import proofs.«400353_j90031104459200_3_alg».proof.Proof.Gen.ReferenceIdeal
import proofs.«400353_j90031104459200_3_alg».proof.Proof.Spec
import Idealize.ShloMosaic.Lib.ValueIdx
import Idealize.ShloMosaic.Lib.Pipeline.Value
import Idealize.ShloMosaic.PureOps.Ideal.Laws

noncomputable section

namespace Cert.ReferenceIdeal.BankUpdate

open Cert.ReferenceIdeal Cert.ReferenceIdeal.Gen Idealize.ShloMosaic Idealize.ShloMosaic.ValueIdx

variable {F : FTy → Type} [FloatOps F]

/-- A [1000, 256] table with each row divided by `max (‖row‖, ε)`, as the host computes it. -/
def hostL2 (w : FVec F S1000x256 .f32) : FVec F S1000x256 .f32 :=
  Host.divf w (broadcastInDim S1000x256 ![0, 1] bcast_S1000x1_S1000x256_0_1
    (maximumf
      (Host.sqrt (broadcastInDim S1000x1 ![0] bcast_S1000_S1000x1_0
        (Host.reduceAdd (mulf w w) (constant S_ .f32 0x00000000#32) reducesTo_S1000x256_S1000_d1 h_S_)))
      (broadcastInDim S1000x1 ![] bcast_S_S1000x1 (constant S_ .f32 0x2B8CBCCC#32))))

/-- The class flags as a column: 1 where the class has a row, 0 where it has none. -/
def flags (cnt : FVec F S1000 .f32) : FVec F S1000x1 .f32 :=
  broadcastInDim S1000x1 ![0] bcast_S1000_S1000x1_0
    (uitofp (F := F) .f32 (cmpf (F := F) .ogt cnt (broadcastInDim S1000 ![] bcast_S_S1000 (constant S_ .f32 0x00000000#32))))

/-- The batch centre: the normalised class sums, zeroed where a class is empty. -/
def centre (s : FVec F S1000x256 .f32) (cnt : FVec F S1000 .f32) : FVec F S1000x256 .f32 :=
  mulf (hostL2 s) (broadcastInDim S1000x256 ![0, 1] bcast_S1000x1_S1000x256_0_1 (flags cnt))

/-- The update weight as a column. -/
def weight (s : FVec F S1000x256 .f32) (cnt : FVec F S1000 .f32) (mem : FVec F S1000x256 .f32) : FVec F S1000x1 .f32 :=
  subf (broadcastInDim S1000x1 ![] bcast_S_S1000x1 (constant S_ .f32 0x3F800000#32))
    (mulf
      (subf (broadcastInDim S1000x1 ![] bcast_S_S1000x1 (constant S_ .f32 0x3F800000#32))
        (broadcastInDim S1000x1 ![0] bcast_S1000_S1000x1_0
          (Host.reduceAdd (mulf mem (centre s cnt)) (constant S_ .f32 0x00000000#32) reducesTo_S1000x256_S1000_d1 h_S_)))
      (flags cnt))

/-- The updated bank before its rows are normalised. -/
def mixed (s : FVec F S1000x256 .f32) (cnt : FVec F S1000 .f32) (mem : FVec F S1000x256 .f32) : FVec F S1000x256 .f32 :=
  addf
    (mulf (broadcastInDim S1000x256 ![0, 1] bcast_S1000x1_S1000x256_0_1 (weight s cnt mem)) mem)
    (mulf (broadcastInDim S1000x256 ![0, 1] bcast_S1000x1_S1000x256_0_1
        (subf (broadcastInDim S1000x1 ![] bcast_S_S1000x1 (constant S_ .f32 0x3F800000#32)) (weight s cnt mem)))
      (centre s cnt))

/-- The updated bank. -/
def newMem (s : FVec F S1000x256 .f32) (cnt : FVec F S1000 .f32) (mem : FVec F S1000x256 .f32) : FVec F S1000x256 .f32 :=
  hostL2 (mixed s cnt mem)

end Cert.ReferenceIdeal.BankUpdate

end
-- ==== Proof.Fold.lean ====
/-
  Re-indexing: the rows taken core by core and tile by tile are all the rows, once each; hence the two cores' partial
  class sums and counts add up to the class sums and counts.
-/
import proofs.«400353_j90031104459200_3_alg».proof.Proof.Spec
import Mathlib.Algebra.BigOperators.Group.Finset.Defs
import Mathlib.Data.Fintype.BigOperators

noncomputable section

namespace LossSpec

open Idealize.ShloMosaic Idealize.ShloMosaic.ValueIdx

/-- The triple (core, tile, row in tile) and the row number determine each other: the row number is
    `(64k + i)·1024 + r`, and conversely `k = n / 65536`, `i = (n / 1024) mod 64`, `r = n mod 1024`. -/
def rowEquiv : Fin 2 × Fin 64 × Fin 1024 ≃ Fin 131072 where
  toFun p := rowOf p.1 p.2.1 p.2.2
  invFun n :=
    (⟨n.val / 65536, by have := n.isLt; omega⟩,
     ⟨n.val / 1024 % 64, Nat.mod_lt _ (by decide)⟩,
     ⟨n.val % 1024, Nat.mod_lt _ (by decide)⟩)
  left_inv p := by
    obtain ⟨k, i, r⟩ := p
    have hk := k.isLt
    have hi := i.isLt
    have hr := r.isLt
    refine Prod.ext (Fin.ext ?_) (Prod.ext (Fin.ext ?_) (Fin.ext ?_))
    · show ((k.val * 64 + i.val) * 1024 + r.val) / 65536 = k.val
      omega
    · show ((k.val * 64 + i.val) * 1024 + r.val) / 1024 % 64 = i.val
      omega
    · show ((k.val * 64 + i.val) * 1024 + r.val) % 1024 = r.val
      omega
  right_inv n := by
    have hn := n.isLt
    apply Fin.ext
    show (n.val / 65536 * 64 + n.val / 1024 % 64) * 1024 + n.val % 1024 = n.val
    omega

/-- `(k, i, r) ↦ (64k + i)·1024 + r` is a bijection from 2 × 64 × 1024 onto the 131072 rows. -/
theorem sum_rowOf (f : Fin 131072 → EReal) :
    ∑ k : Fin 2, ∑ i : Fin 64, ∑ r : Fin 1024, f (rowOf k i r) = ∑ n : Fin 131072, f n := by
  rw [← Equiv.sum_comp rowEquiv f, Fintype.sum_prod_type]
  refine Finset.sum_congr rfl fun k _ => ?_
  rw [Fintype.sum_prod_type]
  exact Finset.sum_congr rfl fun i _ => Finset.sum_congr rfl fun r _ => rfl

theorem foldSums_kSums (x : Feat) (l : Lab) :
    foldSums (fun j => kSums x l (j 0) (j 1) (j 2)) = sumsV x l := by
  funext j
  exact sum_rowOf (fun n => if (l (ix1 n)).toNat = (j 0).val then unit x n (j 1) else 0)

theorem foldCounts_kCounts (l : Lab) :
    foldCounts (fun j => kCounts l (j 0) (j 2)) = countsV l := by
  funext j
  exact sum_rowOf (fun n => if (l (ix1 n)).toNat = (j 0).val then 1 else 0)

end LossSpec

end
-- ==== Proof.Region0.lean ====
/-
  Region 0 (the class sums and counts), read back from the generated class-R frame: what each core's output blocks
  hold after the grid, as sums over the core's 64 tiles of 1024 rows.
-/
import proofs.«400353_j90031104459200_3_alg».proof.Proof.Gen.KernelIdeal.Frame
import proofs.«400353_j90031104459200_3_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- A later tile: the sums block, holding `xo2`, is left at `xo2` plus the tile's one-hot product. -/
theorem outB2 (c : Dev nD) (i : grid0.Coords) (a2 : Memref sig .tc .vmem S1024x256 .f32) (h2 : a2.IsWhole)
    (a3 : Memref sig .tc .vmem S1024x1 .i32) (h3 : a3.IsWhole) (a4 : Memref sig .tc .vmem S1x1024x256 .f32) (h4 : a4.IsWhole)
    (a5 : Memref sig .tc .vmem S1x1x1024 .f32) (h5 : a5.IsWhole) (hc : ¬cond0_0 i)
    (x0 : Vec Ideal S1024x256 .f32) (x1 : Vec Ideal S1024x1 .i32) (xo2 : Vec Ideal S1x1024x256 .f32) (xo3 : Vec Ideal S1x1x1024 .f32) :
    out0_B_2 (F := Ideal) c i a2 h2 a3 h3 a4 h4 a5 h5 hc x0 x1 xo2 xo3 = k0_pay5 x0 x1 xo2 := by
  unfold out0_B_2
  rw [View.read_writes_eq_canon _ _ _ (cover0_B_2 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h4.read_unread, View.ld_unit_zero (S := S1024x256) hz2,
    View.ld_unit_zero (S := S1024x1) hz2, View.ld_unit_zero (S := S1x1024x256) hz3]

/-- A later tile: the counts block, holding `xo3`, is left at `xo3` plus the tile's one-hot column sums. -/
theorem outB3 (c : Dev nD) (i : grid0.Coords) (a2 : Memref sig .tc .vmem S1024x256 .f32) (h2 : a2.IsWhole)
    (a3 : Memref sig .tc .vmem S1024x1 .i32) (h3 : a3.IsWhole) (a4 : Memref sig .tc .vmem S1x1024x256 .f32) (h4 : a4.IsWhole)
    (a5 : Memref sig .tc .vmem S1x1x1024 .f32) (h5 : a5.IsWhole) (hc : ¬cond0_0 i)
    (x0 : Vec Ideal S1024x256 .f32) (x1 : Vec Ideal S1024x1 .i32) (xo2 : Vec Ideal S1x1024x256 .f32) (xo3 : Vec Ideal S1x1x1024 .f32) :
    out0_B_3 (F := Ideal) c i a2 h2 a3 h3 a4 h4 a5 h5 hc x0 x1 xo2 xo3 = k0_pay1 (k0_pay6 x1 xo3) := by
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h5.read_unread, View.ld_unit_zero (S := S1024x256) hz2,
    View.ld_unit_zero (S := S1024x1) hz2, View.ld_unit_zero (S := S1x1x1024) hz3]

/-- A core's first tile: the sums block is reset, then left at zero plus the tile's one-hot product. -/
theorem outA2 (c : Dev nD) (i : grid0.Coords) (a2 : Memref sig .tc .vmem S1024x256 .f32) (h2 : a2.IsWhole)
    (a3 : Memref sig .tc .vmem S1024x1 .i32) (h3 : a3.IsWhole) (a4 : Memref sig .tc .vmem S1x1024x256 .f32) (h4 : a4.IsWhole)
    (a5 : Memref sig .tc .vmem S1x1x1024 .f32) (h5 : a5.IsWhole) (hc : cond0_0 i)
    (x0 : Vec Ideal S1024x256 .f32) (x1 : Vec Ideal S1024x1 .i32) :
    out0_A_2 (F := Ideal) c i a2 h2 a3 h3 a4 h4 a5 h5 hc x0 x1 = k0_pay5 x0 x1 (k0_pay2 (F := Ideal)) := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x1024x256) hz3]
  simp only [View.readAt_eq_ld, h2.read_unread, h3.read_unread, View.ld_unit_zero (S := S1024x256) hz2,
    View.ld_unit_zero (S := S1024x1) hz2, View.readCov_unit_zero (S := S1x1024x256) _ hz3]

/-- A core's first tile: the counts block is reset, then left at zero plus the tile's one-hot column sums. -/
theorem outA3 (c : Dev nD) (i : grid0.Coords) (a2 : Memref sig .tc .vmem S1024x256 .f32) (h2 : a2.IsWhole)
    (a3 : Memref sig .tc .vmem S1024x1 .i32) (h3 : a3.IsWhole) (a4 : Memref sig .tc .vmem S1x1024x256 .f32) (h4 : a4.IsWhole)
    (a5 : Memref sig .tc .vmem S1x1x1024 .f32) (h5 : a5.IsWhole) (hc : cond0_0 i)
    (x0 : Vec Ideal S1024x256 .f32) (x1 : Vec Ideal S1024x1 .i32) :
    out0_A_3 (F := Ideal) c i a2 h2 a3 h3 a4 h4 a5 h5 hc x0 x1 = k0_pay1 (k0_pay6 x1 (k0_pay3 (F := Ideal))) := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x1x1024) hz3]
  simp only [View.readAt_eq_ld, h2.read_unread, h3.read_unread, View.ld_unit_zero (S := S1024x256) hz2,
    View.ld_unit_zero (S := S1024x1) hz2, View.readCov_unit_zero (S := S1x1x1024) _ hz3]

/-! ## The payloads read at an index -/

/-- The squared norm of row `r` of a tile, as the lane reduction computes it. -/
theorem sq_sum (x0 : FVec Ideal S1024x256 .f32) (r : Fin 1024) :
    multiReduction (F := Ideal) .add [1] S1024 (mulf x0 x0) 0x00000000#32 reduces_S1024x256_S1024 (.inl rfl) rfl (ix1 r)
      = ∑ d : Fin 256, x0 (ix2 r d) * x0 (ix2 r d) := by
  refine (Ideal.multiReduction_add_single (mulf x0 x0) _ reduces_S1024x256_S1024 (.inl rfl) rfl (ix1 r)).trans ?_
  refine Finset.sum_congr rfl fun k _ => ?_
  have e : reduces_S1024x256_S1024.lift (ix1 r) k = ix2 r k := funext fun a => Fin.ext (by
    match a with
    | ⟨0, _⟩ => rfl
    | ⟨1, _⟩ => rfl)
  exact congrArg (fun j => x0 j * x0 j) e

/-- The tile's rows, each divided by the larger of its norm and the clamp. -/
def featn (x0 : Vec Ideal S1024x256 .f32) : FVec Ideal S1024x256 .bf16 :=
  truncf .bf16 (divf x0 (broadcastTo S1024x256 (maximumf (sqrt (shapeCast S1024x1
    (multiReduction (F := Ideal) .add [1] S1024 (mulf x0 x0) 0x00000000#32 reduces_S1024x256_S1024 (.inl rfl) rfl) shapeCasts_S1024_S1024x1))
    (broadcast S1024x1 (Scalar.ofBits (F := Ideal) .f32 0x2B8CBCCC#32))) broadcasts_S1024x1_S1024x256)) bitsLt_bf16_f32

theorem featn_apply (x0 : Vec Ideal S1024x256 .f32) (r : Fin 1024) (d : Fin 256) :
    featn x0 (ix2 r d) = LossSpec.unit x0 r d := by
  unfold featn LossSpec.unit LossSpec.rowDen LossSpec.eps
  show Ideal.div (x0 (ix2 r d)) (broadcastTo S1024x256 _ broadcasts_S1024x1_S1024x256 (ix2 r d)) = _
  refine congrArg (Ideal.div (x0 (ix2 r d))) ?_
  refine (broadcastTo_apply _ broadcasts_S1024x1_S1024x256 (ix2 r d) (ix2 r (0 : Fin 1)) (fun a => by
    match a with
    | ⟨0, _⟩ => rfl
    | ⟨1, _⟩ => rfl)).trans ?_
  show max (Ideal.sqrt (shapeCast S1024x1 _ shapeCasts_S1024_S1024x1 (ix2 r (0 : Fin 1)))) _ = _
  refine congrArg (fun z => max (Ideal.sqrt z) (Ideal.ofBits .f32 0x2B8CBCCC#32)) ?_
  refine (shapeCast_apply _ shapeCasts_S1024_S1024x1 (ix2 r (0 : Fin 1)) (ix1 r) (by
    rw [Shape.rowMajor_val_two, Shape.rowMajor_val_one]
    show r.val = r.val * 1 + 0
    omega)).trans ?_
  exact sq_sum x0 r

/-- A class index below 1024 is its own 32-bit word, so the word compare is the compare of the label's value. -/
theorem word_eq_iff (l : BitVec 32) (cc : Fin 1024) : BitVec.ofNat 32 cc.val = l ↔ l.toNat = cc.val := by
  have hc : cc.val < 2 ^ 32 := lt_trans cc.isLt (by norm_num)
  constructor
  · intro h; rw [← h, BitVec.toNat_ofNat, Nat.mod_eq_of_lt hc]
  · intro h; rw [← h, BitVec.ofNat_toNat, BitVec.setWidth_eq]

/-- The one-hot entry as a real: 1 where the label is the class, 0 elsewhere. -/
theorem onehot_val (l : BitVec 32) (cc : Fin 1024) :
    ((((IntOp.cmpi .eq (BitVec.ofNat 32 cc.val) l).setWidth 32).toInt : ℝ) : EReal) = if l.toNat = cc.val then 1 else 0 := by
  by_cases h : l.toNat = cc.val
  · rw [if_pos h, (word_eq_iff l cc).mpr h]
    simp [IntOp.cmpi]
  · rw [if_neg h]
    have hne : ¬ BitVec.ofNat 32 cc.val = l := fun e => h ((word_eq_iff l cc).mp e)
    simp [IntOp.cmpi, beq_false_of_ne hne]

/-- The tile's one-hot matrix, rows by classes. -/
def oh (x1 : Vec Ideal S1024x1 .i32) : FVec Ideal S1024x1024 .f32 :=
  sitofp .f32 (extui 32 (k0_pay4 (F := Ideal) x1) natLt_1_32)

theorem oh_apply (x1 : Vec Ideal S1024x1 .i32) (r cc : Fin 1024) :
    oh x1 (ix2 r cc) = if (x1 (ix2 r (0 : Fin 1))).toNat = cc.val then 1 else 0 := by
  unfold oh k0_pay4
  show ((((IntOp.cmpi .eq (iota .tc S1024x1024 32 [1] iota_S1024x1024_d1_w32 (ix2 r cc))
    (broadcastTo S1024x1024 (shapeCast S1024x1 x1 shapeCasts_S1024x1_S1024x1) broadcasts_S1024x1_S1024x1024 (ix2 r cc))).setWidth 32).toInt : ℝ) : EReal) = _
  rw [iota_single_apply, broadcastTo_apply _ broadcasts_S1024x1_S1024x1024 (ix2 r cc) (ix2 r (0 : Fin 1)) (fun a => by
    match a with
    | ⟨0, _⟩ => rfl
    | ⟨1, _⟩ => rfl), shapeCast_self]
  exact onehot_val (x1 (ix2 r (0 : Fin 1))) cc

/-! ### The one-hot product -/

theorem lhs_mm_0 (i : S1024x256.Idx) (q : dot_S1024x1024_S1024x256_S1024x256_0_0_1_1_n_n.contr.Idx) :
    (dot_S1024x1024_S1024x256_S1024x256_0_0_1_1_n_n.lhsIdx i q 0).val = (q ⟨0, by decide⟩).val :=
  dot_S1024x1024_S1024x256_S1024x256_0_0_1_1_n_n.lhsIdx_val_of_single rfl i q
theorem lhs_mm_1 (i : S1024x256.Idx) (q : dot_S1024x1024_S1024x256_S1024x256_0_0_1_1_n_n.contr.Idx) :
    (dot_S1024x1024_S1024x256_S1024x256_0_0_1_1_n_n.lhsIdx i q 1).val = (i 0).val := by
  unfold DotDims.lhsIdx
  rw [dif_neg (show ¬(1 : Fin S1024x1024.rank) ∈ dot_S1024x1024_S1024x256_S1024x256_0_0_1_1_n_n.lhsBatch by decide), dif_pos (show (1 : Fin S1024x1024.rank) ∈ dot_S1024x1024_S1024x256_S1024x256_0_0_1_1_n_n.lhsNonContracting by decide)]
  rfl
theorem rhs_mm_0 (i : S1024x256.Idx) (q : dot_S1024x1024_S1024x256_S1024x256_0_0_1_1_n_n.contr.Idx) :
    (dot_S1024x1024_S1024x256_S1024x256_0_0_1_1_n_n.rhsIdx i q 0).val = (q ⟨0, by decide⟩).val :=
  dot_S1024x1024_S1024x256_S1024x256_0_0_1_1_n_n.rhsIdx_val_of_single rfl i q
theorem rhs_mm_1 (i : S1024x256.Idx) (q : dot_S1024x1024_S1024x256_S1024x256_0_0_1_1_n_n.contr.Idx) :
    (dot_S1024x1024_S1024x256_S1024x256_0_0_1_1_n_n.rhsIdx i q 1).val = (i 1).val := by
  unfold DotDims.rhsIdx
  rw [dif_neg (show ¬(1 : Fin S1024x256.rank) ∈ dot_S1024x1024_S1024x256_S1024x256_0_0_1_1_n_n.rhsBatch by decide), dif_pos (show (1 : Fin S1024x256.rank) ∈ dot_S1024x1024_S1024x256_S1024x256_0_0_1_1_n_n.rhsNonContracting by decide)]
  rfl

/-- The product contracts the tile's 1024 rows: entry (class, column) is the sum over the rows of the two factors. -/
theorem mm_apply (A : FVec Ideal S1024x1024 .bf16) (B : FVec Ideal S1024x256 .bf16) (cc : Fin 1024) (d : Fin 256) :
    matmul (F := Ideal) dot_S1024x1024_S1024x256_S1024x256_0_0_1_1_n_n none A B (constant S1024x256 .f32 0x00000000#32) (ix2 cc d)
      = ∑ r : Fin 1024, A (ix2 r cc) * B (ix2 r d) := by
  simp only [matmul]
  rw [Ideal.matmul_constant_zero_apply, ← Equiv.sum_comp (ValueIdx.contrEquiv1 dot_S1024x1024_S1024x256_S1024x256_0_0_1_1_n_n 1024 rfl rfl).symm]
  refine Finset.sum_congr rfl fun k _ => ?_
  have hk := ValueIdx.contrEquiv1_symm_val dot_S1024x1024_S1024x256_S1024x256_0_0_1_1_n_n 1024 rfl rfl k
  have el : dot_S1024x1024_S1024x256_S1024x256_0_0_1_1_n_n.lhsIdx (ix2 cc d) ((ValueIdx.contrEquiv1 dot_S1024x1024_S1024x256_S1024x256_0_0_1_1_n_n 1024 rfl rfl).symm k) = ix2 k cc := funext fun a => Fin.ext (by
    match a with
    | ⟨0, _⟩ => exact (lhs_mm_0 _ _).trans hk
    | ⟨1, _⟩ => exact lhs_mm_1 _ _)
  have er : dot_S1024x1024_S1024x256_S1024x256_0_0_1_1_n_n.rhsIdx (ix2 cc d) ((ValueIdx.contrEquiv1 dot_S1024x1024_S1024x256_S1024x256_0_0_1_1_n_n 1024 rfl rfl).symm k) = ix2 k d := funext fun a => Fin.ext (by
    match a with
    | ⟨0, _⟩ => exact (rhs_mm_0 _ _).trans hk
    | ⟨1, _⟩ => exact rhs_mm_1 _ _)
  rw [el, er]

/-- The accumulating store's payload, its pure operations named. -/
theorem pay5_eq (x0 : Vec Ideal S1024x256 .f32) (x1 : Vec Ideal S1024x1 .i32) (xo : Vec Ideal S1x1024x256 .f32) :
    k0_pay5 x0 x1 xo = shapeCast S1x1024x256 (addf (shapeCast S1024x256 xo shapeCasts_S1x1024x256_S1024x256)
      (matmul (F := Ideal) dot_S1024x1024_S1024x256_S1024x256_0_0_1_1_n_n none (truncf .bf16 (oh x1) bitsLt_bf16_f32) (featn x0)
        (constant S1024x256 .f32 0x00000000#32))) shapeCasts_S1024x256_S1x1024x256 := rfl

/-- Entry (class, column) of the sums block after a tile: what it held, plus the tile's normalised rows of that class. -/
theorem pay5_apply (x0 : Vec Ideal S1024x256 .f32) (x1 : Vec Ideal S1024x1 .i32) (xo : Vec Ideal S1x1024x256 .f32)
    (cc : Fin 1024) (d : Fin 256) :
    k0_pay5 x0 x1 xo (ix3 (0 : Fin 1) cc d)
      = xo (ix3 (0 : Fin 1) cc d)
        + ∑ r : Fin 1024, (if (x1 (ix2 r (0 : Fin 1))).toNat = cc.val then LossSpec.unit x0 r d else 0) := by
  rw [pay5_eq]
  refine (shapeCast_apply _ shapeCasts_S1024x256_S1x1024x256 (ix3 (0 : Fin 1) cc d) (ix2 cc d) (by
    rw [Shape.rowMajor_val_three, Shape.rowMajor_val_two]
    show cc.val * 256 + d.val = (0 * 1024 + cc.val) * 256 + d.val
    omega)).trans ?_
  rw [addf_apply, mm_apply]
  refine congrArg₂ (· + ·) ?_ ?_
  · exact shapeCast_apply _ shapeCasts_S1x1024x256_S1024x256 (ix2 cc d) (ix3 (0 : Fin 1) cc d) (by
      rw [Shape.rowMajor_val_three, Shape.rowMajor_val_two]
      show (0 * 1024 + cc.val) * 256 + d.val = cc.val * 256 + d.val
      omega)
  · refine Finset.sum_congr rfl fun r _ => ?_
    rw [featn_apply]
    show oh x1 (ix2 r cc) * _ = _
    rw [oh_apply]
    split
    · exact one_mul _
    · exact zero_mul _

/-- The reset block is zero everywhere. -/
theorem pay2_apply (cc : Fin 1024) (d : Fin 256) : k0_pay2 (F := Ideal) (ix3 (0 : Fin 1) cc d) = 0 := by
  show Ideal.ofBits .f32 0x00000000#32 = 0
  exact Ideal.ofBits_zero_f32

/-! ### The one-hot column sums -/

theorem pay6_eq (x1 : Vec Ideal S1024x1 .i32) (xo : Vec Ideal S1x1x1024 .f32) :
    k0_pay1 (k0_pay6 x1 xo) = shapeCast S1x1x1024 (addf (shapeCast S1x1024 xo shapeCasts_S1x1x1024_S1x1024)
      (shapeCast S1x1024 (multiReduction (F := Ideal) .add [0] S1024 (oh x1) 0x00000000#32 reduces_S1024x1024_S1024 (.inl rfl) rfl)
        shapeCasts_S1024_S1x1024)) shapeCasts_S1x1024_S1x1x1024 := rfl

/-- Entry `cc` of the counts block after a tile: what it held, plus the number of the tile's rows of that class. -/
theorem pay6_apply (x1 : Vec Ideal S1024x1 .i32) (xo : Vec Ideal S1x1x1024 .f32) (cc : Fin 1024) :
    k0_pay1 (k0_pay6 x1 xo) (ix3 (0 : Fin 1) (0 : Fin 1) cc)
      = xo (ix3 (0 : Fin 1) (0 : Fin 1) cc)
        + ∑ r : Fin 1024, (if (x1 (ix2 r (0 : Fin 1))).toNat = cc.val then (1 : EReal) else 0) := by
  rw [pay6_eq]
  refine (shapeCast_apply _ shapeCasts_S1x1024_S1x1x1024 (ix3 (0 : Fin 1) (0 : Fin 1) cc) (ix2 (0 : Fin 1) cc) (by
    rw [Shape.rowMajor_val_three, Shape.rowMajor_val_two]
    show 0 * 1024 + cc.val = (0 * 1 + 0) * 1024 + cc.val
    omega)).trans ?_
  rw [addf_apply]
  refine congrArg₂ (· + ·) ?_ ?_
  · exact shapeCast_apply _ shapeCasts_S1x1x1024_S1x1024 (ix2 (0 : Fin 1) cc) (ix3 (0 : Fin 1) (0 : Fin 1) cc) (by
      rw [Shape.rowMajor_val_three, Shape.rowMajor_val_two]
      show (0 * 1 + 0) * 1024 + cc.val = 0 * 1024 + cc.val
      omega)
  · refine (shapeCast_apply _ shapeCasts_S1024_S1x1024 (ix2 (0 : Fin 1) cc) (ix1 cc) (by
      rw [Shape.rowMajor_val_two, Shape.rowMajor_val_one]
      show cc.val = 0 * 1024 + cc.val
      omega)).trans ?_
    refine (Ideal.multiReduction_add_single (oh x1) _ reduces_S1024x1024_S1024 (.inl rfl) rfl (ix1 cc)).trans ?_
    refine Finset.sum_congr rfl fun k _ => ?_
    have e : reduces_S1024x1024_S1024.lift (ix1 cc) k = ix2 k cc := funext fun a => Fin.ext (by
      match a with
      | ⟨0, _⟩ => rfl
      | ⟨1, _⟩ => rfl)
    exact (congrArg (oh x1) e).trans (oh_apply x1 k cc)

/-- The reset block is zero everywhere. -/
theorem pay3_apply (cc : Fin 1024) : k0_pay3 (F := Ideal) (ix3 (0 : Fin 1) (0 : Fin 1) cc) = 0 := by
  show Ideal.ofBits .f32 0x00000000#32 = 0
  exact Ideal.ofBits_zero_f32

/-! ## The windows' blocks read off the arrays -/

/-- The feature table and the label column as the region finds them, and the tile of each at a point. -/
abbrev xarr (c : Dev nD) : S131072x256.Idx → EReal := V c main_arg0
abbrev larr (c : Dev nD) : S131072x1.Idx → BitVec 32 := V c main_v0
abbrev xblk (c : Dev nD) (t : Fin cfg0.N) : Vec Ideal S1024x256 .f32 := iblk0 V c 0 t
abbrev lblk (c : Dev nD) (t : Fin cfg0.N) : Vec Ideal S1024x1 .i32 := iblk0 V c 1 t

/-- The printed index maps over the grid: the input tiles advance with the point, the output blocks with the core. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 64 ∧ win0_2.index t (1 : Fin 3) = 0 ∧ win0_2.index t (2 : Fin 3) = 0
    ∧ win0_3.index t (0 : Fin 3) = t.val / 64 ∧ win0_3.index t (1 : Fin 3) = 0 ∧ win0_3.index t (2 : Fin 3) = 0 :=
  (by decide +kernel : ∀ t : Fin grid0.N, _)

/-- Row `r` of the tile at point `t`, as a row of the table. -/
def rowAt (t : Fin cfg0.N) (r : Fin 1024) : Fin 131072 :=
  ⟨t.val * 1024 + r.val, by have := t.isLt; have hN : cfg0.N = 128 := N_0; have := r.isLt; omega⟩

theorem xblk_apply (c : Dev nD) (t : Fin cfg0.N) (r : Fin 1024) (d : Fin 256) :
    xblk V c t (ix2 r d) = xarr V c (ix2 (rowAt t r) d) := by
  obtain ⟨e0, e1, -⟩ := idx_facts t
  unfold xblk xarr iblk0
  rw [View.read_apply]
  show V c main_arg0 _ = V c main_arg0 _
  congr 1
  funext a
  apply Fin.ext
  match a with
  | ⟨0, _⟩ => show win0_0.index t (0 : Fin 2) * 1024 + 1 * r.val = t.val * 1024 + r.val; rw [e0]; omega
  | ⟨1, _⟩ => show win0_0.index t (1 : Fin 2) * 256 + 1 * d.val = d.val; rw [e1]; omega

theorem lblk_apply (c : Dev nD) (t : Fin cfg0.N) (r : Fin 1024) :
    lblk V c t (ix2 r (0 : Fin 1)) = larr V c (ix2 (rowAt t r) (0 : Fin 1)) := by
  obtain ⟨-, -, e0, e1, -⟩ := idx_facts t
  unfold lblk larr iblk0
  rw [View.read_apply]
  show V c main_v0 _ = V c main_v0 _
  congr 1
  funext a
  apply Fin.ext
  match a with
  | ⟨0, _⟩ => show win0_1.index t (0 : Fin 2) * 1024 + 1 * r.val = t.val * 1024 + r.val; rw [e0]; omega
  | ⟨1, _⟩ => show win0_1.index t (1 : Fin 2) * 1 + 1 * 0 = 0; rw [e1]

/-- A tile's normalised row is the table's: the norm is over the same 256 entries. -/
theorem unit_blk (c : Dev nD) (t : Fin cfg0.N) (r : Fin 1024) (d : Fin 256) :
    LossSpec.unit (xblk V c t) r d = LossSpec.unit (xarr V c) (rowAt t r) d := by
  unfold LossSpec.unit LossSpec.rowDen
  rw [xblk_apply]
  simp only [xblk_apply]

/-! ## The accumulation over a core's tiles -/

/-- Tile `p`'s share of entry (class, column) of its core's class sums: the normalised rows of that class among
    the tile's 1024 rows (nothing past the grid). -/
def addS (c : Dev nD) (cc : Fin 1024) (d : Fin 256) (p : ℕ) : EReal :=
  if h : p < cfg0.N then
    ∑ r : Fin 1024, (if (larr V c (ix2 (rowAt ⟨p, h⟩ r) (0 : Fin 1))).toNat = cc.val
      then LossSpec.unit (xarr V c) (rowAt ⟨p, h⟩ r) d else 0)
  else 0

/-- Tile `p`'s share of entry `cc` of its core's class counts. -/
def addC (c : Dev nD) (cc : Fin 1024) (p : ℕ) : EReal :=
  if h : p < cfg0.N then
    ∑ r : Fin 1024, (if (larr V c (ix2 (rowAt ⟨p, h⟩ r) (0 : Fin 1))).toNat = cc.val then (1 : EReal) else 0)
  else 0

theorem tileS (c : Dev nD) (t : Fin cfg0.N) (cc : Fin 1024) (d : Fin 256) :
    ∑ r : Fin 1024, (if (lblk V c t (ix2 r (0 : Fin 1))).toNat = cc.val then LossSpec.unit (xblk V c t) r d else 0)
      = addS V c cc d t.val := by
  unfold addS
  rw [dif_pos t.isLt]
  refine Finset.sum_congr rfl fun r _ => ?_
  rw [lblk_apply, unit_blk]

theorem tileC (c : Dev nD) (t : Fin cfg0.N) (cc : Fin 1024) :
    ∑ r : Fin 1024, (if (lblk V c t (ix2 r (0 : Fin 1))).toNat = cc.val then (1 : EReal) else 0) = addC V c cc t.val := by
  unfold addC
  rw [dif_pos t.isLt]
  refine Finset.sum_congr rfl fun r _ => ?_
  rw [lblk_apply]

/-- At a core's first tile the sums block is left at the tile's share. -/
theorem sumsA (c : Dev nD) (t : Fin cfg0.N) (h0 : t.val % 64 = 0) (cc : Fin 1024) (d : Fin 256) :
    (outsAt0 V c t.val t.isLt).1 (ix3 (0 : Fin 1) cc d) = addS V c cc d t.val := by
  rw [outsAt0_A V c t h0]
  dsimp only
  refine (congrFun (outA2 c (grid0.coords t) (ms0_0 t) (hs0_0 t) (ms0_1 t) (hs0_1 t) (ms0_2 t) (hs0_2 t) (ms0_3 t) (hs0_3 t)
    ((hcond0_0 t).mpr h0) (xblk V c t) (lblk V c t)) (ix3 (0 : Fin 1) cc d)).trans ?_
  rw [pay5_apply, pay2_apply, zero_add, tileS]

/-- At a later tile it is left at what the tile before left plus the tile's share. -/
theorem sumsB (c : Dev nD) (t : Fin cfg0.N) (h0 : ¬t.val % 64 = 0) (cc : Fin 1024) (d : Fin 256) :
    (outsAt0 V c t.val t.isLt).1 (ix3 (0 : Fin 1) cc d)
      = (outsAt0 V c (t.val - 1) (Nat.lt_of_le_of_lt (Nat.sub_le _ _) t.isLt)).1 (ix3 (0 : Fin 1) cc d) + addS V c cc d t.val := by
  rw [outsAt0_B V c t h0]
  dsimp only
  refine (congrFun (outB2 c (grid0.coords t) (ms0_0 t) (hs0_0 t) (ms0_1 t) (hs0_1 t) (ms0_2 t) (hs0_2 t) (ms0_3 t) (hs0_3 t)
    (fun h => h0 ((hcond0_0 t).mp h)) (xblk V c t) (lblk V c t)
    (outsAt0 V c (t.val - 1) (Nat.lt_of_le_of_lt (Nat.sub_le _ _) t.isLt)).1
    (outsAt0 V c (t.val - 1) (Nat.lt_of_le_of_lt (Nat.sub_le _ _) t.isLt)).2) (ix3 (0 : Fin 1) cc d)).trans ?_
  rw [pay5_apply, tileS]

theorem countsA (c : Dev nD) (t : Fin cfg0.N) (h0 : t.val % 64 = 0) (cc : Fin 1024) :
    (outsAt0 V c t.val t.isLt).2 (ix3 (0 : Fin 1) (0 : Fin 1) cc) = addC V c cc t.val := by
  rw [outsAt0_A V c t h0]
  dsimp only
  refine (congrFun (outA3 c (grid0.coords t) (ms0_0 t) (hs0_0 t) (ms0_1 t) (hs0_1 t) (ms0_2 t) (hs0_2 t) (ms0_3 t) (hs0_3 t)
    ((hcond0_0 t).mpr h0) (xblk V c t) (lblk V c t)) (ix3 (0 : Fin 1) (0 : Fin 1) cc)).trans ?_
  rw [pay6_apply, pay3_apply, zero_add, tileC]

theorem countsB (c : Dev nD) (t : Fin cfg0.N) (h0 : ¬t.val % 64 = 0) (cc : Fin 1024) :
    (outsAt0 V c t.val t.isLt).2 (ix3 (0 : Fin 1) (0 : Fin 1) cc)
      = (outsAt0 V c (t.val - 1) (Nat.lt_of_le_of_lt (Nat.sub_le _ _) t.isLt)).2 (ix3 (0 : Fin 1) (0 : Fin 1) cc) + addC V c cc t.val := by
  rw [outsAt0_B V c t h0]
  dsimp only
  refine (congrFun (outB3 c (grid0.coords t) (ms0_0 t) (hs0_0 t) (ms0_1 t) (hs0_1 t) (ms0_2 t) (hs0_2 t) (ms0_3 t) (hs0_3 t)
    (fun h => h0 ((hcond0_0 t).mp h)) (xblk V c t) (lblk V c t)
    (outsAt0 V c (t.val - 1) (Nat.lt_of_le_of_lt (Nat.sub_le _ _) t.isLt)).1
    (outsAt0 V c (t.val - 1) (Nat.lt_of_le_of_lt (Nat.sub_le _ _) t.isLt)).2) (ix3 (0 : Fin 1) (0 : Fin 1) cc)).trans ?_
  rw [pay6_apply, tileC]

/-- After point `n` the sums block holds the shares of its core's tiles up to `n`: the sum is over the tiles
    `64 (n / 64) … n`, in any order since the extended reals' addition is commutative and associative. -/
theorem sums_inv (c : Dev nD) (cc : Fin 1024) (d : Fin 256) : ∀ (n : ℕ) (hn : n < cfg0.N),
    (outsAt0 V c n hn).1 (ix3 (0 : Fin 1) cc d) = ∑ s ∈ Finset.range (n % 64 + 1), addS V c cc d (n / 64 * 64 + s)
  | 0, hn => by
    rw [sumsA V c ⟨0, hn⟩ rfl cc d]
    simp
  | n + 1, hn => by
    by_cases h0 : (n + 1) % 64 = 0
    · rw [sumsA V c ⟨n + 1, hn⟩ h0 cc d, h0, Finset.sum_range_one]
      show addS V c cc d (n + 1) = addS V c cc d ((n + 1) / 64 * 64 + 0)
      congr 1
      omega
    · rw [sumsB V c ⟨n + 1, hn⟩ h0 cc d]
      show (outsAt0 V c n _).1 (ix3 (0 : Fin 1) cc d) + addS V c cc d (n + 1) = _
      rw [sums_inv c cc d n]
      have h1 : (n + 1) % 64 = n % 64 + 1 := by omega
      have h2 : (n + 1) / 64 = n / 64 := by omega
      rw [h1, h2, Finset.sum_range_succ _ (n % 64 + 1)]
      congr 2
      omega

theorem counts_inv (c : Dev nD) (cc : Fin 1024) : ∀ (n : ℕ) (hn : n < cfg0.N),
    (outsAt0 V c n hn).2 (ix3 (0 : Fin 1) (0 : Fin 1) cc) = ∑ s ∈ Finset.range (n % 64 + 1), addC V c cc (n / 64 * 64 + s)
  | 0, hn => by
    rw [countsA V c ⟨0, hn⟩ rfl cc]
    simp
  | n + 1, hn => by
    by_cases h0 : (n + 1) % 64 = 0
    · rw [countsA V c ⟨n + 1, hn⟩ h0 cc, h0, Finset.sum_range_one]
      show addC V c cc (n + 1) = addC V c cc ((n + 1) / 64 * 64 + 0)
      congr 1
      omega
    · rw [countsB V c ⟨n + 1, hn⟩ h0 cc]
      show (outsAt0 V c n _).2 (ix3 (0 : Fin 1) (0 : Fin 1) cc) + addC V c cc (n + 1) = _
      rw [counts_inv c cc n]
      have h1 : (n + 1) % 64 = n % 64 + 1 := by omega
      have h2 : (n + 1) / 64 = n / 64 := by omega
      rw [h1, h2, Finset.sum_range_succ _ (n % 64 + 1)]
      congr 2
      omega

/-! ## The blocks written back -/

/-- A core's 64 shares add up to its partial class sums: tile `i` of core `k` is point `64 k + i`. -/
theorem runS (c : Dev nD) (k : Fin 2) (cc : Fin 1024) (d : Fin 256) :
    ∑ s ∈ Finset.range 64, addS V c cc d (k.val * 64 + s)
      = LossSpec.kSums (xarr V c) (LossSpec.colLab (larr V c)) k cc d := by
  unfold LossSpec.kSums
  rw [Finset.sum_range]
  refine Finset.sum_congr rfl fun i _ => ?_
  have hlt : k.val * 64 + i.val < cfg0.N := by
    have := k.isLt; have := i.isLt; rw [show cfg0.N = 128 from N_0]; omega
  unfold addS
  rw [dif_pos hlt]
  refine Finset.sum_congr rfl fun r _ => ?_
  have e : rowAt ⟨k.val * 64 + i.val, hlt⟩ r = LossSpec.rowOf k i r := Fin.ext rfl
  rw [e]
  rfl

theorem runC (c : Dev nD) (k : Fin 2) (cc : Fin 1024) :
    ∑ s ∈ Finset.range 64, addC V c cc (k.val * 64 + s) = LossSpec.kCounts (LossSpec.colLab (larr V c)) k cc := by
  unfold LossSpec.kCounts
  rw [Finset.sum_range]
  refine Finset.sum_congr rfl fun i _ => ?_
  have hlt : k.val * 64 + i.val < cfg0.N := by
    have := k.isLt; have := i.isLt; rw [show cfg0.N = 128 from N_0]; omega
  unfold addC
  rw [dif_pos hlt]
  refine Finset.sum_congr rfl fun r _ => ?_
  have e : rowAt ⟨k.val * 64 + i.val, hlt⟩ r = LossSpec.rowOf k i r := Fin.ext rfl
  rw [e]
  rfl

/-- Both cores' partial class sums, and counts, as one array each. -/
def GS (c : Dev nD) : S2x1024x256.Idx → EReal :=
  fun j => LossSpec.kSums (xarr V c) (LossSpec.colLab (larr V c)) (j 0) (j 1) (j 2)
def GC (c : Dev nD) : S2x1x1024.Idx → EReal :=
  fun j => LossSpec.kCounts (LossSpec.colLab (larr V c)) (j 0) (j 2)

/-- An index of the sums array is in point `t`'s block iff each coordinate is in the block's range on its axis. -/
theorem mem_blkS (t : Fin cfg0.N) (i : S2x1024x256.Idx) :
    i ∈ ((cfg0.win 2).blk t).view.set ↔ ∀ a : Fin 3, win0_2.index t a * S1x1024x256.size a ≤ (i a).val
      ∧ (i a).val < win0_2.index t a * S1x1024x256.size a + S1x1024x256.size a := by
  show i ∈ ((View.whole main_v1_0).slice (win0_2.rect t)).set ↔ _
  rw [View.set_slice_whole, Rect.mem_set_unit]
  exact Iff.rfl
theorem mem_blkC (t : Fin cfg0.N) (i : S2x1x1024.Idx) :
    i ∈ ((cfg0.win 3).blk t).view.set ↔ ∀ a : Fin 3, win0_3.index t a * S1x1x1024.size a ≤ (i a).val
      ∧ (i a).val < win0_3.index t a * S1x1x1024.size a + S1x1x1024.size a := by
  show i ∈ ((View.whole main_v1_1).slice (win0_3.rect t)).set ↔ _
  rw [View.set_slice_whole, Rect.mem_set_unit]
  exact Iff.rfl

/-- A core's last tile writes back block `t / 64` holding that core's partial class sums. -/
theorem flushedS (c : Dev nD) (t : Fin cfg0.N) (hf : (cfg0.win 2).flush t = true) :
    (dat0 V c).flushed 2 t = ((cfg0.win 2).blk t).view.read (Elt Ideal) (GS V c) := by
  have h63 : t.val % 64 = 63 := (flush0_2 t).mp hf
  have hN : cfg0.N = 128 := N_0
  have htl := t.isLt
  obtain ⟨-, -, -, -, e0, e1, e2, -⟩ := idx_facts t
  show (cfg0.win 2).cut (grid0.coords t) ((dat0 V c).after 2 t) = _
  rw [after0_2]
  refine funext fun (y : S1x1024x256.Idx) => ?_
  obtain ⟨u, cc, d, rfl⟩ : ∃ (u : Fin 1) (cc : Fin 1024) (d : Fin 256), y = ix3 u cc d := ⟨y 0, y 1, y 2, eq_ix3 y⟩
  obtain rfl : u = 0 := Subsingleton.elim _ _
  rw [View.read_apply]
  show (outsAt0 V c t.val t.isLt).1 (ix3 (0 : Fin 1) cc d) = GS V c (((cfg0.win 2).blk t).view.emb (ix3 (0 : Fin 1) cc d))
  have hemb : ((cfg0.win 2).blk t).view.emb (ix3 (0 : Fin 1) cc d) = ix3 (⟨t.val / 64, by omega⟩ : Fin 2) cc d := by
    funext a
    apply Fin.ext
    match a with
    | ⟨0, _⟩ => show win0_2.index t (0 : Fin 3) * 1 + 1 * 0 = t.val / 64; rw [e0]; omega
    | ⟨1, _⟩ => show win0_2.index t (1 : Fin 3) * 1024 + 1 * cc.val = cc.val; rw [e1]; omega
    | ⟨2, _⟩ => show win0_2.index t (2 : Fin 3) * 256 + 1 * d.val = d.val; rw [e2]; omega
  rw [hemb, sums_inv V c cc d t.val t.isLt, h63]
  show _ = LossSpec.kSums (xarr V c) (LossSpec.colLab (larr V c)) ⟨t.val / 64, _⟩ cc d
  rw [← runS]

theorem flushedC (c : Dev nD) (t : Fin cfg0.N) (hf : (cfg0.win 3).flush t = true) :
    (dat0 V c).flushed 3 t = ((cfg0.win 3).blk t).view.read (Elt Ideal) (GC V c) := by
  have h63 : t.val % 64 = 63 := (flush0_3 t).mp hf
  have hN : cfg0.N = 128 := N_0
  have htl := t.isLt
  obtain ⟨-, -, -, -, -, -, -, e0, e1, e2⟩ := idx_facts t
  show (cfg0.win 3).cut (grid0.coords t) ((dat0 V c).after 3 t) = _
  rw [after0_3]
  refine funext fun (y : S1x1x1024.Idx) => ?_
  obtain ⟨u, u', cc, rfl⟩ : ∃ (u u' : Fin 1) (cc : Fin 1024), y = ix3 u u' cc := ⟨y 0, y 1, y 2, eq_ix3 y⟩
  obtain rfl : u = 0 := Subsingleton.elim _ _
  obtain rfl : u' = 0 := Subsingleton.elim _ _
  rw [View.read_apply]
  show (outsAt0 V c t.val t.isLt).2 (ix3 (0 : Fin 1) (0 : Fin 1) cc) = GC V c (((cfg0.win 3).blk t).view.emb (ix3 (0 : Fin 1) (0 : Fin 1) cc))
  have hemb : ((cfg0.win 3).blk t).view.emb (ix3 (0 : Fin 1) (0 : Fin 1) cc) = ix3 (⟨t.val / 64, by omega⟩ : Fin 2) (0 : Fin 1) cc := by
    funext a
    apply Fin.ext
    match a with
    | ⟨0, _⟩ => show win0_3.index t (0 : Fin 3) * 1 + 1 * 0 = t.val / 64; rw [e0]; omega
    | ⟨1, _⟩ => show win0_3.index t (1 : Fin 3) * 1 + 1 * 0 = 0; rw [e1]
    | ⟨2, _⟩ => show win0_3.index t (2 : Fin 3) * 1024 + 1 * cc.val = cc.val; rw [e2]; omega
  rw [hemb, counts_inv V c cc t.val t.isLt, h63]
  show _ = LossSpec.kCounts (LossSpec.colLab (larr V c)) ⟨t.val / 64, _⟩ cc
  rw [← runC]

/-- After the grid, core `k`'s block of the first output holds the core's partial class sums. -/
theorem sums_final (c : Dev nD) (k : Fin 2) (cc : Fin 1024) (d : Fin 256) :
    ((dat0 (F := Ideal) V c).arrAt 2 cfg0.N : S2x1024x256.Idx → EReal) (ix3 k cc d)
      = LossSpec.kSums (V c main_arg0) (LossSpec.colLab (V c main_v0)) k cc d := by
  have hN : cfg0.N = 128 := N_0
  have hk := k.isLt
  have ht : k.val * 64 + 63 < cfg0.N := by omega
  have hf : (cfg0.win 2).flush ⟨k.val * 64 + 63, ht⟩ = true :=
    (flush0_2 ⟨k.val * 64 + 63, ht⟩).mpr (by show (k.val * 64 + 63) % 64 = 63; omega)
  have hmem : (ix3 k cc d : S2x1024x256.Idx) ∈ ((cfg0.win 2).blk ⟨k.val * 64 + 63, ht⟩).view.set := by
    obtain ⟨-, -, -, -, e0, e1, e2, -⟩ := idx_facts ⟨k.val * 64 + 63, ht⟩
    rw [mem_blkS]
    intro a
    have hc := cc.isLt
    have hd := d.isLt
    match a with
    | ⟨0, _⟩ =>
      show win0_2.index ⟨k.val * 64 + 63, ht⟩ (0 : Fin 3) * 1 ≤ k.val ∧ k.val < win0_2.index ⟨k.val * 64 + 63, ht⟩ (0 : Fin 3) * 1 + 1
      rw [e0]; show (k.val * 64 + 63) / 64 * 1 ≤ k.val ∧ k.val < (k.val * 64 + 63) / 64 * 1 + 1; omega
    | ⟨1, _⟩ =>
      show win0_2.index ⟨k.val * 64 + 63, ht⟩ (1 : Fin 3) * 1024 ≤ cc.val ∧ cc.val < win0_2.index ⟨k.val * 64 + 63, ht⟩ (1 : Fin 3) * 1024 + 1024
      rw [e1]; omega
    | ⟨2, _⟩ =>
      show win0_2.index ⟨k.val * 64 + 63, ht⟩ (2 : Fin 3) * 256 ≤ d.val ∧ d.val < win0_2.index ⟨k.val * 64 + 63, ht⟩ (2 : Fin 3) * 256 + 256
      rw [e2]; omega
  exact (dat0 V c).arrAt_apply_of_mem 2 (GS V c) (flushedS V c) cfg0.N ⟨k.val * 64 + 63, ht⟩ (ix3 k cc d) ht hf hmem

/-- After the grid, core `k`'s block of the second output holds the core's partial class counts. -/
theorem counts_final (c : Dev nD) (k : Fin 2) (cc : Fin 1024) :
    ((dat0 (F := Ideal) V c).arrAt 3 cfg0.N : S2x1x1024.Idx → EReal) (ix3 k (0 : Fin 1) cc)
      = LossSpec.kCounts (LossSpec.colLab (V c main_v0)) k cc := by
  have hN : cfg0.N = 128 := N_0
  have hk := k.isLt
  have ht : k.val * 64 + 63 < cfg0.N := by omega
  have hf : (cfg0.win 3).flush ⟨k.val * 64 + 63, ht⟩ = true :=
    (flush0_3 ⟨k.val * 64 + 63, ht⟩).mpr (by show (k.val * 64 + 63) % 64 = 63; omega)
  have hmem : (ix3 k (0 : Fin 1) cc : S2x1x1024.Idx) ∈ ((cfg0.win 3).blk ⟨k.val * 64 + 63, ht⟩).view.set := by
    obtain ⟨-, -, -, -, -, -, -, e0, e1, e2⟩ := idx_facts ⟨k.val * 64 + 63, ht⟩
    rw [mem_blkC]
    intro a
    have hc := cc.isLt
    match a with
    | ⟨0, _⟩ =>
      show win0_3.index ⟨k.val * 64 + 63, ht⟩ (0 : Fin 3) * 1 ≤ k.val ∧ k.val < win0_3.index ⟨k.val * 64 + 63, ht⟩ (0 : Fin 3) * 1 + 1
      rw [e0]; show (k.val * 64 + 63) / 64 * 1 ≤ k.val ∧ k.val < (k.val * 64 + 63) / 64 * 1 + 1; omega
    | ⟨1, _⟩ =>
      show win0_3.index ⟨k.val * 64 + 63, ht⟩ (1 : Fin 3) * 1 ≤ 0 ∧ 0 < win0_3.index ⟨k.val * 64 + 63, ht⟩ (1 : Fin 3) * 1 + 1
      rw [e1]; omega
    | ⟨2, _⟩ =>
      show win0_3.index ⟨k.val * 64 + 63, ht⟩ (2 : Fin 3) * 1024 ≤ cc.val ∧ cc.val < win0_3.index ⟨k.val * 64 + 63, ht⟩ (2 : Fin 3) * 1024 + 1024
      rw [e2]; omega
  exact (dat0 V c).arrAt_apply_of_mem 3 (GC V c) (flushedC V c) cfg0.N ⟨k.val * 64 + 63, ht⟩ (ix3 k (0 : Fin 1) cc) ht hf hmem

end Cert.KernelIdeal.Region0

end
-- ==== Proof.Region1.lean ====
/-
  Region 1 (the loss), read back from the generated class-R frame: what each core's output block holds after the
  grid, the sum over the core's 64 tiles of 1024 rows of each row's loss.
-/
import proofs.«400353_j90031104459200_3_alg».proof.Proof.Gen.KernelIdeal.Frame
import proofs.«400353_j90031104459200_3_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

variable (V : (c : Dev nD) → (b : Ref sig .tc) → Buf (Elt Ideal) ((c : Thread nD τ).loc b))

/-! ## The words the body carries, as extended reals -/

/-- The mask's named constant is `-∞` over the extended reals. -/
theorem negBig_eq : Named.named (F := Ideal) κ "neg_big" (φ := .f32) 0xFF333332#32 = (⊥ : EReal) :=
  IdealRules.named_const.ideal_named_scalar _ _ _ _ rfl

/-- The temperature's word is the real `1`. -/
theorem one_eq : Ideal.ofBits .f32 0x3F800000#32 = 1 := by
  simp [Ideal.ofBits, Ideal.ieee, -EReal.coe_mul]; norm_num

/-- The maximum's initial word is `-∞`. -/
theorem negInf_eq : Ideal.ofBits .f32 0xFF800000#32 = (⊥ : EReal) := by
  simp [Ideal.ofBits, Ideal.ieee]

/-! ## Layout operations of the body read at an index -/

section Layout
variable {α : Type}

/-- A vector of 1024 entries seen as a column: entry `(r, 0)` is entry `r`. -/
theorem castCol (v : S1024.Idx → α) (r : Fin 1024) :
    shapeCast S1024x1 v shapeCasts_S1024_S1024x1 (ix2 r (0 : Fin 1)) = v (ix1 r) :=
  shapeCast_apply v _ _ _ (by rw [Shape.rowMajor_val_one, Shape.rowMajor_val_two]; show r.val = r.val * 1 + 0; omega)

/-- A column spread over 256 lanes: entry `(r, d)` is the column's entry `(r, 0)`. -/
theorem bcastCol256 (v : S1024x1.Idx → α) (r : Fin 1024) (d : Fin 256) :
    broadcastTo S1024x256 v broadcasts_S1024x1_S1024x256 (ix2 r d) = v (ix2 r (0 : Fin 1)) :=
  broadcastTo_apply v _ _ _ (fun a => by match a with | ⟨0, _⟩ => rfl | ⟨1, _⟩ => rfl)

/-- A column spread over 1024 lanes: entry `(r, cc)` is the column's entry `(r, 0)`. -/
theorem bcastCol1024 (v : S1024x1.Idx → α) (r : Fin 1024) (cc : Fin 1024) :
    broadcastTo S1024x1024 v broadcasts_S1024x1_S1024x1024 (ix2 r cc) = v (ix2 r (0 : Fin 1)) :=
  broadcastTo_apply v _ _ _ (fun a => by match a with | ⟨0, _⟩ => rfl | ⟨1, _⟩ => rfl)

end Layout

/-! ## The reductions of the body read at an index -/

/-- A row's sum over its 256 lanes. -/
theorem rowSum256 (v : FVec Ideal S1024x256 .f32) (hφ : FKind.Formats .f32)
    (hacc : (0x00000000#32 : BitVec 32) = FKind.add.neutral .f32 hφ) (r : Fin 1024) :
    multiReduction .add [1] S1024 v 0x00000000#32 reduces_S1024x256_S1024 hφ hacc (ix1 r) = ∑ d : Fin 256, v (ix2 r d) :=
  (Ideal.multiReduction_add_single v 0x00000000#32 reduces_S1024x256_S1024 hφ hacc (ix1 r)).trans
    (Finset.sum_congr rfl fun k _ => congrArg v (funext fun a => Fin.ext (by match a with | ⟨0, _⟩ => rfl | ⟨1, _⟩ => rfl)))

/-- A row's sum over its 1024 lanes. -/
theorem rowSum1024 (v : FVec Ideal S1024x1024 .f32) (hφ : FKind.Formats .f32)
    (hacc : (0x00000000#32 : BitVec 32) = FKind.add.neutral .f32 hφ) (r : Fin 1024) :
    multiReduction .add [1] S1024 v 0x00000000#32 reduces_S1024x1024_S1024_2 hφ hacc (ix1 r) = ∑ cc : Fin 1024, v (ix2 r cc) :=
  (Ideal.multiReduction_add_single v 0x00000000#32 reduces_S1024x1024_S1024_2 hφ hacc (ix1 r)).trans
    (Finset.sum_congr rfl fun k _ => congrArg v (funext fun a => Fin.ext (by match a with | ⟨0, _⟩ => rfl | ⟨1, _⟩ => rfl)))

/-- A column's sum over its 1024 rows. -/
theorem colSum1024 (v : FVec Ideal S1024x1 .f32) (hφ : FKind.Formats .f32)
    (hacc : (0x00000000#32 : BitVec 32) = FKind.add.neutral .f32 hφ) :
    multiReduction .add [0] S1 v 0x00000000#32 reduces_S1024x1_S1 hφ hacc (ix1 (0 : Fin 1)) = ∑ r : Fin 1024, v (ix2 r (0 : Fin 1)) :=
  (Ideal.multiReduction_add_single v 0x00000000#32 reduces_S1024x1_S1 hφ hacc (ix1 (0 : Fin 1))).trans
    (Finset.sum_congr rfl fun k _ => congrArg v (funext fun a => Fin.ext (by match a with | ⟨0, _⟩ => rfl | ⟨1, _⟩ => rfl)))

/-- A row's maximum over its 1024 lanes, from `-∞`: the supremum of the row. -/
theorem rowMax1024 (v : FVec Ideal S1024x1024 .f32) (hφ : FKind.Formats .f32)
    (hacc : (0xFF800000#32 : BitVec 32) = FKind.maximumf.neutral .f32 hφ) (r : Fin 1024) :
    multiReduction .maximumf [1] S1024 v 0xFF800000#32 reduces_S1024x1024_S1024_2 hφ hacc (ix1 r)
      = Finset.univ.sup fun cc : Fin 1024 => v (ix2 r cc) := by
  refine (Ideal.multiReduction_maximumf_single v 0xFF800000#32 reduces_S1024x1024_S1024_2 hφ hacc (ix1 r)).trans ?_
  show Finset.fold max (Ideal.ofBits .f32 0xFF800000#32) _ _ = _
  rw [negInf_eq]
  refine (Finset.fold_congr (g := fun cc : Fin 1024 => v (ix2 r cc)) fun k _ => ?_).trans rfl
  exact congrArg v (funext fun a => Fin.ext (by match a with | ⟨0, _⟩ => rfl | ⟨1, _⟩ => rfl))

/-! ## The product with the bank read at an index -/

theorem lhs_0 (i : S1024x1024.Idx) (q : dot_S1024x256_S1024x256_S1024x1024_1_1_0_0_n_n.contr.Idx) :
    (dot_S1024x256_S1024x256_S1024x1024_1_1_0_0_n_n.lhsIdx i q 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
theorem lhs_1 (i : S1024x1024.Idx) (q : dot_S1024x256_S1024x256_S1024x1024_1_1_0_0_n_n.contr.Idx) :
    (dot_S1024x256_S1024x256_S1024x1024_1_1_0_0_n_n.lhsIdx i q 1).val = (q ⟨0, by decide⟩).val :=
  dot_S1024x256_S1024x256_S1024x1024_1_1_0_0_n_n.lhsIdx_val_of_single rfl i q
theorem rhs_0 (i : S1024x1024.Idx) (q : dot_S1024x256_S1024x256_S1024x1024_1_1_0_0_n_n.contr.Idx) :
    (dot_S1024x256_S1024x256_S1024x1024_1_1_0_0_n_n.rhsIdx i q 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
theorem rhs_1 (i : S1024x1024.Idx) (q : dot_S1024x256_S1024x256_S1024x1024_1_1_0_0_n_n.contr.Idx) :
    (dot_S1024x256_S1024x256_S1024x1024_1_1_0_0_n_n.rhsIdx i q 1).val = (q ⟨0, by decide⟩).val :=
  dot_S1024x256_S1024x256_S1024x1024_1_1_0_0_n_n.rhsIdx_val_of_single rfl i q

/-- Entry `(r, cc)` of the product of a block with the transposed bank: the inner product of row `r` with bank row `cc`. -/
theorem matmul_at (a b : FVec Ideal S1024x256 .bf16) (r cc : Fin 1024) :
    matmul dot_S1024x256_S1024x256_S1024x1024_1_1_0_0_n_n none a b (constant S1024x1024 .f32 0x00000000#32) (ix2 r cc)
      = ∑ d : Fin 256, a (ix2 r d) * b (ix2 cc d) := by
  simp only [matmul]
  rw [Ideal.matmul_constant_zero_apply, ← Equiv.sum_comp (ValueIdx.contrEquiv1 dot_S1024x256_S1024x256_S1024x1024_1_1_0_0_n_n 256 rfl rfl).symm]
  refine Finset.sum_congr rfl fun k _ => ?_
  have hk := ValueIdx.contrEquiv1_symm_val dot_S1024x256_S1024x256_S1024x1024_1_1_0_0_n_n 256 rfl rfl k
  have el : dot_S1024x256_S1024x256_S1024x1024_1_1_0_0_n_n.lhsIdx (ix2 r cc) ((ValueIdx.contrEquiv1 dot_S1024x256_S1024x256_S1024x1024_1_1_0_0_n_n 256 rfl rfl).symm k) = ix2 r k := funext fun a => Fin.ext (by
    match a with
    | ⟨0, _⟩ => exact lhs_0 _ _
    | ⟨1, _⟩ => exact (lhs_1 _ _).trans hk)
  have er : dot_S1024x256_S1024x256_S1024x1024_1_1_0_0_n_n.rhsIdx (ix2 r cc) ((ValueIdx.contrEquiv1 dot_S1024x256_S1024x256_S1024x1024_1_1_0_0_n_n 256 rfl rfl).symm k) = ix2 cc k := funext fun a => Fin.ext (by
    match a with
    | ⟨0, _⟩ => exact rhs_0 _ _
    | ⟨1, _⟩ => exact (rhs_1 _ _).trans hk)
  rw [el, er]

/-! ## The payloads of one tile read at an index -/

/-- Entry `(r, d)` of the block normalised by its rows' clamped norms, as the body builds it. -/
theorem nrm_at (x : Vec Ideal S1024x256 .f32) (hφ : FKind.Formats .f32)
    (hacc : (0x00000000#32 : BitVec 32) = FKind.add.neutral .f32 hφ) (r : Fin 1024) (d : Fin 256) :
    (truncf .bf16 (divf x (broadcastTo S1024x256 (maximumf (sqrt (shapeCast S1024x1
        (multiReduction .add [1] S1024 (mulf x x) 0x00000000#32 reduces_S1024x256_S1024 hφ hacc) shapeCasts_S1024_S1024x1))
        (broadcast S1024x1 (Scalar.ofBits .f32 0x2B8CBCCC#32))) broadcasts_S1024x1_S1024x256)) bitsLt_bf16_f32
      : FVec Ideal S1024x256 .bf16) (ix2 r d) = LossSpec.unit (R := 1024) x r d := by
  show Ideal.div (x (ix2 r d)) (broadcastTo S1024x256 _ broadcasts_S1024x1_S1024x256 (ix2 r d)) = _
  rw [bcastCol256]
  show Ideal.div (x (ix2 r d)) (max (Ideal.sqrt (shapeCast S1024x1 _ shapeCasts_S1024_S1024x1 (ix2 r (0 : Fin 1))))
    (Ideal.ofBits .f32 0x2B8CBCCC#32)) = _
  rw [castCol, rowSum256]
  rfl

/-- The lane word of column `cc` is below the word of 1000, as signed words, exactly when `cc < 1000`. -/
theorem slt_1000 (cc : Fin 1024) : IntOp.cmpi .slt (BitVec.ofNat 32 cc.val) 1000#32 = 1#1 ↔ cc.val < 1000 := by
  revert cc; decide +kernel

/-- The masked logits of a tile: entry `(r, cc)` is the inner product of the normalised row `r` with bank row `cc`
    below class 1000, and `-∞` on the padding classes. -/
theorem pay3_at (x : Vec Ideal S1024x256 .f32) (p : Vec Ideal S1024x256 .bf16) (r cc : Fin 1024) :
    k1_pay3 (F := Ideal) x p (ix2 r cc)
      = if cc.val < 1000 then ∑ d : Fin 256, LossSpec.unit (R := 1024) x r d * p (ix2 cc d) else ⊥ := by
  unfold k1_pay3
  show Scalar.select (IntOp.cmpi .slt (iota .tc S1024x1024 32 [1] iota_S1024x1024_d1_w32 (ix2 r cc)) (1000#32))
        (matmul dot_S1024x256_S1024x256_S1024x1024_1_1_0_0_n_n none _ _ (constant S1024x1024 .f32 0x00000000#32) (ix2 r cc) * Ideal.ofBits .f32 0x3F800000#32)
        (Named.named (F := Ideal) κ "neg_big" (φ := .f32) 0xFF333332#32) = _
  rw [matmul_at, negBig_eq, one_eq, mul_one, iota_single_apply, shapeCast_self]
  show Scalar.select (IntOp.cmpi .slt (BitVec.ofNat 32 cc.val) 1000#32) _ _ = _
  by_cases h : cc.val < 1000
  · rw [(slt_1000 cc).mpr h, select_one, if_pos h]
    exact Finset.sum_congr rfl fun d _ => congrArg (· * p (ix2 cc d)) (nrm_at x _ _ r d)
  · rw [eq_zero_of_ne_one (fun e => h ((slt_1000 cc).mp e)), select_zero, if_neg h]

/-- The log-sum-exp of row `r` of a block of logits `L`, as the body builds it: the row's maximum is taken out of the
    exponentials and added back. -/
theorem lse_at (L : FVec Ideal S1024x1024 .f32) (hφ : FKind.Formats .f32)
    (ha : (0x00000000#32 : BitVec 32) = FKind.add.neutral .f32 hφ)
    (hm : (0xFF800000#32 : BitVec 32) = FKind.maximumf.neutral .f32 hφ) (r : Fin 1024) :
    (addf (log (shapeCast S1024x1 (multiReduction .add [1] S1024
        (exp (subf L (broadcastTo S1024x1024 (shapeCast S1024x1
          (multiReduction .maximumf [1] S1024 L 0xFF800000#32 reduces_S1024x1024_S1024_2 hφ hm) shapeCasts_S1024_S1024x1)
          broadcasts_S1024x1_S1024x1024)))
        0x00000000#32 reduces_S1024x1024_S1024_2 hφ ha) shapeCasts_S1024_S1024x1))
      (shapeCast S1024x1 (multiReduction .maximumf [1] S1024 L 0xFF800000#32 reduces_S1024x1024_S1024_2 hφ hm) shapeCasts_S1024_S1024x1)
      : FVec Ideal S1024x1 .f32) (ix2 r (0 : Fin 1))
      = Ideal.log (∑ cc : Fin 1024, Ideal.exp (L (ix2 r cc) - Finset.univ.sup fun cc' : Fin 1024 => L (ix2 r cc')))
        + Finset.univ.sup fun cc' : Fin 1024 => L (ix2 r cc') := by
  show Ideal.log (shapeCast S1024x1 (multiReduction (F := Ideal) .add [1] S1024 _ 0x00000000#32 reduces_S1024x1024_S1024_2 hφ ha) shapeCasts_S1024_S1024x1 (ix2 r (0 : Fin 1)))
      + shapeCast S1024x1 (multiReduction (F := Ideal) .maximumf [1] S1024 L 0xFF800000#32 reduces_S1024x1024_S1024_2 hφ hm) shapeCasts_S1024_S1024x1 (ix2 r (0 : Fin 1)) = _
  rw [castCol, castCol, rowSum1024, rowMax1024]
  refine congrArg (fun s => Ideal.log s + _) (Finset.sum_congr rfl fun cc _ => ?_)
  show Ideal.exp (L (ix2 r cc) - broadcastTo S1024x1024 _ broadcasts_S1024x1_S1024x1024 (ix2 r cc)) = _
  rw [bcastCol1024, castCol, rowMax1024]

/-- The log-sum-exp of row `r` of a tile. -/
theorem pay4_at (x : Vec Ideal S1024x256 .f32) (p : Vec Ideal S1024x256 .bf16) (r : Fin 1024) :
    k1_pay4 (F := Ideal) x p (ix2 r (0 : Fin 1))
      = Ideal.log (∑ cc : Fin 1024, Ideal.exp (k1_pay3 (F := Ideal) x p (ix2 r cc)
            - Finset.univ.sup fun cc' : Fin 1024 => k1_pay3 (F := Ideal) x p (ix2 r cc')))
        + Finset.univ.sup fun cc' : Fin 1024 => k1_pay3 (F := Ideal) x p (ix2 r cc') := by
  unfold k1_pay4
  exact lse_at (k1_pay3 (F := Ideal) x p) _ _ _ r

/-- The lane word of column `cc` is the label's word exactly when the label, read as a natural number, is `cc`. -/
theorem eq_word (w : BitVec 32) (cc : Fin 1024) : IntOp.cmpi .eq (BitVec.ofNat 32 cc.val) w = 1#1 ↔ w.toNat = cc.val := by
  have hc : cc.val < 2 ^ 32 := lt_trans cc.isLt (by norm_num)
  rw [IntOp.cmpi_eq]
  constructor
  · intro e; rw [← e, BitVec.toNat_ofNat, Nat.mod_eq_of_lt hc]
  · intro e; apply BitVec.eq_of_toNat_eq; rw [BitVec.toNat_ofNat, Nat.mod_eq_of_lt hc, e]

/-- The target logit of row `r` of a tile: the masked logit at the row's label, as a sum over the columns. -/
theorem pay5_at (x : Vec Ideal S1024x256 .f32) (p : Vec Ideal S1024x256 .bf16) (l : Vec Ideal S1024x1 .i32) (r : Fin 1024) :
    k1_pay5 (F := Ideal) x p l (ix1 r)
      = ∑ cc : Fin 1024, if (l (ix2 r (0 : Fin 1))).toNat = cc.val then k1_pay3 (F := Ideal) x p (ix2 r cc) else 0 := by
  unfold k1_pay5
  generalize k1_pay3 (F := Ideal) x p = L
  refine (rowSum1024 _ _ _ r).trans (Finset.sum_congr rfl fun cc _ => ?_)
  show Scalar.select (IntOp.cmpi .eq (iota .tc S1024x1024 32 [1] iota_S1024x1024_d1_w32 (ix2 r cc))
        (broadcastTo S1024x1024 (shapeCast S1024x1 l shapeCasts_S1024x1_S1024x1) broadcasts_S1024x1_S1024x1024 (ix2 r cc)))
      (L (ix2 r cc)) (Ideal.ofBits .f32 0x00000000#32) = _
  rw [iota_single_apply, bcastCol1024, shapeCast_self, Ideal.ofBits_zero_f32]
  show Scalar.select (IntOp.cmpi .eq (BitVec.ofNat 32 cc.val) (l (ix2 r (0 : Fin 1)))) _ _ = _
  by_cases h : (l (ix2 r (0 : Fin 1))).toNat = cc.val
  · rw [(eq_word _ cc).mpr h, select_one, if_pos h]
  · rw [eq_zero_of_ne_one (fun e => h ((eq_word _ cc).mp e)), select_zero, if_neg h]

/-- What a tile adds to the running block: the sum over its 1024 rows of `0 - (target - log-sum-exp)`. -/
theorem pay1_at (v31 : FVec Ideal S1024x1 .f32) (v38 : FVec Ideal S1024 .f32) (v45 : Vec Ideal S1x1x1 .f32) :
    k1_pay1 (F := Ideal) v31 v38 v45 (ix3 (0 : Fin 1) (0 : Fin 1) (0 : Fin 1))
      = v45 (ix3 (0 : Fin 1) (0 : Fin 1) (0 : Fin 1)) + ∑ r : Fin 1024, (0 - (v38 (ix1 r) - v31 (ix2 r (0 : Fin 1)))) := by
  unfold k1_pay1
  refine (shapeCast_apply _ shapeCasts_S1x1_S1x1x1 _ (ix2 (0 : Fin 1) (0 : Fin 1))
    (by rw [Shape.rowMajor_val_two, Shape.rowMajor_val_three]; rfl)).trans ?_
  show shapeCast S1x1 v45 shapeCasts_S1x1x1_S1x1 (ix2 (0 : Fin 1) (0 : Fin 1))
      + shapeCast S1x1 _ shapeCasts_S1_S1x1 (ix2 (0 : Fin 1) (0 : Fin 1)) = _
  rw [shapeCast_apply v45 shapeCasts_S1x1x1_S1x1 _ (ix3 (0 : Fin 1) (0 : Fin 1) (0 : Fin 1))
      (by rw [Shape.rowMajor_val_two, Shape.rowMajor_val_three]; rfl),
    shapeCast_apply _ shapeCasts_S1_S1x1 _ (ix1 (0 : Fin 1))
      (by rw [Shape.rowMajor_val_two, Shape.rowMajor_val_one]; rfl)]
  refine (congrArg (v45 (ix3 (0 : Fin 1) (0 : Fin 1) (0 : Fin 1)) + ·) (colSum1024 _ _ _)).trans ?_
  refine congrArg (v45 (ix3 (0 : Fin 1) (0 : Fin 1) (0 : Fin 1)) + ·) (Finset.sum_congr rfl fun r _ => ?_)
  show Ideal.ofBits .f32 0x00000000#32 - (shapeCast S1024x1 v38 shapeCasts_S1024_S1024x1 (ix2 r (0 : Fin 1)) - v31 (ix2 r (0 : Fin 1))) = _
  rw [castCol, Ideal.ofBits_zero_f32]

/-- ONE TILE. If a block's rows are the rows `g r` of the feature table and its labels those rows' labels, the tile
    leaves, in the one-element block, what it held plus the sum of those rows' losses. -/
theorem tile_at (x : Vec Ideal S1024x256 .f32) (p : Vec Ideal S1024x256 .bf16) (l : Vec Ideal S1024x1 .i32)
    (acc : Vec Ideal S1x1x1 .f32) (X : LossSpec.Feat) (Lc : (⟨2, ![131072, 1]⟩ : Shape).Idx → BitVec 32)
    (g : Fin 1024 → Fin 131072) (hx : ∀ r d, x (ix2 r d) = X (ix2 (g r) d))
    (hl : ∀ r, l (ix2 r (0 : Fin 1)) = Lc (ix2 (g r) (0 : Fin 1))) :
    k1_pay1 (F := Ideal) (k1_pay4 x p) (k1_pay5 x p l) acc (ix3 (0 : Fin 1) (0 : Fin 1) (0 : Fin 1))
      = acc (ix3 (0 : Fin 1) (0 : Fin 1) (0 : Fin 1)) + ∑ r : Fin 1024, LossSpec.kRow X p (LossSpec.colLab Lc) (g r) := by
  rw [pay1_at]
  refine congrArg (acc _ + ·) (Finset.sum_congr rfl fun r _ => ?_)
  have h3 : ∀ cc : Fin 1024, k1_pay3 (F := Ideal) x p (ix2 r cc) = LossSpec.kLogit X p (g r) cc := fun cc => by
    rw [pay3_at]
    simp only [LossSpec.kLogit, LossSpec.logit, LossSpec.unit, LossSpec.rowDen, hx]
  rw [pay4_at, pay5_at]
  simp only [h3, hl]
  rfl

/-! ## What each control case leaves in the output's staging buffer -/

section Cases
variable {F : FTy → Type} [FloatOps F] [Named F]

theorem hz3 : (![0, 0, 0] : Fin 3 → Nat) = fun _ => 0 := funext fun a => by fin_cases a <;> rfl
theorem hz2 : (![0, 0] : Fin 2 → Nat) = fun _ => 0 := funext fun a => by fin_cases a <;> rfl

/-- A later tile of a core: the block holding `xo` is left at the accumulating payload of the three loaded blocks and `xo`. -/
theorem out_B (c : Dev nD) (i : grid1.Coords) (a2 : Memref sig .tc .vmem S1024x256 .f32) (h2 : a2.IsWhole)
    (a3 : Memref sig .tc .vmem S1024x1 .i32) (h3 : a3.IsWhole) (a4 : Memref sig .tc .vmem S1024x256 .bf16) (h4 : a4.IsWhole)
    (a5 : Memref sig .tc .vmem S1x1x1 .f32) (h5 : a5.IsWhole) (hc : ¬cond1_0 i)
    (x0 : Vec F S1024x256 .f32) (x1 : Vec F S1024x1 .i32) (x2 : Vec F S1024x256 .bf16) (xo : Vec F S1x1x1 .f32) :
    out1_B_3 c i a2 h2 a3 h3 a4 h4 a5 h5 hc x0 x1 x2 xo = k1_pay1 (k1_pay4 x0 x2) (k1_pay5 x0 x2 x1) xo := by
  unfold out1_B_3
  rw [View.read_writes_eq_canon _ _ _ (cover1_B_3 c i a2 h2 a3 h3 a4 h4 a5 h5 hc x0 x1 x2 xo)]
  unfold kernelRun1_B
  dsimp only
  sl_unfold_words
  rw [View.canon_unit_zero hz3]
  simp only [View.readAt_eq_ld, h2.read_unread, h3.read_unread, h4.read_unread, h5.read_unread,
    View.ld_unit_zero (S := S1024x256) hz2, View.ld_unit_zero (S := S1024x1) hz2, View.ld_unit_zero (S := S1x1x1) hz3]

/-- The first tile of a core: the block is reset to zero, read back, and left at the accumulating payload over the zero block. -/
theorem out_A (c : Dev nD) (i : grid1.Coords) (a2 : Memref sig .tc .vmem S1024x256 .f32) (h2 : a2.IsWhole)
    (a3 : Memref sig .tc .vmem S1024x1 .i32) (h3 : a3.IsWhole) (a4 : Memref sig .tc .vmem S1024x256 .bf16) (h4 : a4.IsWhole)
    (a5 : Memref sig .tc .vmem S1x1x1 .f32) (h5 : a5.IsWhole) (hc : cond1_0 i)
    (x0 : Vec F S1024x256 .f32) (x1 : Vec F S1024x1 .i32) (x2 : Vec F S1024x256 .bf16) :
    out1_A_3 c i a2 h2 a3 h3 a4 h4 a5 h5 hc x0 x1 x2 = k1_pay1 (k1_pay4 x0 x2) (k1_pay5 x0 x2 x1) (k1_pay2 (F := F)) := by
  unfold out1_A_3
  rw [View.read_writes_eq_canon _ _ _ (cover1_A_3 c i a2 h2 a3 h3 a4 h4 a5 h5 hc x0 x1 x2)]
  unfold kernelRun1_A
  dsimp only
  sl_unfold_words
  rw [View.canon_cons_unit_zero (S := S1x1x1) hz3, View.readCov_unit_zero (S := S1x1x1) _ hz3]
  simp only [View.readAt_eq_ld, h2.read_unread, h3.read_unread, h4.read_unread,
    View.ld_unit_zero (S := S1024x256) hz2, View.ld_unit_zero (S := S1024x1) hz2, View.ld_unit_zero (S := S1x1x1) hz3]

end Cases

/-! ## The blocks a point reads, as parts of the arrays -/

/-- The three input arrays and, at a point, the three blocks read, named at their literal types. -/
abbrev xarr (c : Dev nD) : Vec Ideal S131072x256 .f32 := V c main_arg0
abbrev larr (c : Dev nD) : Vec Ideal S131072x1 .i32 := V c main_v0
abbrev parr (c : Dev nD) : Vec Ideal S1024x256 .bf16 := V c main_v41
abbrev xblk (c : Dev nD) (t : Fin cfg1.N) : Vec Ideal S1024x256 .f32 := iblk1 V c 0 t
abbrev lblk (c : Dev nD) (t : Fin cfg1.N) : Vec Ideal S1024x1 .i32 := iblk1 V c 1 t
abbrev pblk (c : Dev nD) (t : Fin cfg1.N) : Vec Ideal S1024x256 .bf16 := iblk1 V c 2 t

/-- The block indices at point `t`: features and labels take row block `t`, the bank its one block, the output block `t / 64`. -/
theorem idx_0 : ∀ t : Fin cfg1.N, win1_0.index t 0 = t.val ∧ win1_0.index t 1 = 0 :=
  (by decide +kernel : ∀ t : Fin grid1.N, win1_0.index t 0 = t.val ∧ win1_0.index t 1 = 0)
theorem idx_1 : ∀ t : Fin cfg1.N, win1_1.index t 0 = t.val ∧ win1_1.index t 1 = 0 :=
  (by decide +kernel : ∀ t : Fin grid1.N, win1_1.index t 0 = t.val ∧ win1_1.index t 1 = 0)
theorem idx_2 : ∀ t : Fin cfg1.N, win1_2.index t 0 = 0 ∧ win1_2.index t 1 = 0 :=
  (by decide +kernel : ∀ t : Fin grid1.N, win1_2.index t 0 = 0 ∧ win1_2.index t 1 = 0)
theorem idx_3 : ∀ t : Fin cfg1.N, win1_3.index t 0 = t.val / 64 ∧ win1_3.index t 1 = 0 ∧ win1_3.index t 2 = 0 :=
  (by decide +kernel : ∀ t : Fin grid1.N, win1_3.index t 0 = t.val / 64 ∧ win1_3.index t 1 = 0 ∧ win1_3.index t 2 = 0)

/-- Row `r` of the block of point `t`, as a row of the whole table. -/
def rowAt (t : Fin cfg1.N) (r : Fin 1024) : Fin 131072 :=
  ⟨t.val * 1024 + r.val, by have := t.isLt; have := r.isLt; have : cfg1.N = 128 := N_1; omega⟩

/-- The feature block of point `t` is rows `1024 t … 1024 t + 1023` of the feature table. -/
theorem xblk_at (c : Dev nD) (t : Fin cfg1.N) (r : Fin 1024) (d : Fin 256) :
    xblk V c t (ix2 r d) = xarr V c (ix2 (rowAt t r) d) := by
  show iblk1 V c 0 t (ix2 r d) = _
  unfold iblk1
  rw [View.read_apply]
  show V c main_arg0 _ = V c main_arg0 _
  congr 1
  funext a
  apply Fin.ext
  match a with
  | ⟨0, _⟩ => show win1_0.index t 0 * 1024 + 1 * r.val = t.val * 1024 + r.val; rw [(idx_0 t).1]; omega
  | ⟨1, _⟩ => show win1_0.index t 1 * 256 + 1 * d.val = d.val; rw [(idx_0 t).2]; omega

/-- The label block of point `t` is the same rows of the label column. -/
theorem lblk_at (c : Dev nD) (t : Fin cfg1.N) (r : Fin 1024) :
    lblk V c t (ix2 r (0 : Fin 1)) = larr V c (ix2 (rowAt t r) (0 : Fin 1)) := by
  show iblk1 V c 1 t (ix2 r (0 : Fin 1)) = _
  unfold iblk1
  rw [View.read_apply]
  show V c main_v0 _ = V c main_v0 _
  congr 1
  funext a
  apply Fin.ext
  match a with
  | ⟨0, _⟩ => show win1_1.index t 0 * 1024 + 1 * r.val = t.val * 1024 + r.val; rw [(idx_1 t).1]; omega
  | ⟨1, _⟩ => show win1_1.index t 1 * 1 + 1 * 0 = 0; rw [(idx_1 t).2]

/-- The bank's block is the whole padded bank at every point. -/
theorem pblk_eq (c : Dev nD) (t : Fin cfg1.N) : pblk V c t = parr V c := by
  funext j
  obtain ⟨cc, d, rfl⟩ : ∃ (cc : Fin 1024) (d : Fin 256), j = ix2 cc d := ⟨j 0, j 1, eq_ix2 j⟩
  show iblk1 V c 2 t (ix2 cc d) = _
  unfold iblk1
  rw [View.read_apply]
  show V c main_v41 _ = V c main_v41 _
  congr 1
  funext a
  apply Fin.ext
  match a with
  | ⟨0, _⟩ => show win1_2.index t 0 * 1024 + 1 * cc.val = cc.val; rw [(idx_2 t).1]; omega
  | ⟨1, _⟩ => show win1_2.index t 1 * 256 + 1 * d.val = d.val; rw [(idx_2 t).2]; omega

/-! ## The running block along the grid -/

/-- The sum of the losses of the 1024 rows of tile `n` (`0` past the grid). -/
def tileSum (c : Dev nD) (n : ℕ) : EReal :=
  if h : n < cfg1.N then
    ∑ r : Fin 1024, LossSpec.kRow (xarr V c) (parr V c) (LossSpec.colLab (larr V c)) (rowAt ⟨n, h⟩ r)
  else 0

/-- One point's payload over the blocks it reads: the running value plus the point's tile sum. -/
theorem point_at (c : Dev nD) (t : Fin cfg1.N) (acc : Vec Ideal S1x1x1 .f32) :
    k1_pay1 (F := Ideal) (k1_pay4 (xblk V c t) (pblk V c t)) (k1_pay5 (xblk V c t) (pblk V c t) (lblk V c t)) acc
        (ix3 (0 : Fin 1) (0 : Fin 1) (0 : Fin 1))
      = acc (ix3 (0 : Fin 1) (0 : Fin 1) (0 : Fin 1)) + tileSum V c t.val := by
  rw [pblk_eq V c t,
    tile_at (xblk V c t) (parr V c) (lblk V c t) acc (xarr V c) (larr V c) (rowAt t) (xblk_at V c t) (lblk_at V c t)]
  unfold tileSum
  rw [dif_pos t.isLt]

/-- At the first tile of a core the block is left at that tile's sum. -/
theorem val_A (c : Dev nD) (t : Fin cfg1.N) (h0 : t.val % 64 = 0) :
    (outsAt1 V c t.val t.isLt : Vec Ideal S1x1x1 .f32) (ix3 (0 : Fin 1) (0 : Fin 1) (0 : Fin 1)) = tileSum V c t.val := by
  rw [outsAt1_A V c t h0]
  refine (congrFun (out_A (F := Ideal) c (grid1.coords t) (ms1_0 t) (hs1_0 t) (ms1_1 t) (hs1_1 t) (ms1_2 t) (hs1_2 t)
    (ms1_3 t) (hs1_3 t) ((hcond1_0 t).mpr h0) (iblk1 V c 0 t) (iblk1 V c 1 t) (iblk1 V c 2 t))
    (ix3 (0 : Fin 1) (0 : Fin 1) (0 : Fin 1))).trans ?_
  refine (point_at V c t (k1_pay2 (F := Ideal))).trans ?_
  show Ideal.ofBits .f32 0x00000000#32 + _ = _
  rw [Ideal.ofBits_zero_f32, zero_add]

/-- At a later tile the block is left at what the tile before left plus this tile's sum. -/
theorem val_B (c : Dev nD) (t : Fin cfg1.N) (h0 : ¬t.val % 64 = 0) :
    (outsAt1 V c t.val t.isLt : Vec Ideal S1x1x1 .f32) (ix3 (0 : Fin 1) (0 : Fin 1) (0 : Fin 1))
      = (outsAt1 V c (t.val - 1) (Nat.lt_of_le_of_lt (Nat.sub_le _ _) t.isLt) : Vec Ideal S1x1x1 .f32)
          (ix3 (0 : Fin 1) (0 : Fin 1) (0 : Fin 1)) + tileSum V c t.val := by
  rw [outsAt1_B V c t h0]
  refine (congrFun (out_B (F := Ideal) c (grid1.coords t) (ms1_0 t) (hs1_0 t) (ms1_1 t) (hs1_1 t) (ms1_2 t) (hs1_2 t)
    (ms1_3 t) (hs1_3 t) (fun h => h0 ((hcond1_0 t).mp h)) (iblk1 V c 0 t) (iblk1 V c 1 t) (iblk1 V c 2 t)
    (outsAt1 V c (t.val - 1) (Nat.lt_of_le_of_lt (Nat.sub_le _ _) t.isLt)))
    (ix3 (0 : Fin 1) (0 : Fin 1) (0 : Fin 1))).trans ?_
  exact point_at V c t _

/-- THE INVARIANT. After point `n` the block holds the sum of the tile sums of the core's tiles up to `n`:
    tiles `64 (n / 64) … n`. By induction on the point; addition on the extended reals is associative. -/
theorem outsAt_eq (c : Dev nD) : ∀ (n : ℕ) (hn : n < cfg1.N),
    (outsAt1 V c n hn : Vec Ideal S1x1x1 .f32) (ix3 (0 : Fin 1) (0 : Fin 1) (0 : Fin 1))
      = ∑ j ∈ Finset.range (n % 64 + 1), tileSum V c (n / 64 * 64 + j)
  | 0, hn => by
    refine (val_A V c ⟨0, hn⟩ rfl).trans ?_
    show tileSum V c 0 = _
    rw [show (0 : ℕ) % 64 + 1 = 1 from rfl, Finset.sum_range_one]
  | n + 1, hn => by
    by_cases h0 : (n + 1) % 64 = 0
    · refine (val_A V c ⟨n + 1, hn⟩ h0).trans ?_
      show tileSum V c (n + 1) = _
      have e : (n + 1) / 64 * 64 + 0 = n + 1 := by omega
      rw [h0, Finset.sum_range_one, e]
    · refine (val_B V c ⟨n + 1, hn⟩ h0).trans ?_
      show (outsAt1 V c n _ : Vec Ideal S1x1x1 .f32) (ix3 (0 : Fin 1) (0 : Fin 1) (0 : Fin 1)) + tileSum V c (n + 1) = _
      rw [outsAt_eq c n]
      have e1 : (n + 1) % 64 + 1 = (n % 64 + 1) + 1 := by omega
      have e2 : (n + 1) / 64 = n / 64 := by omega
      have e3 : n / 64 * 64 + (n % 64 + 1) = n + 1 := by omega
      rw [e1, e2, Finset.sum_range_succ _ (n % 64 + 1), e3]

/-- A core's 64 tile sums are the core's partial sum of the rows' losses. -/
theorem part_eq (c : Dev nD) (k : Fin 2) :
    ∑ j ∈ Finset.range 64, tileSum V c (k.val * 64 + j)
      = LossSpec.kPart (xarr V c) (parr V c) (LossSpec.colLab (larr V c)) k := by
  rw [Finset.sum_range]
  unfold LossSpec.kPart
  refine Finset.sum_congr rfl fun i _ => ?_
  have h : k.val * 64 + i.val < cfg1.N := by have := k.isLt; have := i.isLt; have : cfg1.N = 128 := N_1; omega
  unfold tileSum
  rw [dif_pos h]
  exact Finset.sum_congr rfl fun r _ => congrArg _ (Fin.ext rfl)

/-! ## The output array after the grid -/

/-- The two cores' partial sums as the contents of the output array. -/
def partArr (c : Dev nD) : Vec Ideal S2x1x1 .f32 :=
  fun j => LossSpec.kPart (xarr V c) (parr V c) (LossSpec.colLab (larr V c)) (j 0)

/-- Entry `(k, 0, 0)` of it is the sum of core `k`'s 64 tile sums. -/
theorem partArr_at (c : Dev nD) (j : S2x1x1.Idx) (k : Fin 2) (h : (j 0).val = k.val) :
    partArr V c j = ∑ i ∈ Finset.range 64, tileSum V c (k.val * 64 + i) := by
  unfold partArr
  rw [part_eq]
  exact congrArg _ (Fin.ext h)

/-- What a core's last tile writes back is its block of the partial sums: block `t / 64`, one element, holding the
    sum of the core's 64 tile sums. -/
theorem flushed_eq (c : Dev nD) (t : Fin cfg1.N) (hf : (cfg1.win 3).flush t = true) :
    (dat1 V c).flushed 3 t = ((cfg1.win 3).blk t).view.read (Elt Ideal) (partArr V c) := by
  have hN : cfg1.N = 128 := N_1
  have h63 : t.val % 64 = 63 := (flush1_3 t).mp hf
  have hk : t.val / 64 < 2 := by have := t.isLt; omega
  funext j
  obtain ⟨a, b, e, rfl⟩ : ∃ (a b e : Fin 1), j = ix3 a b e := ⟨j 0, j 1, j 2, eq_ix3 j⟩
  obtain rfl : a = 0 := Subsingleton.elim _ _
  obtain rfl : b = 0 := Subsingleton.elim _ _
  obtain rfl : e = 0 := Subsingleton.elim _ _
  show (cfg1.win 3).cut (grid1.coords t) ((dat1 V c).after 3 t) (ix3 (0 : Fin 1) (0 : Fin 1) (0 : Fin 1)) = _
  rw [after1_3]
  show (outsAt1 V c t.val t.isLt : Vec Ideal S1x1x1 .f32) (ix3 (0 : Fin 1) (0 : Fin 1) (0 : Fin 1)) = _
  rw [outsAt_eq V c t.val t.isLt, View.read_apply, h63]
  show ∑ j ∈ Finset.range 64, tileSum V c (t.val / 64 * 64 + j) = partArr V c _
  refine (partArr_at V c _ ⟨t.val / 64, hk⟩ ?_).symm
  show win1_3.index t 0 * 1 + 1 * 0 = t.val / 64
  rw [(idx_3 t).1]; omega

/-- After the grid, core `k`'s one-element block of the output holds the core's partial sum of the rows' losses. -/
theorem part_final (c : Dev nD) (k : Fin 2) :
    ((dat1 (F := Ideal) V c).arrAt 3 cfg1.N : S2x1x1.Idx → EReal) (ix3 k (0 : Fin 1) (0 : Fin 1))
      = LossSpec.kPart (V c main_arg0) (V c main_v41) (LossSpec.colLab (V c main_v0)) k := by
  have hN : cfg1.N = 128 := N_1
  have ht : k.val * 64 + 63 < cfg1.N := by have := k.isLt; omega
  have hf : (cfg1.win 3).flush ⟨k.val * 64 + 63, ht⟩ = true :=
    (flush1_3 _).mpr (by show (k.val * 64 + 63) % 64 = 63; omega)
  have hi : (k.val * 64 + 63) / 64 = k.val := by omega
  refine ((dat1 V c).arrAt_apply_of_mem 3 (partArr V c) (flushed_eq V c) cfg1.N ⟨k.val * 64 + 63, ht⟩
    (ix3 k (0 : Fin 1) (0 : Fin 1)) ht hf ?_).trans rfl
  show (ix3 k (0 : Fin 1) (0 : Fin 1) : S2x1x1.Idx) ∈ ((View.whole main_v42).slice (win1_3.rect ⟨k.val * 64 + 63, ht⟩)).set
  rw [View.set_slice_whole, Rect.mem_set_unit]
  intro a
  match a with
  | ⟨0, _⟩ =>
    show win1_3.index ⟨k.val * 64 + 63, ht⟩ 0 * 1 ≤ k.val ∧ k.val < win1_3.index ⟨k.val * 64 + 63, ht⟩ 0 * 1 + 1
    rw [(idx_3 _).1]; show (k.val * 64 + 63) / 64 * 1 ≤ k.val ∧ k.val < (k.val * 64 + 63) / 64 * 1 + 1; omega
  | ⟨1, _⟩ =>
    show win1_3.index ⟨k.val * 64 + 63, ht⟩ 1 * 1 ≤ 0 ∧ 0 < win1_3.index ⟨k.val * 64 + 63, ht⟩ 1 * 1 + 1
    rw [(idx_3 _).2.1]; omega
  | ⟨2, _⟩ =>
    show win1_3.index ⟨k.val * 64 + 63, ht⟩ 2 * 1 ≤ 0 ∧ 0 < win1_3.index ⟨k.val * 64 + 63, ht⟩ 2 * 1 + 1
    rw [(idx_3 _).2.2]; omega

end Cert.KernelIdeal.Region1

end
-- ==== Proof.Finite.lean ====
/-
  Finiteness and the literals: a row divided by `max (‖row‖, ε)` has real entries whatever the row holds, and the
  single-precision words the two programs carry denote the numbers they spell.
-/
import proofs.«400353_j90031104459200_3_alg».proof.Proof.Spec
import Mathlib.Data.EReal.Inv
import Mathlib.Algebra.Order.BigOperators.Group.Finset

noncomputable section

namespace LossSpec

open Idealize.ShloMosaic Idealize.ShloMosaic.ValueIdx

/-- The words `0.0`, `1.0`, `131072.0` and `-inf`. -/
theorem ofBits_zero : Ideal.ofBits .f32 0x00000000#32 = (0 : EReal) := by
  simp [Ideal.ofBits, Ideal.ieee]
theorem ofBits_one : Ideal.ofBits .f32 0x3F800000#32 = (1 : EReal) := by
  simp [Ideal.ofBits, Ideal.ieee, -EReal.coe_mul]; norm_num
theorem ofBits_count : Ideal.ofBits .f32 0x48000000#32 = ((131072 : ℝ) : EReal) := by
  simp [Ideal.ofBits, Ideal.ieee, -EReal.coe_mul]; norm_num
theorem ofBits_neg_inf : Ideal.ofBits .f32 0xFF800000#32 = (⊥ : EReal) := by
  simp [Ideal.ofBits, Ideal.ieee]

/-- The clamp is a positive real: sign `0`, exponent field `0x57 = 87`, fraction `0x0CBCCC`, that is
    `(2^23 + 0x0CBCCC) · 2^(87 - 127 - 23)`. -/
theorem eps_pos : ∃ r : ℝ, 0 < r ∧ eps = (r : EReal) := by
  refine ⟨(1 * (2 ^ 23 + 0x0CBCCC : Nat) * (2 : ℝ) ^ ((0x57 : Int) - 127 - 23) : ℝ), by positivity, ?_⟩
  simp [eps, Ideal.ofBits, Ideal.ieee, -EReal.coe_mul]

/-- A square is never negative in the extended reals: `⊥ · ⊥ = ⊤ · ⊤ = ⊤`, and a real square is `≥ 0`. -/
theorem mul_self_nonneg_ereal (a : EReal) : 0 ≤ a * a := by
  induction a with
  | bot => rw [EReal.bot_mul_bot]; exact le_top
  | coe r => rw [← EReal.coe_mul]; exact_mod_cast mul_self_nonneg r
  | top => rw [EReal.top_mul_top]; exact le_top

/-- An extended real whose square is below `⊤` is a real: the squares of both infinities are `⊤`. -/
theorem real_of_mul_self_lt_top {a : EReal} (h : a * a < ⊤) : ∃ r : ℝ, a = (r : EReal) := by
  induction a with
  | bot => rw [EReal.bot_mul_bot] at h; exact absurd h (lt_irrefl _)
  | coe r => exact ⟨r, rfl⟩
  | top => rw [EReal.top_mul_top] at h; exact absurd h (lt_irrefl _)

/-- Every entry of a normalised row is a real number, whatever extended reals the row holds: the divisor is at least
    `ε > 0`; if it is `+∞` the quotient is `0`, and if it is real every entry of the row is real. -/
theorem unit_real {R : Nat} (x : (⟨2, ![R, 256]⟩ : Shape).Idx → EReal) (n : Fin R) (d : Fin 256) :
    ∃ r : ℝ, unit x n d = (r : EReal) := by
  obtain ⟨e, he_pos, he⟩ := eps_pos
  have hle : eps ≤ rowDen x n := le_max_right _ _
  have hsq : Ideal.sqrt (∑ d : Fin 256, x (ix2 n d) * x (ix2 n d)) ≤ rowDen x n := le_max_left _ _
  unfold unit
  generalize rowDen x n = D at hle hsq ⊢
  rw [he] at hle
  induction D with
  | bot =>
    -- the divisor is at least the positive real `ε`, so it is not `⊥`
    exact absurd hle (not_le_of_gt (EReal.bot_lt_coe e))
  | top =>
    -- `a / ⊤ = a · ⊤⁻¹ = a · 0 = 0`
    exact ⟨0, by rw [Ideal.div, if_neg EReal.top_ne_zero, EReal.inv_top, mul_zero, EReal.coe_zero]⟩
  | coe y =>
    have hy : 0 < y := lt_of_lt_of_le he_pos (by exact_mod_cast hle)
    -- the norm is at most the real divisor, so the sum of the squares is below `⊤`
    have hS : ∑ d : Fin 256, x (ix2 n d) * x (ix2 n d) < ⊤ := by
      by_contra hne
      rw [not_lt_top_iff.mp hne, Ideal.sqrt_top] at hsq
      exact absurd hsq (not_le_of_gt (EReal.coe_lt_top y))
    -- every square is at most the sum of the squares, all of which are `≥ 0`
    have hd : x (ix2 n d) * x (ix2 n d) < ⊤ :=
      lt_of_le_of_lt
        (Finset.single_le_sum (f := fun d : Fin 256 => x (ix2 n d) * x (ix2 n d))
          (fun i _ => mul_self_nonneg_ereal _) (Finset.mem_univ d)) hS
    obtain ⟨r, hr⟩ := real_of_mul_self_lt_top hd
    exact ⟨r * (1 / y), by rw [Ideal.div_coe (ne_of_gt hy), hr, ← EReal.coe_mul]⟩

end LossSpec

end
-- ==== Proof.LibScatterRows.lean ====
/-
  `x.at[0 : R].set(u)` of a rank-2 table `x : [N, C]` with `R ≤ N`, read at an index.

  It prints as a `stablehlo.scatter` with ONE scatter index, the start row, whose window is the whole
  update array `u : [R, C]`: both update axes are window axes, no operand axis is inserted, the start
  index names operand axis 0, and the body returns the update. Update element `(r, c)` lands on operand
  element `(start + r, c)`; distinct update elements land on distinct operand elements, so whatever the
  order in which the updates are applied, the result at `(i, j)` is the update that lands there, if one
  does, and the operand's element otherwise. With the start row 0 the rows below `R` are the update's
  and the rows from `R` on are the table's.
-/
import Idealize.ShloMosaic.PureOps.ShapeOps
import Idealize.ShloMosaic.Lib.ValueIdx

noncomputable section

namespace Idealize.ShloMosaic.ScatterRows

open Idealize.ShloMosaic Idealize.ShloMosaic.ValueIdx

variable {α : Type}

/-! ## Updates written one after another at distinct places -/

section Fold
variable {ι β : Type} [DecidableEq ι] (g : β → ι) (v : β → α)

/-- One update: the element at `g n` becomes `v n`, every other element stays. -/
def put (r : ι → α) (n : β) : ι → α := fun i' => if i' = g n then v n else r i'

/-- An element no update of the list lands on keeps its value. -/
theorem foldl_put_of_forall_ne : ∀ (L : List β) (x : ι → α) (i : ι), (∀ n ∈ L, g n ≠ i) →
    L.foldl (put g v) x i = x i
  | [], _, _, _ => rfl
  | a :: L, x, i, h => by
    rw [List.foldl_cons, foldl_put_of_forall_ne L _ i fun n hn => h n (List.mem_cons_of_mem a hn)]
    exact if_neg fun e => h a (List.mem_cons_self) e.symm

/-- An element exactly one update of the list lands on ends at that update's value. -/
theorem foldl_put_of_unique : ∀ (L : List β) (x : ι → α) (i : ι) (n0 : β), n0 ∈ L → g n0 = i →
    (∀ n ∈ L, g n = i → n = n0) → L.foldl (put g v) x i = v n0
  | [], _, _, _, h, _, _ => absurd h (List.not_mem_nil)
  | a :: L, x, i, n0, hmem, hg, huniq => by
    rw [List.foldl_cons]
    by_cases h : ∃ n ∈ L, g n = i
    · obtain ⟨n, hn, hgn⟩ := h
      have e : n = n0 := huniq n (List.mem_cons_of_mem a hn) hgn
      subst e
      exact foldl_put_of_unique L _ i n hn hgn fun m hm hgm => huniq m (List.mem_cons_of_mem a hm) hgm
    · have hno : ∀ n ∈ L, g n ≠ i := fun n hn e => h ⟨n, hn, e⟩
      rw [foldl_put_of_forall_ne g v L _ i hno]
      have ha : n0 = a := by
        rcases List.mem_cons.mp hmem with e | e
        · exact e
        · exact absurd hg (hno n0 e)
      subst ha
      exact if_pos hg.symm

end Fold

/-! ## Where an update element lands -/

/-- Update element `(r, c)` as an element of the table: the same coordinates. -/
def emb {N R C : Nat} (hRN : R ≤ N) (j : (⟨2, ![R, C]⟩ : Shape).Idx) : (⟨2, ![N, C]⟩ : Shape).Idx :=
  ix2 (⟨(j 0).val, lt_of_lt_of_le (idx2_lt0 j) hRN⟩ : Fin N) (⟨(j 1).val, idx2_lt1 j⟩ : Fin C)

theorem emb_injective {N R C : Nat} (hRN : R ≤ N) : Function.Injective (emb (N := N) (R := R) (C := C) hRN) := by
  intro j j' h
  funext a
  apply Fin.ext
  match a with
  | ⟨0, _⟩ => exact congrArg (fun i : (⟨2, ![N, C]⟩ : Shape).Idx => (i 0).val) h
  | ⟨1, _⟩ => exact congrArg (fun i : (⟨2, ![N, C]⟩ : Shape).Idx => (i 1).val) h

/-- With the printed dimension numbers and the start row 0, update element `j` lands on table element `j`. -/
theorem resultIdx_eq {N R C w : Nat} (hRN : R ≤ N)
    (d : ScatterDims (⟨2, ![N, C]⟩ : Shape) (⟨1, ![1]⟩ : Shape) (⟨2, ![R, C]⟩ : Shape))
    (huw : d.updateWindowDims = [0, 1]) (hiw : d.insertedWindowDims = []) (hsd : d.scatterDimsToOperandDims = [0])
    (hiv : d.indexVectorDim = 0) (idx : IVec (⟨1, ![1]⟩ : Shape) w) (h0 : idx (ix1 (0 : Fin 1)) = 0)
    (j : (⟨2, ![R, C]⟩ : Shape).Idx) : d.resultIdx? j idx = some (emb hRN j) := by
  obtain ⟨uw, iw, sd, iv, wf⟩ := d
  simp only at huw hiw hsd hiv
  subst huw hiw hsd hiv
  have hsi : ∀ c, ScatterDims.siIdx ⟨[0, 1], [], [0], 0, wf⟩ j c = ix1 (0 : Fin 1) := fun c => by
    funext b
    have hb : b = ⟨0, by decide⟩ := Fin.ext (by have : b.val < 1 := b.isLt; show b.val = 0; omega)
    subst hb
    apply Fin.ext
    have hc : c.val = 0 := by have : c.val < 1 := c.isLt; omega
    show (ScatterDims.siIdx ⟨[0, 1], [], [0], 0, wf⟩ j c ⟨0, by decide⟩).val = 0
    simp [ScatterDims.siIdx, hc]
  have hst : ∀ a, ScatterDims.start ⟨[0, 1], [], [0], 0, wf⟩ j idx a = 0 := fun a => by
    unfold ScatterDims.start
    split
    · rw [hsi, h0]; simp
    · rfl
  have hwin : ∀ a, ScatterDims.window ⟨[0, 1], [], [0], 0, wf⟩ j a = (j a).val := fun a => by
    match a with
    | ⟨0, _⟩ => simp [ScatterDims.window, ScatterDims.sKept, Shape.kept]; rfl
    | ⟨1, _⟩ => simp [ScatterDims.window, ScatterDims.sKept, Shape.kept]; rfl
  unfold ScatterDims.resultIdx?
  have hin : ∀ a, 0 ≤ ScatterDims.start ⟨[0, 1], [], [0], 0, wf⟩ j idx a + ScatterDims.window ⟨[0, 1], [], [0], 0, wf⟩ j a
      ∧ ScatterDims.start ⟨[0, 1], [], [0], 0, wf⟩ j idx a + ScatterDims.window ⟨[0, 1], [], [0], 0, wf⟩ j a < (⟨2, ![N, C]⟩ : Shape).size a := fun a => by
    rw [hst, hwin]
    match a with
    | ⟨0, _⟩ => have := idx2_lt0 j; show 0 ≤ (0 : Int) + ((j 0).val : Int) ∧ (0 : Int) + ((j 0).val : Int) < (N : Int); omega
    | ⟨1, _⟩ => have := idx2_lt1 j; show 0 ≤ (0 : Int) + ((j 1).val : Int) ∧ (0 : Int) + ((j 1).val : Int) < (C : Int); omega
  rw [dif_pos hin]
  refine congrArg some (funext fun a => Fin.ext ?_)
  show (ScatterDims.start ⟨[0, 1], [], [0], 0, wf⟩ j idx a + ScatterDims.window ⟨[0, 1], [], [0], 0, wf⟩ j a).toNat = (emb hRN j a).val
  rw [hst, hwin]
  match a with
  | ⟨0, _⟩ => show ((0 : Int) + ((j 0).val : Int)).toNat = (j 0).val; omega
  | ⟨1, _⟩ => show ((0 : Int) + ((j 1).val : Int)).toNat = (j 1).val; omega

/-! ## The read -/

/-- The scatter is the update elements written one after another, each at its own table element. -/
theorem scatter_eq_foldl_put {N R C w : Nat} (hRN : R ≤ N)
    (d : ScatterDims (⟨2, ![N, C]⟩ : Shape) (⟨1, ![1]⟩ : Shape) (⟨2, ![R, C]⟩ : Shape))
    (huw : d.updateWindowDims = [0, 1]) (hiw : d.insertedWindowDims = []) (hsd : d.scatterDimsToOperandDims = [0])
    (hiv : d.indexVectorDim = 0) (x : (⟨2, ![N, C]⟩ : Shape).Idx → α) (idx : IVec (⟨1, ![1]⟩ : Shape) w)
    (h0 : idx (ix1 (0 : Fin 1)) = 0) (upd : (⟨2, ![R, C]⟩ : Shape).Idx → α) :
    Host.scatter d (fun _ b => b) x idx upd
      = (List.finRange (⟨2, ![R, C]⟩ : Shape).numel).foldl
          (put (fun n => emb hRN ((⟨2, ![R, C]⟩ : Shape).rowMajor.symm n)) (fun n => upd ((⟨2, ![R, C]⟩ : Shape).rowMajor.symm n))) x := by
  unfold Host.scatter
  congr 1
  funext r n
  rw [resultIdx_eq hRN d huw hiw hsd hiv idx h0]
  rfl

/-- THE READ: with the printed dimension numbers (each hypothesis is `rfl` on a program's record) and the start row
    0, the result at `(i, j)` is the update's `(i, j)` on the rows below `R` and the table's from row `R` on. -/
theorem scatter_apply {N R C w : Nat} (hRN : R ≤ N)
    (d : ScatterDims (⟨2, ![N, C]⟩ : Shape) (⟨1, ![1]⟩ : Shape) (⟨2, ![R, C]⟩ : Shape))
    (huw : d.updateWindowDims = [0, 1]) (hiw : d.insertedWindowDims = []) (hsd : d.scatterDimsToOperandDims = [0])
    (hiv : d.indexVectorDim = 0) (x : (⟨2, ![N, C]⟩ : Shape).Idx → α) (idx : IVec (⟨1, ![1]⟩ : Shape) w)
    (h0 : idx (ix1 (0 : Fin 1)) = 0) (upd : (⟨2, ![R, C]⟩ : Shape).Idx → α) (i : Fin N) (j : Fin C) :
    Host.scatter d (fun _ b => b) x idx upd (ix2 i j)
      = if h : i.val < R then upd (ix2 (⟨i.val, h⟩ : Fin R) j) else x (ix2 i j) := by
  rw [scatter_eq_foldl_put hRN d huw hiw hsd hiv x idx h0 upd]
  by_cases h : i.val < R
  · rw [dif_pos h]
    have hland : emb hRN (ix2 (⟨i.val, h⟩ : Fin R) j) = ix2 i j := funext fun a => Fin.ext (by
      match a with
      | ⟨0, _⟩ => rfl
      | ⟨1, _⟩ => rfl)
    refine (foldl_put_of_unique _ _ _ x (ix2 i j) ((⟨2, ![R, C]⟩ : Shape).rowMajor (ix2 (⟨i.val, h⟩ : Fin R) j))
      (List.mem_finRange _) ?_ ?_).trans ?_
    · show emb hRN ((⟨2, ![R, C]⟩ : Shape).rowMajor.symm ((⟨2, ![R, C]⟩ : Shape).rowMajor (ix2 (⟨i.val, h⟩ : Fin R) j))) = ix2 i j
      rw [Equiv.symm_apply_apply]
      exact hland
    · intro n _ hn
      have e : (⟨2, ![R, C]⟩ : Shape).rowMajor.symm n = ix2 (⟨i.val, h⟩ : Fin R) j := emb_injective hRN (hn.trans hland.symm)
      rw [← e, Equiv.apply_symm_apply]
    · show upd ((⟨2, ![R, C]⟩ : Shape).rowMajor.symm ((⟨2, ![R, C]⟩ : Shape).rowMajor (ix2 (⟨i.val, h⟩ : Fin R) j))) = _
      rw [Equiv.symm_apply_apply]
  · rw [dif_neg h]
    refine foldl_put_of_forall_ne _ _ _ x (ix2 i j) fun n _ e => h ?_
    have e0 : ((⟨2, ![R, C]⟩ : Shape).rowMajor.symm n 0).val = i.val :=
      congrArg (fun q : (⟨2, ![N, C]⟩ : Shape).Idx => (q 0).val) e
    have hlt := idx2_lt0 ((⟨2, ![R, C]⟩ : Shape).rowMajor.symm n)
    omega

end Idealize.ShloMosaic.ScatterRows

end
-- ==== Proof.KernelHost.lean ====
/-
  The kernel program's host side: what its host operations make of the buffers between the two regions.  The labels
  reach both regions as a column; the features and the old bank are never written; the padded bank the second region
  reads is the bank update of the two cores' partial class sums and counts added, padded with 24 zero rows; the
  result is the two cores' partial losses added and divided by the number of rows.
-/
import proofs.«400353_j90031104459200_3_alg».proof.Proof.Gen.KernelIdeal.Frame
import proofs.«400353_j90031104459200_3_alg».proof.Proof.Spec
import proofs.«400353_j90031104459200_3_alg».proof.Proof.NewMem
import proofs.«400353_j90031104459200_3_alg».proof.Proof.Finite
import proofs.«400353_j90031104459200_3_alg».proof.Proof.LibScatterRows
import Idealize.ShloMosaic.Lib.Pipeline.Value
import Idealize.ShloMosaic.Lib.ValueIdx
import Idealize.ShloMosaic.Lib.StableHlo.Run
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx

namespace Cert.KernelIdeal.HostSide

open Cert.KernelIdeal Cert.KernelIdeal.Gen

variable (m : (ℓ : Loc nD τ sig) → Buf (Elt Ideal) ℓ) (ρ : Dev nD → PrngReg)

/-- Region 0 finds the features as launched and the labels as a column. -/
theorem V1_feat (c : Dev nD) : V1 m ρ c main_arg0 = m ((c : Thread nD τ).loc main_arg0) :=
  calc V1 m ρ c main_arg0
    _ = W0 m ρ c (Proc.devRef .tc main_arg0) := StableHlo.after_of_forall_not_mem (b := Proc.devRef .tc main_arg0) _ _ (List.forall_iff_forall_mem.mp (by
          simp only [hostOps0, List.Forall, StableHlo.reshape_writes, Finset.mem_singleton]
          exact StableHlo.devRef_ne_of_ne (by decide)))
    _ = m ((c : Thread nD τ).loc main_arg0) := rfl

theorem V1_lab (c : Dev nD) : LossSpec.colLab (V1 m ρ c main_v0) = m ((c : Thread nD τ).loc main_arg2) := by
  have e : (V1 m ρ c main_v0 : S131072x1.Idx → BitVec 32)
      = shapeCast S131072x1 (m ((c : Thread nD τ).loc main_arg2) : S131072.Idx → BitVec 32) shapeCasts_S131072_S131072x1 := by
    show StableHlo.after hostOps0 (W0 m ρ c) (Proc.devRef .tc main_v0) = _
    after_results
    rfl
  funext j
  unfold LossSpec.colLab
  rw [e]
  refine (shapeCast_apply _ _ _ j ?_)
  rw [Shape.rowMajor_val_one, Shape.rowMajor_val_two]
  show (j 0).val = (j 0).val * 1 + 0
  omega

/-- The host operations between the two regions write none of the features, the label column, the old bank. -/
theorem W7_feat_W1 (c : Dev nD) : W7 m ρ c (Proc.devRef .tc main_arg0) = W1 m ρ c (Proc.devRef .tc main_arg0) :=
  calc W7 m ρ c (Proc.devRef .tc main_arg0)
    _ = W6 m ρ c (Proc.devRef .tc main_arg0) := StableHlo.after_of_forall_not_mem (b := Proc.devRef .tc main_arg0) _ _ (List.forall_iff_forall_mem.mp (by
          simp only [hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg0) := StableHlo.after_of_forall_not_mem (b := Proc.devRef .tc main_arg0) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg0) := StableHlo.after_of_forall_not_mem (b := Proc.devRef .tc main_arg0) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := StableHlo.after_of_forall_not_mem (b := Proc.devRef .tc main_arg0) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
theorem W7_lab_W1 (c : Dev nD) : W7 m ρ c (Proc.devRef .tc main_v0) = W1 m ρ c (Proc.devRef .tc main_v0) :=
  calc W7 m ρ c (Proc.devRef .tc main_v0)
    _ = W6 m ρ c (Proc.devRef .tc main_v0) := StableHlo.after_of_forall_not_mem (b := Proc.devRef .tc main_v0) _ _ (List.forall_iff_forall_mem.mp (by
          simp only [hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v0) := StableHlo.after_of_forall_not_mem (b := Proc.devRef .tc main_v0) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v0) := StableHlo.after_of_forall_not_mem (b := Proc.devRef .tc main_v0) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v0) := StableHlo.after_of_forall_not_mem (b := Proc.devRef .tc main_v0) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v0) := StableHlo.after_of_forall_not_mem (b := Proc.devRef .tc main_v0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v0) := (W2_arr m ρ c 1).trans (((dat0 (V1 m ρ) c).arrAt_in 1 rfl _).trans (A_eq0 (V1 m ρ) c 1))

/-- Region 1 finds the same features and label column. -/
theorem V7_feat (c : Dev nD) : V7 m ρ c main_arg0 = m ((c : Thread nD τ).loc main_arg0) :=
  (W7_feat_W1 m ρ c).trans (V1_feat m ρ c)
theorem V7_lab (c : Dev nD) : LossSpec.colLab (V7 m ρ c main_v0) = m ((c : Thread nD τ).loc main_arg2) :=
  (congrArg LossSpec.colLab (W7_lab_W1 m ρ c)).trans (V1_lab m ρ c)

/-! ## The bank's chain of host operations, over any float family and any contents -/

section Chain

variable {F : FTy → Type} [FloatOps F] [Named F]

/-- The two cores' partial class sums added from zero, the padding classes cut off; the same for the counts. -/
def kSums (x : FVec F S2x1024x256 .f32) : FVec F S1000x256 .f32 :=
  extractStridedSlice S1000x256 ![0, 0]
    (Host.reduceAdd x (constant S_ .f32 0x00000000#32) reducesTo_S2x1024x256_S1024x256_d0 h_S_) slices_S1024x256_S1000x256_0_0
def kCounts (y : FVec F S2x1x1024 .f32) : FVec F S1000 .f32 :=
  shapeCast S1000 (extractStridedSlice S1x1000 ![0, 0]
    (Host.reduceAdd y (constant S_ .f32 0x00000000#32) reducesTo_S2x1x1024_S1x1024_d0 h_S_) slices_S1x1024_S1x1000_0_0) shapeCasts_S1x1000_S1000
/-- The flags column of the counts. -/
def kFlags (cnt : FVec F S1000 .f32) : FVec F S1000x1 .f32 :=
  broadcastInDim S1000x1 ![0] bcast_S1000_S1000x1_0
    (uitofp (F := F) .f32 (cmpf (F := F) .ogt cnt (broadcastInDim S1000 ![] bcast_S_S1000 (constant S_ .f32 0x00000000#32))))
/-- The column of row norms of a table. -/
def kNorm (w : FVec F S1000x256 .f32) : FVec F S1000x1 .f32 :=
  Host.sqrt (broadcastInDim S1000x1 ![0] bcast_S1000_S1000x1_0
    (Host.reduceAdd (mulf w w) (constant S_ .f32 0x00000000#32) reducesTo_S1000x256_S1000_d1 h_S_))
/-- A table divided by its clamped norm column. -/
def kDiv (w : FVec F S1000x256 .f32) (n : FVec F S1000x1 .f32) : FVec F S1000x256 .f32 :=
  Host.divf w (broadcastInDim S1000x256 ![0, 1] bcast_S1000x1_S1000x256_0_1
    (maximumf n (broadcastInDim S1000x1 ![] bcast_S_S1000x1 (constant S_ .f32 0x2B8CBCCC#32))))
/-- The centre, the weight column, the mixed bank. -/
def kCentre (n : FVec F S1000x1 .f32) (s : FVec F S1000x256 .f32) (fl : FVec F S1000x1 .f32) : FVec F S1000x256 .f32 :=
  mulf (kDiv s n) (broadcastInDim S1000x256 ![0, 1] bcast_S1000x1_S1000x256_0_1 fl)
def kWeight (ctr : FVec F S1000x256 .f32) (fl : FVec F S1000x1 .f32) (mem : FVec F S1000x256 .f32) : FVec F S1000x1 .f32 :=
  subf (broadcastInDim S1000x1 ![] bcast_S_S1000x1 (constant S_ .f32 0x3F800000#32))
    (mulf
      (subf (broadcastInDim S1000x1 ![] bcast_S_S1000x1 (constant S_ .f32 0x3F800000#32))
        (broadcastInDim S1000x1 ![0] bcast_S1000_S1000x1_0
          (Host.reduceAdd (mulf mem ctr) (constant S_ .f32 0x00000000#32) reducesTo_S1000x256_S1000_d1 h_S_)))
      fl)
def kMixed (n : FVec F S1000x1 .f32) (s : FVec F S1000x256 .f32) (fl : FVec F S1000x1 .f32) (mem : FVec F S1000x256 .f32) :
    FVec F S1000x256 .f32 :=
  addf
    (mulf (broadcastInDim S1000x256 ![0, 1] bcast_S1000x1_S1000x256_0_1 (kWeight (kCentre n s fl) fl mem)) mem)
    (mulf (broadcastInDim S1000x256 ![0, 1] bcast_S1000x1_S1000x256_0_1
        (subf (broadcastInDim S1000x1 ![] bcast_S_S1000x1 (constant S_ .f32 0x3F800000#32)) (kWeight (kCentre n s fl) fl mem)))
      (kCentre n s fl))

/-- The zero table with the new bank set at row 0, narrowed: what the last stretch leaves for region 1. -/
def kPadded (nm : FVec F S1000x256 .f32) : FVec F S1024x256 .bf16 :=
  truncf .bf16 (Host.scatter scatter_S1024x256_S1_S1000x256_01_n_0_0 (fun _ b => b)
    (broadcastInDim S1024x256 ![] bcast_S_S1024x256 (constant S_ .f32 0x00000000#32))
    (broadcastInDim S1 ![] bcast_S_S1 (constantI S_ 32 0#32)) nm) bitsLt_bf16_f32

/-! Each stretch over any contents `W`: what it leaves at the buffers the next stretches read. -/

theorem stretch1_v3 (W : Valuation τ sig (Elt F)) :
    (StableHlo.after hostOps1 W (Proc.devRef .tc main_v3) : FVec F S1000x256 .f32) = kSums (W (Proc.devRef .tc main_v1_0)) := by
  after_results_simp
  rfl
theorem stretch1_v10 (W : Valuation τ sig (Elt F)) :
    (StableHlo.after hostOps1 W (Proc.devRef .tc main_v10) : FVec F S1000x1 .f32) = kFlags (kCounts (W (Proc.devRef .tc main_v1_1))) := by
  after_results_simp
  rfl
theorem stretch1_arg1 (W : Valuation τ sig (Elt F)) :
    StableHlo.after hostOps1 W (Proc.devRef .tc main_arg1) = W (Proc.devRef .tc main_arg1) := by
  after_results_simp

theorem stretch1_1_v11 (W : Valuation τ sig (Elt F)) :
    (StableHlo.after hostOps1_1 W (Proc.devRef .tc main_v11) : FVec F S1000x1 .f32) = kNorm (W (Proc.devRef .tc main_v3)) := by
  after_results_simp
  rfl
theorem stretch1_1_v3 (W : Valuation τ sig (Elt F)) :
    StableHlo.after hostOps1_1 W (Proc.devRef .tc main_v3) = W (Proc.devRef .tc main_v3) := by
  after_results_simp
theorem stretch1_1_v10 (W : Valuation τ sig (Elt F)) :
    StableHlo.after hostOps1_1 W (Proc.devRef .tc main_v10) = W (Proc.devRef .tc main_v10) := by
  after_results_simp
theorem stretch1_1_arg1 (W : Valuation τ sig (Elt F)) :
    StableHlo.after hostOps1_1 W (Proc.devRef .tc main_arg1) = W (Proc.devRef .tc main_arg1) := by
  after_results_simp

theorem stretch1_2_v32 (W : Valuation τ sig (Elt F)) :
    (StableHlo.after hostOps1_2 W (Proc.devRef .tc main_v32) : FVec F S1000x256 .f32)
      = kMixed (W (Proc.devRef .tc main_v11)) (W (Proc.devRef .tc main_v3)) (W (Proc.devRef .tc main_v10)) (W (Proc.devRef .tc main_arg1)) := by
  after_results_simp
  rfl

theorem stretch1_3_v33 (W : Valuation τ sig (Elt F)) :
    (StableHlo.after hostOps1_3 W (Proc.devRef .tc main_v33) : FVec F S1000x1 .f32) = kNorm (W (Proc.devRef .tc main_v32)) := by
  after_results_simp
  rfl
theorem stretch1_3_v32 (W : Valuation τ sig (Elt F)) :
    StableHlo.after hostOps1_3 W (Proc.devRef .tc main_v32) = W (Proc.devRef .tc main_v32) := by
  after_results_simp

theorem stretch1_4_v41 (W : Valuation τ sig (Elt F)) :
    (StableHlo.after hostOps1_4 W (Proc.devRef .tc main_v41) : FVec F S1024x256 .bf16)
      = kPadded (kDiv (W (Proc.devRef .tc main_v32)) (W (Proc.devRef .tc main_v33))) := by
  after_results_simp
  rfl

/-- The mixed bank normalised by its own norms is the bank update of the sums, the counts and the old bank: the same
    operations at the same shapes. -/
theorem kDiv_kMixed (s : FVec F S1000x256 .f32) (cnt : FVec F S1000 .f32) (mem : FVec F S1000x256 .f32) :
    kDiv (kMixed (kNorm s) s (kFlags cnt) mem) (kNorm (kMixed (kNorm s) s (kFlags cnt) mem))
      = Cert.ReferenceIdeal.BankUpdate.newMem s cnt mem := rfl

/-- The five stretches composed: the padded, narrowed bank update of region 0's two outputs and the old bank. -/
theorem bank_chain (W : Valuation τ sig (Elt F)) :
    (StableHlo.after hostOps1_4 (StableHlo.after hostOps1_3 (StableHlo.after hostOps1_2 (StableHlo.after hostOps1_1
        (StableHlo.after hostOps1 W)))) (Proc.devRef .tc main_v41) : FVec F S1024x256 .bf16)
      = kPadded (Cert.ReferenceIdeal.BankUpdate.newMem (kSums (W (Proc.devRef .tc main_v1_0))) (kCounts (W (Proc.devRef .tc main_v1_1)))
          (W (Proc.devRef .tc main_arg1))) := by
  rw [stretch1_4_v41, stretch1_3_v33, stretch1_3_v32, stretch1_2_v32, stretch1_1_v11, stretch1_1_v3, stretch1_1_v10,
    stretch1_1_arg1, stretch1_v3, stretch1_v10, stretch1_arg1, kDiv_kMixed]

end Chain

/-! ## The chain read at the extended reals -/

/-- The two cores' partial sums added from zero and cut to 1000 classes, at an index. -/
theorem kSums_eq (x : FVec Ideal S2x1024x256 .f32) : (kSums x : S1000x256.Idx → EReal) = LossSpec.foldSums x := by
  funext j
  unfold kSums LossSpec.foldSums
  refine (extractStridedSlice_apply _ _ slices_S1024x256_S1000x256_0_0 j
    (ix2 (⟨(j 0).val, Nat.lt_of_lt_of_le (j 0).isLt (by decide)⟩ : Fin 1024) (j 1)) ?_).trans ?_
  · intro a
    match a with
    | ⟨0, _⟩ => show (j 0).val = 0 + (j 0).val; omega
    | ⟨1, _⟩ => show (j 1).val = 0 + (j 1).val; omega
  · simp only [Host.reduceAdd, Ideal.hostReduceAdd_def]
    rw [Ideal.hostReduceAdd_single reducesTo_S2x1024x256_S1024x256_d0 (by decide)]
    show Ideal.ofBits .f32 0x00000000#32 + _ = _
    rw [LossSpec.ofBits_zero, zero_add]
    refine Finset.sum_congr rfl fun k _ => congrArg x (funext fun a => Fin.ext ?_)
    match a with
    | ⟨0, _⟩ => rfl
    | ⟨1, _⟩ => rfl
    | ⟨2, _⟩ => rfl

/-- The same for the counts, whose row of 1000 is read as a vector. -/
theorem kCounts_eq (y : FVec Ideal S2x1x1024 .f32) : (kCounts y : S1000.Idx → EReal) = LossSpec.foldCounts y := by
  funext j
  unfold kCounts LossSpec.foldCounts
  refine (shapeCast_apply _ shapeCasts_S1x1000_S1000 j (ix2 (0 : Fin 1) (j 0)) ?_).trans ?_
  · rw [Shape.rowMajor_val_two, Shape.rowMajor_val_one]
    show 0 * 1000 + (j 0).val = (j 0).val
    omega
  refine (extractStridedSlice_apply _ _ slices_S1x1024_S1x1000_0_0 _
    (ix2 (0 : Fin 1) (⟨(j 0).val, Nat.lt_of_lt_of_le (j 0).isLt (by decide)⟩ : Fin 1024)) ?_).trans ?_
  · intro a
    match a with
    | ⟨0, _⟩ => rfl
    | ⟨1, _⟩ => show (j 0).val = 0 + (j 0).val; omega
  · simp only [Host.reduceAdd, Ideal.hostReduceAdd_def]
    rw [Ideal.hostReduceAdd_single reducesTo_S2x1x1024_S1x1024_d0 (by decide)]
    show Ideal.ofBits .f32 0x00000000#32 + _ = _
    rw [LossSpec.ofBits_zero, zero_add]
    refine Finset.sum_congr rfl fun k _ => congrArg y (funext fun a => Fin.ext ?_)
    match a with
    | ⟨0, _⟩ => rfl
    | ⟨1, _⟩ => rfl
    | ⟨2, _⟩ => rfl

/-- The padded bank the last stretch leaves, read at the extended reals: rows below 1000 are the bank's (the update
    lands at its own coordinates, the one start index being 0), rows from 1000 on are the zero table's. -/
theorem kPadded_apply (nm : FVec Ideal S1000x256 .f32) (a : Fin 1024) (b : Fin 256) :
    (kPadded nm : LossSpec.PBank) (ix2 a b) = LossSpec.pad nm (ix2 a b) := by
  unfold kPadded LossSpec.pad
  rw [truncf_apply, Idealize.ShloMosaic.ScatterRows.scatter_apply (by decide) scatter_S1024x256_S1_S1000x256_01_n_0_0 rfl rfl rfl rfl _ _ rfl]
  show (if h : a.val < 1000 then nm (ix2 (⟨a.val, h⟩ : Fin 1000) b) else _)
    = if h : a.val < 1000 then nm (ix2 (⟨a.val, h⟩ : Fin 1000) b) else 0
  by_cases h : a.val < 1000
  · rw [dif_pos h, dif_pos h]
  · rw [dif_neg h, dif_neg h]
    exact LossSpec.ofBits_zero

theorem kPadded_eq (nm : FVec Ideal S1000x256 .f32) : (kPadded nm : LossSpec.PBank) = LossSpec.pad nm := by
  funext i
  rw [eq_ix2 i]
  exact kPadded_apply nm (i 0) (i 1)

/-- The old bank is as launched when the host operations between the regions begin. -/
theorem W2_mem (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- Region 1 finds, as its bank, the bank update of the folded partial sums and counts region 0 left, zero-padded. -/
theorem V7_bank (c : Dev nD) :
    (V7 m ρ c main_v41 : LossSpec.PBank)
      = LossSpec.pad (Cert.ReferenceIdeal.BankUpdate.newMem (F := Ideal)
          (LossSpec.foldSums (V2 m ρ c main_v1_0)) (LossSpec.foldCounts (V2 m ρ c main_v1_1))
          (m ((c : Thread nD τ).loc main_arg1))) := by
  have e := bank_chain (F := Ideal) (W2 m ρ c)
  rw [W2_mem m ρ c, kSums_eq, kCounts_eq, kPadded_eq] at e
  exact e

/-- A sum over the indices of a [2, 1, 1] array is the sum over its leading coordinate. -/
theorem sum_idx211 (f : S2x1x1.Idx → EReal) : ∑ i : S2x1x1.Idx, f i = ∑ k : Fin 2, f (ix3 k (0 : Fin 1) (0 : Fin 1)) := by
  refine (Fintype.sum_bijective (fun k : Fin 2 => (ix3 k (0 : Fin 1) (0 : Fin 1) : S2x1x1.Idx)) ⟨?_, ?_⟩ _ _ (fun k => rfl)).symm
  · intro a b h
    exact congrFun h (0 : Fin 3)
  · intro j
    refine ⟨j 0, ?_⟩
    funext a
    match a with
    | ⟨0, _⟩ => rfl
    | ⟨1, _⟩ => exact Subsingleton.elim (α := Fin 1) _ _
    | ⟨2, _⟩ => exact Subsingleton.elim (α := Fin 1) _ _

/-- The tail of the host program over any contents: the partial losses summed from 0, divided by the row count's word. -/
theorem tail_result (W : Valuation τ sig (Elt Ideal)) :
    (StableHlo.after hostOps2 W (Proc.devRef .tc main_v44) : S_.Idx → EReal)
      = Host.divf (Host.reduceAdd (W (Proc.devRef .tc main_v42) : S2x1x1.Idx → EReal) (constant (F := Ideal) S_ .f32 0x00000000#32)
          reducesTo_S2x1x1_S_d0_1_2 h_S_) (constant (F := Ideal) S_ .f32 0x48000000#32) := by
  after_results

/-- The result: the two cores' partial losses added, over the number of rows. -/
theorem W9_result (c : Dev nD) :
    (W9 m ρ c (Proc.devRef .tc main_v44) : S_.Idx → EReal)
      = fun _ => Ideal.div (∑ k : Fin 2, (V8 m ρ c main_v42 : S2x1x1.Idx → EReal) (ix3 k (0 : Fin 1) (0 : Fin 1))) ((131072 : ℝ) : EReal) := by
  show StableHlo.after hostOps2 (W8 m ρ c) (Proc.devRef .tc main_v44) = _
  rw [tail_result]
  funext j
  show Ideal.div (Ideal.hostReduceAdd reducesTo_S2x1x1_S_d0_1_2 (W8 m ρ c (Proc.devRef .tc main_v42) : S2x1x1.Idx → EReal)
      (Ideal.ofBits .f32 0x00000000#32) j) (Ideal.ofBits .f32 0x48000000#32) = _
  rw [Ideal.hostReduceAdd_total reducesTo_S2x1x1_S_d0_1_2 (fun b => b.elim0), LossSpec.ofBits_zero, LossSpec.ofBits_count,
    zero_add, sum_idx211]

end Cert.KernelIdeal.HostSide

end
-- ==== Proof.KernelValue.lean ====
/-
  The kernel's result: the two regions' final arrays and the host operations between them put together.  Region 0
  leaves each core's partial class sums and counts; added over the two cores they are the class sums and counts of
  all rows; the host's bank update of them, zero-padded, is the bank region 1 reads; region 1 leaves each core's
  partial loss, and the tail adds the two and divides by the number of rows: the loss in the kernel's arrangement.
-/
import proofs.«400353_j90031104459200_3_alg».proof.Proof.Gen.KernelIdeal.Frame
import proofs.«400353_j90031104459200_3_alg».proof.Proof.Spec
import proofs.«400353_j90031104459200_3_alg».proof.Proof.NewMem
import proofs.«400353_j90031104459200_3_alg».proof.Proof.Fold
import proofs.«400353_j90031104459200_3_alg».proof.Proof.Region0
import proofs.«400353_j90031104459200_3_alg».proof.Proof.Region1
import proofs.«400353_j90031104459200_3_alg».proof.Proof.KernelHost
import Idealize.ShloMosaic.Lib.ValueIdx
import Idealize.ShloMosaic.Lib.Pipeline.Value

set_option maxRecDepth 16384

noncomputable section

open Idealize.ShloMosaic Idealize.ShloMosaic.TcCoe Idealize.SL.Sem Idealize.ShloMosaic.ValueIdx

namespace Cert.KernelIdeal.Value

open Cert.KernelIdeal Cert.KernelIdeal.Gen

variable (m : (ℓ : Loc nD τ sig) → Buf (Elt Ideal) ℓ) (ρ : Dev nD → PrngReg)

/-- Region 0's first output, the two cores' blocks added, is the class sums. -/
theorem sums_entry (c : Dev nD) :
    LossSpec.foldSums (V2 m ρ c main_v1_0)
      = LossSpec.sumsV (m ((c : Thread nD τ).loc main_arg0)) (m ((c : Thread nD τ).loc main_arg2)) := by
  have h : (V2 m ρ c main_v1_0 : S2x1024x256.Idx → EReal)
      = fun j => LossSpec.kSums (m ((c : Thread nD τ).loc main_arg0)) (m ((c : Thread nD τ).loc main_arg2)) (j 0) (j 1) (j 2) := by
    funext j
    obtain ⟨k, cc, d, rfl⟩ : ∃ (k : Fin 2) (cc : Fin 1024) (d : Fin 256), j = ix3 k cc d := ⟨j 0, j 1, j 2, eq_ix3 j⟩
    have := Region0.sums_final (V1 m ρ) c k cc d
    rw [HostSide.V1_feat, HostSide.V1_lab] at this
    exact (congrFun (hF0 m ρ c 2).symm (ix3 k cc d)).trans this
  rw [h]
  exact LossSpec.foldSums_kSums _ _

/-- Region 0's second output, the two cores' blocks added, is the class counts. -/
theorem counts_entry (c : Dev nD) :
    LossSpec.foldCounts (V2 m ρ c main_v1_1) = LossSpec.countsV (m ((c : Thread nD τ).loc main_arg2)) := by
  have h : (V2 m ρ c main_v1_1 : S2x1x1024.Idx → EReal)
      = fun j => LossSpec.kCounts (m ((c : Thread nD τ).loc main_arg2)) (j 0) (j 2) := by
    funext j
    obtain ⟨k, z, cc, rfl⟩ : ∃ (k : Fin 2) (z : Fin 1) (cc : Fin 1024), j = ix3 k z cc := ⟨j 0, j 1, j 2, eq_ix3 j⟩
    obtain rfl : z = 0 := Subsingleton.elim _ _
    have := Region0.counts_final (V1 m ρ) c k cc
    rw [HostSide.V1_lab] at this
    exact (congrFun (hF0 m ρ c 3).symm (ix3 k (0 : Fin 1) cc)).trans this
  rw [h]
  exact LossSpec.foldCounts_kCounts _

/-- The result buffer ends at the loss in the kernel's arrangement, over the bank update of the class sums and counts. -/
theorem result_eq (c : Dev nD) :
    (W9 m ρ c (Proc.devRef .tc main_v44) : S_.Idx → EReal)
      = fun _ => LossSpec.kLoss (m ((c : Thread nD τ).loc main_arg0))
          (LossSpec.pad (Cert.ReferenceIdeal.BankUpdate.newMem (F := Ideal)
            (LossSpec.sumsV (m ((c : Thread nD τ).loc main_arg0)) (m ((c : Thread nD τ).loc main_arg2)))
            (LossSpec.countsV (m ((c : Thread nD τ).loc main_arg2))) (m ((c : Thread nD τ).loc main_arg1))))
          (m ((c : Thread nD τ).loc main_arg2)) := by
  rw [HostSide.W9_result]
  funext _
  unfold LossSpec.kLoss
  refine congrArg (fun s => Ideal.div s ((131072 : ℝ) : EReal)) (Finset.sum_congr rfl fun k _ => ?_)
  have := Region1.part_final (V7 m ρ) c k
  rw [HostSide.V7_feat, HostSide.V7_lab, HostSide.V7_bank, sums_entry, counts_entry] at this
  exact (congrFun (hF1 m ρ c 3).symm (ix3 k (0 : Fin 1) (0 : Fin 1))).trans this

end Cert.KernelIdeal.Value

end
-- ==== Proof.NewMemRead.lean ====
/-
  The last step of the bank update read at an index: a row of the new bank is the mixed row divided by
  `max (‖row‖, ε)`, so every entry of the new bank is a real number.
-/
import proofs.«400353_j90031104459200_3_alg».proof.Proof.NewMem
import proofs.«400353_j90031104459200_3_alg».proof.Proof.Finite

noncomputable section

namespace Cert.ReferenceIdeal.BankUpdate

open Cert.ReferenceIdeal Cert.ReferenceIdeal.Gen Idealize.ShloMosaic Idealize.ShloMosaic.ValueIdx

/-- The sum over a row's 256 columns of the squared entries, started from the word `0.0`, read at class `c`:
    `0 + Σ_k w[c,k]·w[c,k]`. -/
theorem sumSq_apply (w : FVec Ideal S1000x256 .f32) (c : Fin 1000) :
    (Host.reduceAdd (mulf w w) (constant S_ .f32 0x00000000#32) reducesTo_S1000x256_S1000_d1 h_S_ :
        FVec Ideal S1000 .f32) (ix1 c)
      = ∑ k : Fin 256, w (ix2 c k) * w (ix2 c k) := by
  simp only [Host.reduceAdd, Ideal.hostReduceAdd_def]
  rw [Ideal.hostReduceAdd_single reducesTo_S1000x256_S1000_d1 (by decide)]
  have h0 : (constant S_ .f32 0x00000000#32 : FVec Ideal S_ .f32) (Shape.Idx.first h_S_) = 0 :=
    LossSpec.ofBits_zero
  rw [h0, zero_add]
  refine Finset.sum_congr rfl fun k _ => ?_
  have hi : (Shape.Reduces.lift (s := S1000x256) (t := S1000) (by decide) (ix1 c) k : S1000x256.Idx) = ix2 c k :=
    funext fun a => Fin.ext (by match a with | ⟨0, _⟩ => rfl | ⟨1, _⟩ => rfl)
  rw [hi]
  rfl

theorem hostL2_apply (w : FVec Ideal S1000x256 .f32) (c : Fin 1000) (d : Fin 256) :
    hostL2 (F := Ideal) w (ix2 c d) = LossSpec.unit w c d := by
  unfold hostL2
  show Ideal.div (w (ix2 c d)) _ = _
  rw [broadcastInDim_apply _ bcast_S1000x1_S1000x256_0_1 _ (ix2 c d) (ix2 c (0 : Fin 1)) (fun a => match a with
    | ⟨0, _⟩ => by show c.val = if (1000 : Nat) = 1 then 0 else c.val; rw [if_neg (by decide)]
    | ⟨1, _⟩ => by show 0 = if (1 : Nat) = 1 then 0 else d.val; rw [if_pos rfl])]
  show Ideal.div (w (ix2 c d)) (max (Ideal.sqrt _) _) = _
  rw [broadcastInDim_apply _ bcast_S1000_S1000x1_0 _ (ix2 c (0 : Fin 1)) (ix1 c) (fun a => match a with
    | ⟨0, _⟩ => by show c.val = if (1000 : Nat) = 1 then 0 else c.val; rw [if_neg (by decide)])]
  rw [broadcastInDim_apply _ bcast_S_S1000x1 _ (ix2 c (0 : Fin 1)) ix0 (fun a => a.elim0)]
  rw [sumSq_apply]
  rfl

theorem newMem_real (s : FVec Ideal S1000x256 .f32) (cnt : FVec Ideal S1000 .f32) (mem : FVec Ideal S1000x256 .f32)
    (c : Fin 1000) (d : Fin 256) : ∃ r : ℝ, newMem (F := Ideal) s cnt mem (ix2 c d) = (r : EReal) := by
  unfold newMem
  rw [hostL2_apply]
  exact LossSpec.unit_real _ c d

end Cert.ReferenceIdeal.BankUpdate

end
-- ==== Proof.LossEq.lean ====
/-
  The two arrangements of the loss agree when the labels are classes and the bank is real: the 24 padding classes,
  masked by `-∞`, leave the row maximum and the sum of exponentials unchanged; the one-hot row sum picks the label's
  logit; `log (Σ exp (z - M)) + M` is `log Σ exp` shifted either way over the reals; and the rows taken tile by tile
  are all the rows.
-/
import proofs.«400353_j90031104459200_3_alg».proof.Proof.Spec
import proofs.«400353_j90031104459200_3_alg».proof.Proof.Finite
import proofs.«400353_j90031104459200_3_alg».proof.Proof.Fold
import Mathlib.Data.EReal.Operations
import Mathlib.Data.Fin.Embedding
import Mathlib.Data.Finset.Lattice.Fold
import Mathlib.Algebra.BigOperators.Group.Finset.Basic
import Mathlib.Algebra.Order.BigOperators.Group.Finset
import Mathlib.Analysis.Complex.Exponential
import Mathlib.Analysis.SpecialFunctions.Log.Basic
import Mathlib.Tactic.Ring
import Mathlib.Tactic.NormNum

noncomputable section

namespace LossSpec

open Idealize.ShloMosaic Idealize.ShloMosaic.ValueIdx

/-! ## Finite sums of reals inside the extended reals -/

/-- The inclusion of the reals into the extended reals commutes with finite sums. -/
theorem coe_sum {ι : Type} (s : Finset ι) (g : ι → ℝ) :
    ∑ i ∈ s, ((g i : ℝ) : EReal) = ((∑ i ∈ s, g i : ℝ) : EReal) := by
  classical
  refine Finset.induction_on s ?_ ?_
  · rw [Finset.sum_empty, Finset.sum_empty, EReal.coe_zero]
  · intro a t ha ih
    rw [Finset.sum_insert ha, Finset.sum_insert ha, ih, EReal.coe_add]

/-- A finite sum of reals is a real. -/
theorem sum_real {ι : Type} (s : Finset ι) (f : ι → EReal) (hf : ∀ i, ∃ r : ℝ, f i = (r : EReal)) :
    ∃ r : ℝ, ∑ i ∈ s, f i = (r : EReal) := by
  choose g hg using hf
  exact ⟨∑ i ∈ s, g i, by rw [← coe_sum]; exact Finset.sum_congr rfl fun i _ => hg i⟩

/-- A sum over `Fin n` of a function that vanishes from `m` on is the sum over `Fin m`. -/
theorem sum_castLE {m n : ℕ} (h : m ≤ n) (g : Fin n → EReal) (hg : ∀ c : Fin n, m ≤ c.val → g c = 0) :
    ∑ c : Fin n, g c = ∑ c : Fin m, g (Fin.castLE h c) := by
  have h1 : ∑ c : Fin m, g (Fin.castLE h c) = ∑ c ∈ Finset.univ.map (Fin.castLEEmb h), g c :=
    (Finset.sum_map Finset.univ (Fin.castLEEmb h) g).symm
  rw [h1]
  symm
  refine Finset.sum_subset (Finset.subset_univ _) fun c _ hc => hg c ?_
  by_contra hlt
  exact hc (Finset.mem_map.mpr ⟨⟨c.val, Nat.lt_of_not_le hlt⟩, Finset.mem_univ _, Fin.ext rfl⟩)

/-! ## The logits: real, and unchanged by the padding below class 1000 -/

/-- Every inner product of a normalised row with a real bank row is a real. -/
theorem logit_real (x : Feat) (nm : Bank)
    (hnm : ∀ (c : Fin 1000) (d : Fin 256), ∃ r : ℝ, nm (ix2 c d) = (r : EReal))
    (n : Fin 131072) (c : Fin 1000) : ∃ r : ℝ, logit x nm n c = (r : EReal) := by
  unfold logit
  refine sum_real _ _ fun d => ?_
  obtain ⟨u, hu⟩ := unit_real x n d
  obtain ⟨b, hb⟩ := hnm c d
  exact ⟨u * b, by rw [hu, hb, EReal.coe_mul]⟩

/-- Below row 1000 the padded bank is the bank. -/
theorem pad_lt (nm : Bank) (c : Fin 1024) (d : Fin 256) (h : c.val < 1000) :
    pad nm (ix2 c d) = nm (ix2 (⟨c.val, h⟩ : Fin 1000) d) := by
  show (if h' : c.val < 1000 then nm (ix2 (⟨c.val, h'⟩ : Fin 1000) d) else 0) = _
  rw [dif_pos h]

/-- Below class 1000 the logit against the padded bank is the logit against the bank. -/
theorem logit_pad (x : Feat) (nm : Bank) (n : Fin 131072) (c : Fin 1024) (h : c.val < 1000) :
    logit x (pad nm) n c = logit x nm n ⟨c.val, h⟩ := by
  unfold logit
  exact Finset.sum_congr rfl fun d _ => by rw [pad_lt nm c d h]

theorem kLogit_pad_lt (x : Feat) (nm : Bank) (n : Fin 131072) (c : Fin 1024) (h : c.val < 1000) :
    kLogit x (pad nm) n c = logit x nm n ⟨c.val, h⟩ := by
  unfold kLogit
  rw [if_pos h, logit_pad x nm n c h]

theorem kLogit_pad_castLE (x : Feat) (nm : Bank) (n : Fin 131072) (c : Fin 1000) :
    kLogit x (pad nm) n (Fin.castLE (by decide : 1000 ≤ 1024) c) = logit x nm n c :=
  kLogit_pad_lt x nm n (Fin.castLE (by decide : 1000 ≤ 1024) c) c.isLt

theorem kLogit_pad_ge (x : Feat) (nm : Bank) (n : Fin 131072) (c : Fin 1024) (h : 1000 ≤ c.val) :
    kLogit x (pad nm) n c = ⊥ := by
  unfold kLogit
  rw [if_neg (Nat.not_lt.mpr h)]

/-! ## The row maximum -/

/-- The maximum over the 1024 masked classes is the maximum over the 1000 classes. -/
theorem kMax_pad (x : Feat) (nm : Bank) (n : Fin 131072) : kMax x (pad nm) n = rMax x nm n := by
  unfold kMax rMax
  apply le_antisymm
  · refine Finset.sup_le fun c _ => ?_
    by_cases h : c.val < 1000
    · rw [kLogit_pad_lt x nm n c h]
      exact Finset.le_sup (f := fun c : Fin 1000 => logit x nm n c) (Finset.mem_univ _)
    · rw [kLogit_pad_ge x nm n c (Nat.le_of_not_lt h)]
      exact bot_le
  · refine Finset.sup_le fun c _ => ?_
    calc logit x nm n c = kLogit x (pad nm) n (Fin.castLE (by decide : 1000 ≤ 1024) c) :=
          (kLogit_pad_castLE x nm n c).symm
      _ ≤ _ := Finset.le_sup (f := fun c : Fin 1024 => kLogit x (pad nm) n c) (Finset.mem_univ _)

/-- The row maximum is one of the logits, hence a real. -/
theorem rMax_real (x : Feat) (nm : Bank)
    (hnm : ∀ (c : Fin 1000) (d : Fin 256), ∃ r : ℝ, nm (ix2 c d) = (r : EReal))
    (n : Fin 131072) : ∃ m : ℝ, rMax x nm n = (m : EReal) := by
  obtain ⟨c, _, hc⟩ := Finset.exists_mem_eq_sup (Finset.univ : Finset (Fin 1000))
    ⟨⟨0, by decide⟩, Finset.mem_univ _⟩ (fun c => logit x nm n c)
  obtain ⟨r, hr⟩ := logit_real x nm hnm n c
  exact ⟨r, by unfold rMax; rw [hc, hr]⟩

/-! ## The sum of exponentials -/

/-- The 24 masked classes contribute `exp (-∞) = 0` each. -/
theorem sumExp_pad (x : Feat) (nm : Bank) (n : Fin 131072) (M : EReal) :
    ∑ c : Fin 1024, Ideal.exp (kLogit x (pad nm) n c - M) = ∑ c : Fin 1000, Ideal.exp (logit x nm n c - M) := by
  rw [sum_castLE (by decide : 1000 ≤ 1024) (fun c => Ideal.exp (kLogit x (pad nm) n c - M))]
  · exact Finset.sum_congr rfl fun c _ => by rw [kLogit_pad_castLE]
  · intro c hc
    show Ideal.exp (kLogit x (pad nm) n c - M) = 0
    rw [kLogit_pad_ge x nm n c hc, EReal.bot_sub, Ideal.exp_bot]

/-! ## The one-hot row sum -/

/-- The one-hot sum over the 1024 classes is the logit at the label. -/
theorem kTgt_pad (x : Feat) (nm : Bank) (l : Lab) (n : Fin 131072) (h : (l (ix1 n)).toNat < 1000) :
    kTgt x (pad nm) l n = logit x nm n (lab l n) := by
  unfold kTgt
  have h' : (l (ix1 n)).toNat < 1024 := Nat.lt_of_lt_of_le h (by decide)
  rw [Finset.sum_eq_single (⟨(l (ix1 n)).toNat, h'⟩ : Fin 1024)]
  · rw [if_pos (show (l (ix1 n)).toNat = (⟨(l (ix1 n)).toNat, h'⟩ : Fin 1024).val from rfl),
      kLogit_pad_lt x nm n _ h]
    exact congrArg (logit x nm n) (Fin.ext (Nat.mod_eq_of_lt h).symm)
  · intro c _ hc
    rw [if_neg]
    intro he
    exact hc (Fin.ext he.symm)
  · intro hn
    exact absurd (Finset.mem_univ _) hn

/-! ## One row -/

/-- Row `n`'s loss in the kernel's arrangement is minus its log-probability in the reference's, both real:
    `0 - (t - (ls + M)) = -((t - M) - ls)`. -/
theorem kRow_pad (x : Feat) (nm : Bank) (l : Lab)
    (hnm : ∀ (c : Fin 1000) (d : Fin 256), ∃ r : ℝ, nm (ix2 c d) = (r : EReal))
    (n : Fin 131072) (h : (l (ix1 n)).toNat < 1000) :
    ∃ a : ℝ, rLogp x nm n (lab l n) = (a : EReal) ∧ kRow x (pad nm) l n = ((-a : ℝ) : EReal) := by
  choose a ha using logit_real x nm hnm n
  obtain ⟨m, hm⟩ := rMax_real x nm hnm n
  have hs : ∑ c : Fin 1000, Ideal.exp (logit x nm n c - rMax x nm n)
      = ((∑ c : Fin 1000, Real.exp (a c - m) : ℝ) : EReal) := by
    rw [← coe_sum]
    refine Finset.sum_congr rfl fun c _ => ?_
    rw [ha c, hm, ← EReal.coe_sub, Ideal.exp_coe]
  have hpos : 0 < ∑ c : Fin 1000, Real.exp (a c - m) :=
    Finset.sum_pos (fun c _ => Real.exp_pos _) ⟨⟨0, by decide⟩, Finset.mem_univ _⟩
  have hlog : Ideal.log (∑ c : Fin 1000, Ideal.exp (logit x nm n c - rMax x nm n))
      = ((Real.log (∑ c : Fin 1000, Real.exp (a c - m)) : ℝ) : EReal) := by
    rw [hs, Ideal.log_coe, if_neg (not_le.mpr hpos)]
  refine ⟨(a (lab l n) - m) - Real.log (∑ c : Fin 1000, Real.exp (a c - m)), ?_, ?_⟩
  · unfold rLogp
    rw [hlog, ha, hm, ← EReal.coe_sub, ← EReal.coe_sub]
  · unfold kRow kLse
    rw [kTgt_pad x nm l n h, kMax_pad, sumExp_pad, hlog, ha, hm, ← EReal.coe_add, ← EReal.coe_sub,
      ← EReal.coe_zero, ← EReal.coe_sub]
    congr 1
    ring

/-! ## All the rows -/

theorem loss_eq (x : Feat) (nm : Bank) (l : Lab) (hl : ∀ n : Fin 131072, (l (ix1 n)).toNat < 1000)
    (hnm : ∀ (c : Fin 1000) (d : Fin 256), ∃ r : ℝ, nm (ix2 c d) = (r : EReal)) :
    kLoss x (pad nm) l = rLoss x nm l := by
  choose a ha using fun n : Fin 131072 => kRow_pad x nm l hnm n (hl n)
  have hk : ∑ k : Fin 2, kPart x (pad nm) l k = ((-(∑ n : Fin 131072, a n) : ℝ) : EReal) := by
    have h1 : ∑ k : Fin 2, kPart x (pad nm) l k = ∑ n : Fin 131072, kRow x (pad nm) l n :=
      sum_rowOf (fun n => kRow x (pad nm) l n)
    rw [h1, ← Finset.sum_neg_distrib, ← coe_sum]
    exact Finset.sum_congr rfl fun n _ => (ha n).2
  have hr : ∑ n : Fin 131072, rLogp x nm n (lab l n) = ((∑ n : Fin 131072, a n : ℝ) : EReal) := by
    rw [← coe_sum]
    exact Finset.sum_congr rfl fun n _ => (ha n).1
  unfold kLoss rLoss
  rw [hk, hr, Ideal.div_coe (by norm_num : (131072 : ℝ) ≠ 0), Ideal.div_coe (by norm_num : (131072 : ℝ) ≠ 0),
    ← EReal.coe_mul, ← EReal.coe_mul, ← EReal.coe_neg]
  exact congrArg Real.toEReal (by ring)

end LossSpec

end
-- ==== Proof.PreLabel.lean ====
/-
  The precondition read back: where the printed predicate is all ones, every label is a class, `0 ≤ label < 1000`
  as a signed 32-bit integer, so its unsigned value is below 1000.
-/
import proofs.«400353_j90031104459200_3_alg».proof.Pre_finite_inputs
import proofs.«400353_j90031104459200_3_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreLabel

open Idealize.ShloMosaic Idealize.ShloMosaic.ValueIdx Cert.Pre_finite_inputs

/-- A 32-bit word that is `≥ 0` and `< 1000` as a signed integer has unsigned value below 1000: a signed value
    `≥ 0` means the top bit is clear, and then the signed and the unsigned value are the same number. -/
theorem toNat_lt_of_signed (w : BitVec 32) (h0 : IntOp.cmpi .sge w 0#32 = 1#1)
    (h1 : IntOp.cmpi .slt w 1000#32 = 1#1) : w.toNat < 1000 := by
  unfold IntOp.cmpi at h0 h1
  rw [StableHlo.Predicate.ofBool_eq_one_iff] at h0 h1
  simp only [BitVec.slt, BitVec.sle, decide_eq_true_eq] at h0 h1
  have z : (0#32 : BitVec 32).toInt = 0 := by decide
  have k : (1000#32 : BitVec 32).toInt = 1000 := by decide
  rw [z] at h0
  rw [k] at h1
  have hw := w.isLt
  rw [BitVec.toInt_eq_toNat_cond] at h0 h1
  by_cases hc : 2 * w.toNat < 2 ^ 32
  · rw [if_pos hc] at h1; omega
  · rw [if_neg hc] at h0; omega

theorem label_range (x0 : FVec Ideal S131072x256 .f32) (x1 : FVec Ideal S1000x256 .f32) (x2 : IVec S131072 32)
    (h : Cert.Pre_finite_inputs.fn (F := Ideal) x0 x1 x2 = fun _ => 1#1) :
    ∀ n : Fin 131072, (x2 (ix1 n)).toNat < 1000 := by
  intro n
  haveI : Subsingleton S_.Idx := ⟨fun a b => funext fun d => d.elim0⟩
  -- the predicate at its one index: a conjunction whose last conjunct is the `all` over the labels
  have e : Cert.Pre_finite_inputs.fn (F := Ideal) x0 x1 x2 ix0 = 1#1 := congrFun h ix0
  dsimp only [Cert.Pre_finite_inputs.fn] at e
  have e14 := (IntOp.andi_eq_one.1 e).2
  -- an `and`-reduction that is 1 met a 1 at every label
  have e13 : IntOp.andi (IntOp.cmpi .sge (x2 (ix1 n)) 0#32) (IntOp.cmpi .slt (x2 (ix1 n)) 1000#32) = 1#1 :=
    Host.reduce_andi_all _ _ _ _ ix0 e14 (ix1 n)
  obtain ⟨hge, hlt⟩ := IntOp.andi_eq_one.1 e13
  exact toNat_lt_of_signed _ hge hlt

end Cert.PreLabel

end
-- ==== Proof.RefRun.lean ====
/-
  The reference's run: every weakly fair execution of its 113 host operations terminates, with the result buffer at
  the operations' composed value of the arguments — stated through the stages `val_<buffer>`, one per operation — and
  the arguments unchanged.
-/
import proofs.«400353_j90031104459200_3_alg».proof.Proof.ReadP
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 113 operations, in order (a called function's operations stand in its call's place). -/
abbrev ops : List (HloOp τ sig (Elt F)) :=
  [ TRef.binary (TRef.of (T := ⟨S131072x256, .f32⟩) main_arg0) (TRef.of (T := ⟨S131072x256, .f32⟩) main_arg0) (TRef.of (T := ⟨S131072x256, .f32⟩) main_call0_v0) mulf,
    TRef.nullary (TRef.of (T := ⟨S_, .f32⟩) main_call0_cst) (constant S_ .f32 0x00000000#32),
    TRef.binary (TRef.of (T := ⟨S131072x256, .f32⟩) main_call0_v0) (TRef.of (T := ⟨S_, .f32⟩) main_call0_cst) (TRef.of (T := ⟨S131072, .f32⟩) main_call0_v1) (fun x v => Host.reduceAdd x v reducesTo_S131072x256_S131072_d1 h_S_),
    TRef.unary (TRef.of (T := ⟨S131072, .f32⟩) main_call0_v1) (TRef.of (T := ⟨S131072x1, .f32⟩) main_call0_v2) (broadcastInDim S131072x1 ![0] bcast_S131072_S131072x1_0),
    TRef.unary (TRef.of (T := ⟨S131072x1, .f32⟩) main_call0_v2) (TRef.of (T := ⟨S131072x1, .f32⟩) main_v0) Host.sqrt,
    nullary main_cst (constant S_ .f32 0x2B8CBCCC#32),
    unary main_cst main_v1 (broadcastInDim S131072x1 ![] bcast_S_S131072x1 : (⟨S_, .f32⟩ : BufTy).Contents (Elt F) → (⟨S131072x1, .f32⟩ : BufTy).Contents (Elt F)),
    binary main_v0 main_v1 main_v2 (maximumf : (⟨S131072x1, .f32⟩ : BufTy).Contents (Elt F) → (⟨S131072x1, .f32⟩ : BufTy).Contents (Elt F) → (⟨S131072x1, .f32⟩ : BufTy).Contents (Elt F)),
    unary main_v2 main_v3 (broadcastInDim S131072x256 ![0, 1] bcast_S131072x1_S131072x256_0_1 : (⟨S131072x1, .f32⟩ : BufTy).Contents (Elt F) → (⟨S131072x256, .f32⟩ : BufTy).Contents (Elt F)),
    binary main_arg0 main_v3 main_v4 (Host.divf : (⟨S131072x256, .f32⟩ : BufTy).Contents (Elt F) → (⟨S131072x256, .f32⟩ : BufTy).Contents (Elt F) → (⟨S131072x256, .f32⟩ : BufTy).Contents (Elt F)),
    nullary main_cst_0 (constant S_ .f32 0x00000000#32),
    unary main_cst_0 main_v5 (broadcastInDim S1000x256 ![] bcast_S_S1000x256 : (⟨S_, .f32⟩ : BufTy).Contents (Elt F) → (⟨S1000x256, .f32⟩ : BufTy).Contents (Elt F)),
    unary main_arg2 main_v6 (broadcastInDim S131072x1 ![0] bcast_S131072_S131072x1_0 : (⟨S131072, .i32⟩ : BufTy).Contents (Elt F) → (⟨S131072x1, .i32⟩ : BufTy).Contents (Elt F)),
    ternary main_v5 main_v6 main_v4 main_v7 ((fun x i u => Host.scatterAdd scatter_S1000x256_S131072x1_S131072x256_1_0_0_1 x i u) : (⟨S1000x256, .f32⟩ : BufTy).Contents (Elt F) → (⟨S131072x1, .i32⟩ : BufTy).Contents (Elt F) → (⟨S131072x256, .f32⟩ : BufTy).Contents (Elt F) → (⟨S1000x256, .f32⟩ : BufTy).Contents (Elt F)),
    nullary main_cst_1 (constant S_ .f32 0x3F800000#32),
    unary main_cst_1 main_v8 (broadcastInDim S131072 ![] bcast_S_S131072 : (⟨S_, .f32⟩ : BufTy).Contents (Elt F) → (⟨S131072, .f32⟩ : BufTy).Contents (Elt F)),
    nullary main_cst_2 (constant S_ .f32 0x00000000#32),
    unary main_cst_2 main_v9 (broadcastInDim S1000 ![] bcast_S_S1000 : (⟨S_, .f32⟩ : BufTy).Contents (Elt F) → (⟨S1000, .f32⟩ : BufTy).Contents (Elt F)),
    unary main_arg2 main_v10 (broadcastInDim S131072x1 ![0] bcast_S131072_S131072x1_0 : (⟨S131072, .i32⟩ : BufTy).Contents (Elt F) → (⟨S131072x1, .i32⟩ : BufTy).Contents (Elt F)),
    ternary main_v9 main_v10 main_v8 main_v11 ((fun x i u => Host.scatterAdd scatter_S1000_S131072x1_S131072_n_0_0_1 x i u) : (⟨S1000, .f32⟩ : BufTy).Contents (Elt F) → (⟨S131072x1, .i32⟩ : BufTy).Contents (Elt F) → (⟨S131072, .f32⟩ : BufTy).Contents (Elt F) → (⟨S1000, .f32⟩ : BufTy).Contents (Elt F)),
    nullary main_cst_3 (constant S_ .f32 0x00000000#32),
    unary main_cst_3 main_v12 (broadcastInDim S1000 ![] bcast_S_S1000 : (⟨S_, .f32⟩ : BufTy).Contents (Elt F) → (⟨S1000, .f32⟩ : BufTy).Contents (Elt F)),
    binary main_v11 main_v12 main_v13 (cmpf .ogt : (⟨S1000, .f32⟩ : BufTy).Contents (Elt F) → (⟨S1000, .f32⟩ : BufTy).Contents (Elt F) → (⟨S1000, .i1⟩ : BufTy).Contents (Elt F)),
    unary main_v13 main_v14 (uitofp .f32 : (⟨S1000, .i1⟩ : BufTy).Contents (Elt F) → (⟨S1000, .f32⟩ : BufTy).Contents (Elt F)),
    unary main_v14 main_v15 (broadcastInDim S1000x1 ![0] bcast_S1000_S1000x1_0 : (⟨S1000, .f32⟩ : BufTy).Contents (Elt F) → (⟨S1000x1, .f32⟩ : BufTy).Contents (Elt F)),
    TRef.binary (TRef.of (T := ⟨S1000x256, .f32⟩) main_v7) (TRef.of (T := ⟨S1000x256, .f32⟩) main_v7) (TRef.of (T := ⟨S1000x256, .f32⟩) main_call1_v0) mulf,
    TRef.nullary (TRef.of (T := ⟨S_, .f32⟩) main_call1_cst) (constant S_ .f32 0x00000000#32),
    TRef.binary (TRef.of (T := ⟨S1000x256, .f32⟩) main_call1_v0) (TRef.of (T := ⟨S_, .f32⟩) main_call1_cst) (TRef.of (T := ⟨S1000, .f32⟩) main_call1_v1) (fun x v => Host.reduceAdd x v reducesTo_S1000x256_S1000_d1 h_S_),
    TRef.unary (TRef.of (T := ⟨S1000, .f32⟩) main_call1_v1) (TRef.of (T := ⟨S1000x1, .f32⟩) main_call1_v2) (broadcastInDim S1000x1 ![0] bcast_S1000_S1000x1_0),
    TRef.unary (TRef.of (T := ⟨S1000x1, .f32⟩) main_call1_v2) (TRef.of (T := ⟨S1000x1, .f32⟩) main_v16) Host.sqrt,
    nullary main_cst_4 (constant S_ .f32 0x2B8CBCCC#32),
    unary main_cst_4 main_v17 (broadcastInDim S1000x1 ![] bcast_S_S1000x1 : (⟨S_, .f32⟩ : BufTy).Contents (Elt F) → (⟨S1000x1, .f32⟩ : BufTy).Contents (Elt F)),
    binary main_v16 main_v17 main_v18 (maximumf : (⟨S1000x1, .f32⟩ : BufTy).Contents (Elt F) → (⟨S1000x1, .f32⟩ : BufTy).Contents (Elt F) → (⟨S1000x1, .f32⟩ : BufTy).Contents (Elt F)),
    unary main_v18 main_v19 (broadcastInDim S1000x256 ![0, 1] bcast_S1000x1_S1000x256_0_1 : (⟨S1000x1, .f32⟩ : BufTy).Contents (Elt F) → (⟨S1000x256, .f32⟩ : BufTy).Contents (Elt F)),
    binary main_v7 main_v19 main_v20 (Host.divf : (⟨S1000x256, .f32⟩ : BufTy).Contents (Elt F) → (⟨S1000x256, .f32⟩ : BufTy).Contents (Elt F) → (⟨S1000x256, .f32⟩ : BufTy).Contents (Elt F)),
    unary main_v15 main_v21 (broadcastInDim S1000x256 ![0, 1] bcast_S1000x1_S1000x256_0_1 : (⟨S1000x1, .f32⟩ : BufTy).Contents (Elt F) → (⟨S1000x256, .f32⟩ : BufTy).Contents (Elt F)),
    binary main_v20 main_v21 main_v22 (mulf : (⟨S1000x256, .f32⟩ : BufTy).Contents (Elt F) → (⟨S1000x256, .f32⟩ : BufTy).Contents (Elt F) → (⟨S1000x256, .f32⟩ : BufTy).Contents (Elt F)),
    binary main_arg1 main_v22 main_v23 (mulf : (⟨S1000x256, .f32⟩ : BufTy).Contents (Elt F) → (⟨S1000x256, .f32⟩ : BufTy).Contents (Elt F) → (⟨S1000x256, .f32⟩ : BufTy).Contents (Elt F)),
    nullary main_cst_5 (constant S_ .f32 0x00000000#32),
    binary main_v23 main_cst_5 main_v24 ((fun x v => Host.reduceAdd x v reducesTo_S1000x256_S1000_d1 h_S_) : (⟨S1000x256, .f32⟩ : BufTy).Contents (Elt F) → (⟨S_, .f32⟩ : BufTy).Contents (Elt F) → (⟨S1000, .f32⟩ : BufTy).Contents (Elt F)),
    unary main_v24 main_v25 (broadcastInDim S1000x1 ![0] bcast_S1000_S1000x1_0 : (⟨S1000, .f32⟩ : BufTy).Contents (Elt F) → (⟨S1000x1, .f32⟩ : BufTy).Contents (Elt F)),
    nullary main_cst_6 (constant S_ .f32 0x3F800000#32),
    unary main_cst_6 main_v26 (broadcastInDim S1000x1 ![] bcast_S_S1000x1 : (⟨S_, .f32⟩ : BufTy).Contents (Elt F) → (⟨S1000x1, .f32⟩ : BufTy).Contents (Elt F)),
    binary main_v26 main_v25 main_v27 (subf : (⟨S1000x1, .f32⟩ : BufTy).Contents (Elt F) → (⟨S1000x1, .f32⟩ : BufTy).Contents (Elt F) → (⟨S1000x1, .f32⟩ : BufTy).Contents (Elt F)),
    binary main_v27 main_v15 main_v28 (mulf : (⟨S1000x1, .f32⟩ : BufTy).Contents (Elt F) → (⟨S1000x1, .f32⟩ : BufTy).Contents (Elt F) → (⟨S1000x1, .f32⟩ : BufTy).Contents (Elt F)),
    nullary main_cst_7 (constant S_ .f32 0x3F800000#32),
    unary main_cst_7 main_v29 (broadcastInDim S1000x1 ![] bcast_S_S1000x1 : (⟨S_, .f32⟩ : BufTy).Contents (Elt F) → (⟨S1000x1, .f32⟩ : BufTy).Contents (Elt F)),
    binary main_v29 main_v28 main_v30 (subf : (⟨S1000x1, .f32⟩ : BufTy).Contents (Elt F) → (⟨S1000x1, .f32⟩ : BufTy).Contents (Elt F) → (⟨S1000x1, .f32⟩ : BufTy).Contents (Elt F)),
    unary main_v30 main_v31 (broadcastInDim S1000x256 ![0, 1] bcast_S1000x1_S1000x256_0_1 : (⟨S1000x1, .f32⟩ : BufTy).Contents (Elt F) → (⟨S1000x256, .f32⟩ : BufTy).Contents (Elt F)),
    binary main_v31 main_arg1 main_v32 (mulf : (⟨S1000x256, .f32⟩ : BufTy).Contents (Elt F) → (⟨S1000x256, .f32⟩ : BufTy).Contents (Elt F) → (⟨S1000x256, .f32⟩ : BufTy).Contents (Elt F)),
    nullary main_cst_8 (constant S_ .f32 0x3F800000#32),
    unary main_cst_8 main_v33 (broadcastInDim S1000x1 ![] bcast_S_S1000x1 : (⟨S_, .f32⟩ : BufTy).Contents (Elt F) → (⟨S1000x1, .f32⟩ : BufTy).Contents (Elt F)),
    binary main_v33 main_v30 main_v34 (subf : (⟨S1000x1, .f32⟩ : BufTy).Contents (Elt F) → (⟨S1000x1, .f32⟩ : BufTy).Contents (Elt F) → (⟨S1000x1, .f32⟩ : BufTy).Contents (Elt F)),
    unary main_v34 main_v35 (broadcastInDim S1000x256 ![0, 1] bcast_S1000x1_S1000x256_0_1 : (⟨S1000x1, .f32⟩ : BufTy).Contents (Elt F) → (⟨S1000x256, .f32⟩ : BufTy).Contents (Elt F)),
    binary main_v35 main_v22 main_v36 (mulf : (⟨S1000x256, .f32⟩ : BufTy).Contents (Elt F) → (⟨S1000x256, .f32⟩ : BufTy).Contents (Elt F) → (⟨S1000x256, .f32⟩ : BufTy).Contents (Elt F)),
    binary main_v32 main_v36 main_v37 (addf : (⟨S1000x256, .f32⟩ : BufTy).Contents (Elt F) → (⟨S1000x256, .f32⟩ : BufTy).Contents (Elt F) → (⟨S1000x256, .f32⟩ : BufTy).Contents (Elt F)),
    TRef.binary (TRef.of (T := ⟨S1000x256, .f32⟩) main_v37) (TRef.of (T := ⟨S1000x256, .f32⟩) main_v37) (TRef.of (T := ⟨S1000x256, .f32⟩) main_call2_v0) mulf,
    TRef.nullary (TRef.of (T := ⟨S_, .f32⟩) main_call2_cst) (constant S_ .f32 0x00000000#32),
    TRef.binary (TRef.of (T := ⟨S1000x256, .f32⟩) main_call2_v0) (TRef.of (T := ⟨S_, .f32⟩) main_call2_cst) (TRef.of (T := ⟨S1000, .f32⟩) main_call2_v1) (fun x v => Host.reduceAdd x v reducesTo_S1000x256_S1000_d1 h_S_),
    TRef.unary (TRef.of (T := ⟨S1000, .f32⟩) main_call2_v1) (TRef.of (T := ⟨S1000x1, .f32⟩) main_call2_v2) (broadcastInDim S1000x1 ![0] bcast_S1000_S1000x1_0),
    TRef.unary (TRef.of (T := ⟨S1000x1, .f32⟩) main_call2_v2) (TRef.of (T := ⟨S1000x1, .f32⟩) main_v38) Host.sqrt,
    nullary main_cst_9 (constant S_ .f32 0x2B8CBCCC#32),
    unary main_cst_9 main_v39 (broadcastInDim S1000x1 ![] bcast_S_S1000x1 : (⟨S_, .f32⟩ : BufTy).Contents (Elt F) → (⟨S1000x1, .f32⟩ : BufTy).Contents (Elt F)),
    binary main_v38 main_v39 main_v40 (maximumf : (⟨S1000x1, .f32⟩ : BufTy).Contents (Elt F) → (⟨S1000x1, .f32⟩ : BufTy).Contents (Elt F) → (⟨S1000x1, .f32⟩ : BufTy).Contents (Elt F)),
    unary main_v40 main_v41 (broadcastInDim S1000x256 ![0, 1] bcast_S1000x1_S1000x256_0_1 : (⟨S1000x1, .f32⟩ : BufTy).Contents (Elt F) → (⟨S1000x256, .f32⟩ : BufTy).Contents (Elt F)),
    binary main_v37 main_v41 main_v42 (Host.divf : (⟨S1000x256, .f32⟩ : BufTy).Contents (Elt F) → (⟨S1000x256, .f32⟩ : BufTy).Contents (Elt F) → (⟨S1000x256, .f32⟩ : BufTy).Contents (Elt F)),
    binary main_v4 main_v42 main_v43 ((fun l r => Host.dotGeneral dot_S131072x256_S1000x256_S131072x1000_1_1_0_0_n_n none l r) : (⟨S131072x256, .f32⟩ : BufTy).Contents (Elt F) → (⟨S1000x256, .f32⟩ : BufTy).Contents (Elt F) → (⟨S131072x1000, .f32⟩ : BufTy).Contents (Elt F)),
    nullary main_cst_10 (constant S_ .f32 0x3F800000#32),
    unary main_cst_10 main_v44 (broadcastInDim S131072x1000 ![] bcast_S_S131072x1000 : (⟨S_, .f32⟩ : BufTy).Contents (Elt F) → (⟨S131072x1000, .f32⟩ : BufTy).Contents (Elt F)),
    binary main_v43 main_v44 main_v45 (Host.divf : (⟨S131072x1000, .f32⟩ : BufTy).Contents (Elt F) → (⟨S131072x1000, .f32⟩ : BufTy).Contents (Elt F) → (⟨S131072x1000, .f32⟩ : BufTy).Contents (Elt F)),
    TRef.nullary (TRef.of (T := ⟨S_, .f32⟩) main_call3_cst) (constant S_ .f32 0xFF800000#32),
    TRef.binary (TRef.of (T := ⟨S131072x1000, .f32⟩) main_v45) (TRef.of (T := ⟨S_, .f32⟩) main_call3_cst) (TRef.of (T := ⟨S131072, .f32⟩) main_call3_v0) (fun x v => Host.reduce FloatOps.maximumf x v reducesTo_S131072x1000_S131072_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S131072, .f32⟩) main_call3_v1) (broadcastInDim S131072 ![] bcast_S_S131072),
    TRef.binary (TRef.of (T := ⟨S131072, .f32⟩) main_call3_v1) (TRef.of (T := ⟨S131072, .f32⟩) main_call3_v0) (TRef.of (T := ⟨S131072, .f32⟩) main_call3_v2) maximumf,
    TRef.unary (TRef.of (T := ⟨S131072, .f32⟩) main_call3_v2) (TRef.of (T := ⟨S131072x1, .f32⟩) main_call3_v3) (broadcastInDim S131072x1 ![0] bcast_S131072_S131072x1_0),
    TRef.unary (TRef.of (T := ⟨S131072x1, .f32⟩) main_call3_v3) (TRef.of (T := ⟨S131072x1000, .f32⟩) main_call3_v4) (broadcastInDim S131072x1000 ![0, 1] bcast_S131072x1_S131072x1000_0_1),
    TRef.binary (TRef.of (T := ⟨S131072x1000, .f32⟩) main_v45) (TRef.of (T := ⟨S131072x1000, .f32⟩) main_call3_v4) (TRef.of (T := ⟨S131072x1000, .f32⟩) main_call3_v5) subf,
    TRef.unary (TRef.of (T := ⟨S131072x1000, .f32⟩) main_call3_v5) (TRef.of (T := ⟨S131072x1000, .f32⟩) main_call3_v6) Host.exp,
    TRef.nullary (TRef.of (T := ⟨S_, .f32⟩) main_call3_cst_1) (constant S_ .f32 0x00000000#32),
    TRef.binary (TRef.of (T := ⟨S131072x1000, .f32⟩) main_call3_v6) (TRef.of (T := ⟨S_, .f32⟩) main_call3_cst_1) (TRef.of (T := ⟨S131072, .f32⟩) main_call3_v7) (fun x v => Host.reduceAdd x v reducesTo_S131072x1000_S131072_d1 h_S_),
    TRef.unary (TRef.of (T := ⟨S131072, .f32⟩) main_call3_v7) (TRef.of (T := ⟨S131072x1, .f32⟩) main_call3_v8) (broadcastInDim S131072x1 ![0] bcast_S131072_S131072x1_0),
    TRef.unary (TRef.of (T := ⟨S131072x1, .f32⟩) main_call3_v8) (TRef.of (T := ⟨S131072x1, .f32⟩) main_call3_v9) Host.log,
    TRef.unary (TRef.of (T := ⟨S131072x1, .f32⟩) main_call3_v9) (TRef.of (T := ⟨S131072x1000, .f32⟩) main_call3_v10) (broadcastInDim S131072x1000 ![0, 1] bcast_S131072x1_S131072x1000_0_1),
    TRef.binary (TRef.of (T := ⟨S131072x1000, .f32⟩) main_call3_v5) (TRef.of (T := ⟨S131072x1000, .f32⟩) main_call3_v10) (TRef.of (T := ⟨S131072x1000, .f32⟩) main_v46) subf,
    unary main_arg2 main_v47 (broadcastInDim S131072x1 ![0] bcast_S131072_S131072x1_0 : (⟨S131072, .i32⟩ : BufTy).Contents (Elt F) → (⟨S131072x1, .i32⟩ : BufTy).Contents (Elt F)),
    TRef.nullary (TRef.of (T := ⟨S_, .i32⟩) main_call4_c) (constantI S_ 32 0#32),
    TRef.unary (TRef.of (T := ⟨S_, .i32⟩) main_call4_c) (TRef.of (T := ⟨S131072x1, .i32⟩) main_call4_v0) (broadcastInDim S131072x1 ![] bcast_S_S131072x1),
    TRef.binary (TRef.of (T := ⟨S131072x1, .i32⟩) main_v47) (TRef.of (T := ⟨S131072x1, .i32⟩) main_call4_v0) (TRef.of (T := ⟨S131072x1, .i1⟩) main_call4_v1) (cmpi .slt),
    TRef.nullary (TRef.of (T := ⟨S_, .i32⟩) main_call4_c_0) (constantI S_ 32 1000#32),
    TRef.unary (TRef.of (T := ⟨S_, .i32⟩) main_call4_c_0) (TRef.of (T := ⟨S131072x1, .i32⟩) main_call4_v2) (broadcastInDim S131072x1 ![] bcast_S_S131072x1),
    TRef.binary (TRef.of (T := ⟨S131072x1, .i32⟩) main_v47) (TRef.of (T := ⟨S131072x1, .i32⟩) main_call4_v2) (TRef.of (T := ⟨S131072x1, .i32⟩) main_call4_v3) addi,
    TRef.ternary (TRef.of (T := ⟨S131072x1, .i1⟩) main_call4_v1) (TRef.of (T := ⟨S131072x1, .i32⟩) main_call4_v3) (TRef.of (T := ⟨S131072x1, .i32⟩) main_v47) (TRef.of (T := ⟨S131072x1, .i32⟩) main_call4_v4) select,
    TRef.reshape (TRef.of (T := ⟨S131072x1, .i32⟩) main_call4_v4) (TRef.of (T := ⟨S131072x1x1, .i32⟩) main_call4_v5) rfl shapeCasts_S131072x1_S131072x1x1,
    TRef.nullary (TRef.of (T := ⟨S1, .i32⟩) main_call4_c_1) (constantI S1 32 999#32),
    TRef.nullary (TRef.of (T := ⟨S_, .i32⟩) main_call4_c_2) (constantI S_ 32 0#32),
    TRef.unary (TRef.of (T := ⟨S_, .i32⟩) main_call4_c_2) (TRef.of (T := ⟨S131072x1x1, .i32⟩) main_call4_v6) (broadcastInDim S131072x1x1 ![] bcast_S_S131072x1x1),
    TRef.binary (TRef.of (T := ⟨S131072x1x1, .i32⟩) main_call4_v5) (TRef.of (T := ⟨S131072x1x1, .i32⟩) main_call4_v6) (TRef.of (T := ⟨S131072x1x1, .i1⟩) main_call4_v7) (cmpi .sge),
    TRef.unary (TRef.of (T := ⟨S1, .i32⟩) main_call4_c_1) (TRef.of (T := ⟨S1x1x1, .i32⟩) main_call4_v8) (broadcastInDim S1x1x1 ![2] bcast_S1_S1x1x1_2),
    TRef.unary (TRef.of (T := ⟨S1x1x1, .i32⟩) main_call4_v8) (TRef.of (T := ⟨S131072x1x1, .i32⟩) main_call4_v9) (broadcastInDim S131072x1x1 ![0, 1, 2] bcast_S1x1x1_S131072x1x1_0_1_2),
    TRef.binary (TRef.of (T := ⟨S131072x1x1, .i32⟩) main_call4_v5) (TRef.of (T := ⟨S131072x1x1, .i32⟩) main_call4_v9) (TRef.of (T := ⟨S131072x1x1, .i1⟩) main_call4_v10) (cmpi .sle),
    TRef.binary (TRef.of (T := ⟨S131072x1x1, .i1⟩) main_call4_v7) (TRef.of (T := ⟨S131072x1x1, .i1⟩) main_call4_v10) (TRef.of (T := ⟨S131072x1x1, .i1⟩) main_call4_v11) andi,
    TRef.nullary (TRef.of (T := ⟨S_, .i1⟩) main_call4_c_3) (constantI S_ 1 1#1),
    TRef.binary (TRef.of (T := ⟨S131072x1x1, .i1⟩) main_call4_v11) (TRef.of (T := ⟨S_, .i1⟩) main_call4_c_3) (TRef.of (T := ⟨S131072x1, .i1⟩) main_call4_v12) (fun x v => Host.reduce IntOp.andi x v reducesTo_S131072x1x1_S131072x1_d2 h_S_),
    TRef.binary (TRef.of (T := ⟨S131072x1000, .f32⟩) main_v46) (TRef.of (T := ⟨S131072x1x1, .i32⟩) main_call4_v5) (TRef.of (T := ⟨S131072x1, .f32⟩) main_call4_v13) (fun x i => Host.gather gather_S131072x1000_S131072x1x1_S131072x1_n_1_0_0_1_2_11 x i),
    TRef.nullary (TRef.of (T := ⟨S_, .f32⟩) main_call4_cst) (constant S_ .f32 0x7FC00000#32),
    TRef.unary (TRef.of (T := ⟨S_, .f32⟩) main_call4_cst) (TRef.of (T := ⟨S131072x1, .f32⟩) main_call4_v14) (broadcastInDim S131072x1 ![] bcast_S_S131072x1),
    TRef.ternary (TRef.of (T := ⟨S131072x1, .i1⟩) main_call4_v12) (TRef.of (T := ⟨S131072x1, .f32⟩) main_call4_v13) (TRef.of (T := ⟨S131072x1, .f32⟩) main_call4_v14) (TRef.of (T := ⟨S131072x1, .f32⟩) main_v48) select,
    nullary main_cst_11 (constant S_ .f32 0x00000000#32),
    binary main_v48 main_cst_11 main_v49 ((fun x v => Host.reduceAdd x v reducesTo_S131072x1_S_d0_1 h_S_) : (⟨S131072x1, .f32⟩ : BufTy).Contents (Elt F) → (⟨S_, .f32⟩ : BufTy).Contents (Elt F) → (⟨S_, .f32⟩ : BufTy).Contents (Elt F)),
    nullary main_cst_12 (constant S_ .f32 0x48000000#32),
    binary main_v49 main_cst_12 main_v50 (Host.divf : (⟨S_, .f32⟩ : BufTy).Contents (Elt F) → (⟨S_, .f32⟩ : BufTy).Contents (Elt F) → (⟨S_, .f32⟩ : BufTy).Contents (Elt F)),
    unary main_v50 main_v51 (Host.negf : (⟨S_, .f32⟩ : BufTy).Contents (Elt F) → (⟨S_, .f32⟩ : BufTy).Contents (Elt F)) ]

set_option maxRecDepth 8192 in
set_option maxHeartbeats 4000000 in
/-- @main is the straight line of its operations. -/
theorem main_eq (c : Dev nD) : main (F := F) c = seq ops := rfl
/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide
set_option maxRecDepth 8192 in
/-- Every operation touches TensorCore references only. -/
theorem ops_sub : (ops : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., binary_bufs_sub .., nullary_bufs_sub .., unary_bufs_sub .., binary_bufs_sub .., unary_bufs_sub .., binary_bufs_sub .., nullary_bufs_sub .., unary_bufs_sub .., binary_bufs_sub .., unary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., nullary_bufs_sub .., binary_bufs_sub .., nullary_bufs_sub .., binary_bufs_sub .., unary_bufs_sub ..⟩

/-! ## The line in eight stretches

Each stretch is run from ARBITRARY contents `W`: what it leaves at a buffer later operations read is that buffer's stage
(a function of the three arguments), given that `W` holds the stages of the earlier buffers the stretch reads; a buffer
the stretch does not write keeps what `W` had. -/

/-- Operations 1 to 10 of the line. -/
def c1 : List (HloOp τ sig (Elt F)) :=
  [ TRef.binary (TRef.of (T := ⟨S131072x256, .f32⟩) main_arg0) (TRef.of (T := ⟨S131072x256, .f32⟩) main_arg0) (TRef.of (T := ⟨S131072x256, .f32⟩) main_call0_v0) mulf,
    TRef.nullary (TRef.of (T := ⟨S_, .f32⟩) main_call0_cst) (constant S_ .f32 0x00000000#32),
    TRef.binary (TRef.of (T := ⟨S131072x256, .f32⟩) main_call0_v0) (TRef.of (T := ⟨S_, .f32⟩) main_call0_cst) (TRef.of (T := ⟨S131072, .f32⟩) main_call0_v1) (fun x v => Host.reduceAdd x v reducesTo_S131072x256_S131072_d1 h_S_),
    TRef.unary (TRef.of (T := ⟨S131072, .f32⟩) main_call0_v1) (TRef.of (T := ⟨S131072x1, .f32⟩) main_call0_v2) (broadcastInDim S131072x1 ![0] bcast_S131072_S131072x1_0),
    TRef.unary (TRef.of (T := ⟨S131072x1, .f32⟩) main_call0_v2) (TRef.of (T := ⟨S131072x1, .f32⟩) main_v0) Host.sqrt,
    nullary main_cst (constant S_ .f32 0x2B8CBCCC#32),
    unary main_cst main_v1 (broadcastInDim S131072x1 ![] bcast_S_S131072x1 : (⟨S_, .f32⟩ : BufTy).Contents (Elt F) → (⟨S131072x1, .f32⟩ : BufTy).Contents (Elt F)),
    binary main_v0 main_v1 main_v2 (maximumf : (⟨S131072x1, .f32⟩ : BufTy).Contents (Elt F) → (⟨S131072x1, .f32⟩ : BufTy).Contents (Elt F) → (⟨S131072x1, .f32⟩ : BufTy).Contents (Elt F)),
    unary main_v2 main_v3 (broadcastInDim S131072x256 ![0, 1] bcast_S131072x1_S131072x256_0_1 : (⟨S131072x1, .f32⟩ : BufTy).Contents (Elt F) → (⟨S131072x256, .f32⟩ : BufTy).Contents (Elt F)),
    binary main_arg0 main_v3 main_v4 (Host.divf : (⟨S131072x256, .f32⟩ : BufTy).Contents (Elt F) → (⟨S131072x256, .f32⟩ : BufTy).Contents (Elt F) → (⟨S131072x256, .f32⟩ : BufTy).Contents (Elt F)) ]

/-- After operations 1 to 10, run from any contents that hold the earlier stages at the buffers these operations read and the
    three arguments at theirs: what buffer `main_arg0` holds. -/
theorem c1_main_arg0 (W : Valuation τ sig (Elt F)) (x0 : (⟨S131072x256, .f32⟩ : BufTy).Contents (Elt F)) (x1 : (⟨S1000x256, .f32⟩ : BufTy).Contents (Elt F)) (x2 : (⟨S131072, .i32⟩ : BufTy).Contents (Elt F))
    (h_main_arg0 : W (Proc.devRef .tc main_arg0) = x0)
    (h_main_arg1 : W (Proc.devRef .tc main_arg1) = x1)
    (h_main_arg2 : W (Proc.devRef .tc main_arg2) = x2) :
    after (c1 (F := F)) W (Proc.devRef .tc main_arg0) = x0 := by
  unfold c1
  after_results_simp
  exact h_main_arg0

/-- After operations 1 to 10, run from any contents that hold the earlier stages at the buffers these operations read and the
    three arguments at theirs: what buffer `main_arg1` holds. -/
theorem c1_main_arg1 (W : Valuation τ sig (Elt F)) (x0 : (⟨S131072x256, .f32⟩ : BufTy).Contents (Elt F)) (x1 : (⟨S1000x256, .f32⟩ : BufTy).Contents (Elt F)) (x2 : (⟨S131072, .i32⟩ : BufTy).Contents (Elt F))
    (h_main_arg0 : W (Proc.devRef .tc main_arg0) = x0)
    (h_main_arg1 : W (Proc.devRef .tc main_arg1) = x1)
    (h_main_arg2 : W (Proc.devRef .tc main_arg2) = x2) :
    after (c1 (F := F)) W (Proc.devRef .tc main_arg1) = x1 := by
  unfold c1
  after_results_simp
  exact h_main_arg1

/-- After operations 1 to 10, run from any contents that hold the earlier stages at the buffers these operations read and the
    three arguments at theirs: what buffer `main_arg2` holds. -/
theorem c1_main_arg2 (W : Valuation τ sig (Elt F)) (x0 : (⟨S131072x256, .f32⟩ : BufTy).Contents (Elt F)) (x1 : (⟨S1000x256, .f32⟩ : BufTy).Contents (Elt F)) (x2 : (⟨S131072, .i32⟩ : BufTy).Contents (Elt F))
    (h_main_arg0 : W (Proc.devRef .tc main_arg0) = x0)
    (h_main_arg1 : W (Proc.devRef .tc main_arg1) = x1)
    (h_main_arg2 : W (Proc.devRef .tc main_arg2) = x2) :
    after (c1 (F := F)) W (Proc.devRef .tc main_arg2) = x2 := by
  unfold c1
  after_results_simp
  exact h_main_arg2

/-- After operations 1 to 10, run from any contents that hold the earlier stages at the buffers these operations read and the
    three arguments at theirs: what buffer `main_v4` holds. -/
theorem c1_main_v4 (W : Valuation τ sig (Elt F)) (x0 : (⟨S131072x256, .f32⟩ : BufTy).Contents (Elt F)) (x1 : (⟨S1000x256, .f32⟩ : BufTy).Contents (Elt F)) (x2 : (⟨S131072, .i32⟩ : BufTy).Contents (Elt F))
    (h_main_arg0 : W (Proc.devRef .tc main_arg0) = x0)
    (h_main_arg1 : W (Proc.devRef .tc main_arg1) = x1)
    (h_main_arg2 : W (Proc.devRef .tc main_arg2) = x2) :
    after (c1 (F := F)) W (Proc.devRef .tc main_v4) = ReadP.val_main_v4 (F := F) x0 := by
  unfold c1
  after_results_simp
  try simp only [h_main_arg0, h_main_arg1, h_main_arg2, TRef.ofBuf, TRef.toBuf, cast_eq]
  rfl

/-- Operations 11 to 25 of the line. -/
def c2 : List (HloOp τ sig (Elt F)) :=
  [ nullary main_cst_0 (constant S_ .f32 0x00000000#32),
    unary main_cst_0 main_v5 (broadcastInDim S1000x256 ![] bcast_S_S1000x256 : (⟨S_, .f32⟩ : BufTy).Contents (Elt F) → (⟨S1000x256, .f32⟩ : BufTy).Contents (Elt F)),
    unary main_arg2 main_v6 (broadcastInDim S131072x1 ![0] bcast_S131072_S131072x1_0 : (⟨S131072, .i32⟩ : BufTy).Contents (Elt F) → (⟨S131072x1, .i32⟩ : BufTy).Contents (Elt F)),
    ternary main_v5 main_v6 main_v4 main_v7 ((fun x i u => Host.scatterAdd scatter_S1000x256_S131072x1_S131072x256_1_0_0_1 x i u) : (⟨S1000x256, .f32⟩ : BufTy).Contents (Elt F) → (⟨S131072x1, .i32⟩ : BufTy).Contents (Elt F) → (⟨S131072x256, .f32⟩ : BufTy).Contents (Elt F) → (⟨S1000x256, .f32⟩ : BufTy).Contents (Elt F)),
    nullary main_cst_1 (constant S_ .f32 0x3F800000#32),
    unary main_cst_1 main_v8 (broadcastInDim S131072 ![] bcast_S_S131072 : (⟨S_, .f32⟩ : BufTy).Contents (Elt F) → (⟨S131072, .f32⟩ : BufTy).Contents (Elt F)),
    nullary main_cst_2 (constant S_ .f32 0x00000000#32),
    unary main_cst_2 main_v9 (broadcastInDim S1000 ![] bcast_S_S1000 : (⟨S_, .f32⟩ : BufTy).Contents (Elt F) → (⟨S1000, .f32⟩ : BufTy).Contents (Elt F)),
    unary main_arg2 main_v10 (broadcastInDim S131072x1 ![0] bcast_S131072_S131072x1_0 : (⟨S131072, .i32⟩ : BufTy).Contents (Elt F) → (⟨S131072x1, .i32⟩ : BufTy).Contents (Elt F)),
    ternary main_v9 main_v10 main_v8 main_v11 ((fun x i u => Host.scatterAdd scatter_S1000_S131072x1_S131072_n_0_0_1 x i u) : (⟨S1000, .f32⟩ : BufTy).Contents (Elt F) → (⟨S131072x1, .i32⟩ : BufTy).Contents (Elt F) → (⟨S131072, .f32⟩ : BufTy).Contents (Elt F) → (⟨S1000, .f32⟩ : BufTy).Contents (Elt F)),
    nullary main_cst_3 (constant S_ .f32 0x00000000#32),
    unary main_cst_3 main_v12 (broadcastInDim S1000 ![] bcast_S_S1000 : (⟨S_, .f32⟩ : BufTy).Contents (Elt F) → (⟨S1000, .f32⟩ : BufTy).Contents (Elt F)),
    binary main_v11 main_v12 main_v13 (cmpf .ogt : (⟨S1000, .f32⟩ : BufTy).Contents (Elt F) → (⟨S1000, .f32⟩ : BufTy).Contents (Elt F) → (⟨S1000, .i1⟩ : BufTy).Contents (Elt F)),
    unary main_v13 main_v14 (uitofp .f32 : (⟨S1000, .i1⟩ : BufTy).Contents (Elt F) → (⟨S1000, .f32⟩ : BufTy).Contents (Elt F)),
    unary main_v14 main_v15 (broadcastInDim S1000x1 ![0] bcast_S1000_S1000x1_0 : (⟨S1000, .f32⟩ : BufTy).Contents (Elt F) → (⟨S1000x1, .f32⟩ : BufTy).Contents (Elt F)) ]

/-- After operations 11 to 25, run from any contents that hold the earlier stages at the buffers these operations read and the
    three arguments at theirs: what buffer `main_arg0` holds. -/
theorem c2_main_arg0 (W : Valuation τ sig (Elt F)) (x0 : (⟨S131072x256, .f32⟩ : BufTy).Contents (Elt F)) (x1 : (⟨S1000x256, .f32⟩ : BufTy).Contents (Elt F)) (x2 : (⟨S131072, .i32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_v4 : W (Proc.devRef .tc main_v4) = ReadP.val_main_v4 (F := F) x0) :
    after (c2 (F := F)) W (Proc.devRef .tc main_arg0) = x0 := by
  unfold c2
  after_results_simp
  exact h_main_arg0

/-- After operations 11 to 25, run from any contents that hold the earlier stages at the buffers these operations read and the
    three arguments at theirs: what buffer `main_arg1` holds. -/
theorem c2_main_arg1 (W : Valuation τ sig (Elt F)) (x0 : (⟨S131072x256, .f32⟩ : BufTy).Contents (Elt F)) (x1 : (⟨S1000x256, .f32⟩ : BufTy).Contents (Elt F)) (x2 : (⟨S131072, .i32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_v4 : W (Proc.devRef .tc main_v4) = ReadP.val_main_v4 (F := F) x0) :
    after (c2 (F := F)) W (Proc.devRef .tc main_arg1) = x1 := by
  unfold c2
  after_results_simp
  exact h_main_arg1

/-- After operations 11 to 25, run from any contents that hold the earlier stages at the buffers these operations read and the
    three arguments at theirs: what buffer `main_arg2` holds. -/
theorem c2_main_arg2 (W : Valuation τ sig (Elt F)) (x0 : (⟨S131072x256, .f32⟩ : BufTy).Contents (Elt F)) (x1 : (⟨S1000x256, .f32⟩ : BufTy).Contents (Elt F)) (x2 : (⟨S131072, .i32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_v4 : W (Proc.devRef .tc main_v4) = ReadP.val_main_v4 (F := F) x0) :
    after (c2 (F := F)) W (Proc.devRef .tc main_arg2) = x2 := by
  unfold c2
  after_results_simp
  exact h_main_arg2

/-- After operations 11 to 25, run from any contents that hold the earlier stages at the buffers these operations read and the
    three arguments at theirs: what buffer `main_v4` holds. -/
theorem c2_main_v4 (W : Valuation τ sig (Elt F)) (x0 : (⟨S131072x256, .f32⟩ : BufTy).Contents (Elt F)) (x1 : (⟨S1000x256, .f32⟩ : BufTy).Contents (Elt F)) (x2 : (⟨S131072, .i32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_v4 : W (Proc.devRef .tc main_v4) = ReadP.val_main_v4 (F := F) x0) :
    after (c2 (F := F)) W (Proc.devRef .tc main_v4) = ReadP.val_main_v4 (F := F) x0 := by
  unfold c2
  after_results_simp
  exact h_main_v4

/-- After operations 11 to 25, run from any contents that hold the earlier stages at the buffers these operations read and the
    three arguments at theirs: what buffer `main_v7` holds. -/
theorem c2_main_v7 (W : Valuation τ sig (Elt F)) (x0 : (⟨S131072x256, .f32⟩ : BufTy).Contents (Elt F)) (x1 : (⟨S1000x256, .f32⟩ : BufTy).Contents (Elt F)) (x2 : (⟨S131072, .i32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_v4 : W (Proc.devRef .tc main_v4) = ReadP.val_main_v4 (F := F) x0) :
    after (c2 (F := F)) W (Proc.devRef .tc main_v7) = ReadP.val_main_v7 (F := F) x0 x2 := by
  unfold c2
  after_results_simp
  try simp only [h_main_arg0, h_main_arg1, h_main_arg2, h_main_v4, TRef.ofBuf, TRef.toBuf, cast_eq]
  rfl

/-- After operations 11 to 25, run from any contents that hold the earlier stages at the buffers these operations read and the
    three arguments at theirs: what buffer `main_v15` holds. -/
theorem c2_main_v15 (W : Valuation τ sig (Elt F)) (x0 : (⟨S131072x256, .f32⟩ : BufTy).Contents (Elt F)) (x1 : (⟨S1000x256, .f32⟩ : BufTy).Contents (Elt F)) (x2 : (⟨S131072, .i32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_v4 : W (Proc.devRef .tc main_v4) = ReadP.val_main_v4 (F := F) x0) :
    after (c2 (F := F)) W (Proc.devRef .tc main_v15) = ReadP.val_main_v15 (F := F) x2 := by
  unfold c2
  after_results_simp
  try simp only [h_main_arg0, h_main_arg1, h_main_arg2, h_main_v4, TRef.ofBuf, TRef.toBuf, cast_eq]
  rfl

/-- Operations 26 to 37 of the line. -/
def c3 : List (HloOp τ sig (Elt F)) :=
  [ TRef.binary (TRef.of (T := ⟨S1000x256, .f32⟩) main_v7) (TRef.of (T := ⟨S1000x256, .f32⟩) main_v7) (TRef.of (T := ⟨S1000x256, .f32⟩) main_call1_v0) mulf,
    TRef.nullary (TRef.of (T := ⟨S_, .f32⟩) main_call1_cst) (constant S_ .f32 0x00000000#32),
    TRef.binary (TRef.of (T := ⟨S1000x256, .f32⟩) main_call1_v0) (TRef.of (T := ⟨S_, .f32⟩) main_call1_cst) (TRef.of (T := ⟨S1000, .f32⟩) main_call1_v1) (fun x v => Host.reduceAdd x v reducesTo_S1000x256_S1000_d1 h_S_),
    TRef.unary (TRef.of (T := ⟨S1000, .f32⟩) main_call1_v1) (TRef.of (T := ⟨S1000x1, .f32⟩) main_call1_v2) (broadcastInDim S1000x1 ![0] bcast_S1000_S1000x1_0),
    TRef.unary (TRef.of (T := ⟨S1000x1, .f32⟩) main_call1_v2) (TRef.of (T := ⟨S1000x1, .f32⟩) main_v16) Host.sqrt,
    nullary main_cst_4 (constant S_ .f32 0x2B8CBCCC#32),
    unary main_cst_4 main_v17 (broadcastInDim S1000x1 ![] bcast_S_S1000x1 : (⟨S_, .f32⟩ : BufTy).Contents (Elt F) → (⟨S1000x1, .f32⟩ : BufTy).Contents (Elt F)),
    binary main_v16 main_v17 main_v18 (maximumf : (⟨S1000x1, .f32⟩ : BufTy).Contents (Elt F) → (⟨S1000x1, .f32⟩ : BufTy).Contents (Elt F) → (⟨S1000x1, .f32⟩ : BufTy).Contents (Elt F)),
    unary main_v18 main_v19 (broadcastInDim S1000x256 ![0, 1] bcast_S1000x1_S1000x256_0_1 : (⟨S1000x1, .f32⟩ : BufTy).Contents (Elt F) → (⟨S1000x256, .f32⟩ : BufTy).Contents (Elt F)),
    binary main_v7 main_v19 main_v20 (Host.divf : (⟨S1000x256, .f32⟩ : BufTy).Contents (Elt F) → (⟨S1000x256, .f32⟩ : BufTy).Contents (Elt F) → (⟨S1000x256, .f32⟩ : BufTy).Contents (Elt F)),
    unary main_v15 main_v21 (broadcastInDim S1000x256 ![0, 1] bcast_S1000x1_S1000x256_0_1 : (⟨S1000x1, .f32⟩ : BufTy).Contents (Elt F) → (⟨S1000x256, .f32⟩ : BufTy).Contents (Elt F)),
    binary main_v20 main_v21 main_v22 (mulf : (⟨S1000x256, .f32⟩ : BufTy).Contents (Elt F) → (⟨S1000x256, .f32⟩ : BufTy).Contents (Elt F) → (⟨S1000x256, .f32⟩ : BufTy).Contents (Elt F)) ]

/-- After operations 26 to 37, run from any contents that hold the earlier stages at the buffers these operations read and the
    three arguments at theirs: what buffer `main_arg0` holds. -/
theorem c3_main_arg0 (W : Valuation τ sig (Elt F)) (x0 : (⟨S131072x256, .f32⟩ : BufTy).Contents (Elt F)) (x1 : (⟨S1000x256, .f32⟩ : BufTy).Contents (Elt F)) (x2 : (⟨S131072, .i32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_v4 : W (Proc.devRef .tc main_v4) = ReadP.val_main_v4 (F := F) x0)
    (h_main_v7 : W (Proc.devRef .tc main_v7) = ReadP.val_main_v7 (F := F) x0 x2)
    (h_main_v15 : W (Proc.devRef .tc main_v15) = ReadP.val_main_v15 (F := F) x2) :
    after (c3 (F := F)) W (Proc.devRef .tc main_arg0) = x0 := by
  unfold c3
  after_results_simp
  exact h_main_arg0

/-- After operations 26 to 37, run from any contents that hold the earlier stages at the buffers these operations read and the
    three arguments at theirs: what buffer `main_arg1` holds. -/
theorem c3_main_arg1 (W : Valuation τ sig (Elt F)) (x0 : (⟨S131072x256, .f32⟩ : BufTy).Contents (Elt F)) (x1 : (⟨S1000x256, .f32⟩ : BufTy).Contents (Elt F)) (x2 : (⟨S131072, .i32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_v4 : W (Proc.devRef .tc main_v4) = ReadP.val_main_v4 (F := F) x0)
    (h_main_v7 : W (Proc.devRef .tc main_v7) = ReadP.val_main_v7 (F := F) x0 x2)
    (h_main_v15 : W (Proc.devRef .tc main_v15) = ReadP.val_main_v15 (F := F) x2) :
    after (c3 (F := F)) W (Proc.devRef .tc main_arg1) = x1 := by
  unfold c3
  after_results_simp
  exact h_main_arg1

/-- After operations 26 to 37, run from any contents that hold the earlier stages at the buffers these operations read and the
    three arguments at theirs: what buffer `main_arg2` holds. -/
theorem c3_main_arg2 (W : Valuation τ sig (Elt F)) (x0 : (⟨S131072x256, .f32⟩ : BufTy).Contents (Elt F)) (x1 : (⟨S1000x256, .f32⟩ : BufTy).Contents (Elt F)) (x2 : (⟨S131072, .i32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_v4 : W (Proc.devRef .tc main_v4) = ReadP.val_main_v4 (F := F) x0)
    (h_main_v7 : W (Proc.devRef .tc main_v7) = ReadP.val_main_v7 (F := F) x0 x2)
    (h_main_v15 : W (Proc.devRef .tc main_v15) = ReadP.val_main_v15 (F := F) x2) :
    after (c3 (F := F)) W (Proc.devRef .tc main_arg2) = x2 := by
  unfold c3
  after_results_simp
  exact h_main_arg2

/-- After operations 26 to 37, run from any contents that hold the earlier stages at the buffers these operations read and the
    three arguments at theirs: what buffer `main_v4` holds. -/
theorem c3_main_v4 (W : Valuation τ sig (Elt F)) (x0 : (⟨S131072x256, .f32⟩ : BufTy).Contents (Elt F)) (x1 : (⟨S1000x256, .f32⟩ : BufTy).Contents (Elt F)) (x2 : (⟨S131072, .i32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_v4 : W (Proc.devRef .tc main_v4) = ReadP.val_main_v4 (F := F) x0)
    (h_main_v7 : W (Proc.devRef .tc main_v7) = ReadP.val_main_v7 (F := F) x0 x2)
    (h_main_v15 : W (Proc.devRef .tc main_v15) = ReadP.val_main_v15 (F := F) x2) :
    after (c3 (F := F)) W (Proc.devRef .tc main_v4) = ReadP.val_main_v4 (F := F) x0 := by
  unfold c3
  after_results_simp
  exact h_main_v4

/-- After operations 26 to 37, run from any contents that hold the earlier stages at the buffers these operations read and the
    three arguments at theirs: what buffer `main_v15` holds. -/
theorem c3_main_v15 (W : Valuation τ sig (Elt F)) (x0 : (⟨S131072x256, .f32⟩ : BufTy).Contents (Elt F)) (x1 : (⟨S1000x256, .f32⟩ : BufTy).Contents (Elt F)) (x2 : (⟨S131072, .i32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_v4 : W (Proc.devRef .tc main_v4) = ReadP.val_main_v4 (F := F) x0)
    (h_main_v7 : W (Proc.devRef .tc main_v7) = ReadP.val_main_v7 (F := F) x0 x2)
    (h_main_v15 : W (Proc.devRef .tc main_v15) = ReadP.val_main_v15 (F := F) x2) :
    after (c3 (F := F)) W (Proc.devRef .tc main_v15) = ReadP.val_main_v15 (F := F) x2 := by
  unfold c3
  after_results_simp
  exact h_main_v15

/-- After operations 26 to 37, run from any contents that hold the earlier stages at the buffers these operations read and the
    three arguments at theirs: what buffer `main_v22` holds. -/
theorem c3_main_v22 (W : Valuation τ sig (Elt F)) (x0 : (⟨S131072x256, .f32⟩ : BufTy).Contents (Elt F)) (x1 : (⟨S1000x256, .f32⟩ : BufTy).Contents (Elt F)) (x2 : (⟨S131072, .i32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_v4 : W (Proc.devRef .tc main_v4) = ReadP.val_main_v4 (F := F) x0)
    (h_main_v7 : W (Proc.devRef .tc main_v7) = ReadP.val_main_v7 (F := F) x0 x2)
    (h_main_v15 : W (Proc.devRef .tc main_v15) = ReadP.val_main_v15 (F := F) x2) :
    after (c3 (F := F)) W (Proc.devRef .tc main_v22) = ReadP.val_main_v22 (F := F) x0 x2 := by
  unfold c3
  after_results_simp
  try simp only [h_main_arg0, h_main_arg1, h_main_arg2, h_main_v4, h_main_v7, h_main_v15, TRef.ofBuf, TRef.toBuf, cast_eq]
  rfl

/-- Operations 38 to 56 of the line. -/
def c4 : List (HloOp τ sig (Elt F)) :=
  [ binary main_arg1 main_v22 main_v23 (mulf : (⟨S1000x256, .f32⟩ : BufTy).Contents (Elt F) → (⟨S1000x256, .f32⟩ : BufTy).Contents (Elt F) → (⟨S1000x256, .f32⟩ : BufTy).Contents (Elt F)),
    nullary main_cst_5 (constant S_ .f32 0x00000000#32),
    binary main_v23 main_cst_5 main_v24 ((fun x v => Host.reduceAdd x v reducesTo_S1000x256_S1000_d1 h_S_) : (⟨S1000x256, .f32⟩ : BufTy).Contents (Elt F) → (⟨S_, .f32⟩ : BufTy).Contents (Elt F) → (⟨S1000, .f32⟩ : BufTy).Contents (Elt F)),
    unary main_v24 main_v25 (broadcastInDim S1000x1 ![0] bcast_S1000_S1000x1_0 : (⟨S1000, .f32⟩ : BufTy).Contents (Elt F) → (⟨S1000x1, .f32⟩ : BufTy).Contents (Elt F)),
    nullary main_cst_6 (constant S_ .f32 0x3F800000#32),
    unary main_cst_6 main_v26 (broadcastInDim S1000x1 ![] bcast_S_S1000x1 : (⟨S_, .f32⟩ : BufTy).Contents (Elt F) → (⟨S1000x1, .f32⟩ : BufTy).Contents (Elt F)),
    binary main_v26 main_v25 main_v27 (subf : (⟨S1000x1, .f32⟩ : BufTy).Contents (Elt F) → (⟨S1000x1, .f32⟩ : BufTy).Contents (Elt F) → (⟨S1000x1, .f32⟩ : BufTy).Contents (Elt F)),
    binary main_v27 main_v15 main_v28 (mulf : (⟨S1000x1, .f32⟩ : BufTy).Contents (Elt F) → (⟨S1000x1, .f32⟩ : BufTy).Contents (Elt F) → (⟨S1000x1, .f32⟩ : BufTy).Contents (Elt F)),
    nullary main_cst_7 (constant S_ .f32 0x3F800000#32),
    unary main_cst_7 main_v29 (broadcastInDim S1000x1 ![] bcast_S_S1000x1 : (⟨S_, .f32⟩ : BufTy).Contents (Elt F) → (⟨S1000x1, .f32⟩ : BufTy).Contents (Elt F)),
    binary main_v29 main_v28 main_v30 (subf : (⟨S1000x1, .f32⟩ : BufTy).Contents (Elt F) → (⟨S1000x1, .f32⟩ : BufTy).Contents (Elt F) → (⟨S1000x1, .f32⟩ : BufTy).Contents (Elt F)),
    unary main_v30 main_v31 (broadcastInDim S1000x256 ![0, 1] bcast_S1000x1_S1000x256_0_1 : (⟨S1000x1, .f32⟩ : BufTy).Contents (Elt F) → (⟨S1000x256, .f32⟩ : BufTy).Contents (Elt F)),
    binary main_v31 main_arg1 main_v32 (mulf : (⟨S1000x256, .f32⟩ : BufTy).Contents (Elt F) → (⟨S1000x256, .f32⟩ : BufTy).Contents (Elt F) → (⟨S1000x256, .f32⟩ : BufTy).Contents (Elt F)),
    nullary main_cst_8 (constant S_ .f32 0x3F800000#32),
    unary main_cst_8 main_v33 (broadcastInDim S1000x1 ![] bcast_S_S1000x1 : (⟨S_, .f32⟩ : BufTy).Contents (Elt F) → (⟨S1000x1, .f32⟩ : BufTy).Contents (Elt F)),
    binary main_v33 main_v30 main_v34 (subf : (⟨S1000x1, .f32⟩ : BufTy).Contents (Elt F) → (⟨S1000x1, .f32⟩ : BufTy).Contents (Elt F) → (⟨S1000x1, .f32⟩ : BufTy).Contents (Elt F)),
    unary main_v34 main_v35 (broadcastInDim S1000x256 ![0, 1] bcast_S1000x1_S1000x256_0_1 : (⟨S1000x1, .f32⟩ : BufTy).Contents (Elt F) → (⟨S1000x256, .f32⟩ : BufTy).Contents (Elt F)),
    binary main_v35 main_v22 main_v36 (mulf : (⟨S1000x256, .f32⟩ : BufTy).Contents (Elt F) → (⟨S1000x256, .f32⟩ : BufTy).Contents (Elt F) → (⟨S1000x256, .f32⟩ : BufTy).Contents (Elt F)),
    binary main_v32 main_v36 main_v37 (addf : (⟨S1000x256, .f32⟩ : BufTy).Contents (Elt F) → (⟨S1000x256, .f32⟩ : BufTy).Contents (Elt F) → (⟨S1000x256, .f32⟩ : BufTy).Contents (Elt F)) ]

/-- After operations 38 to 56, run from any contents that hold the earlier stages at the buffers these operations read and the
    three arguments at theirs: what buffer `main_arg0` holds. -/
theorem c4_main_arg0 (W : Valuation τ sig (Elt F)) (x0 : (⟨S131072x256, .f32⟩ : BufTy).Contents (Elt F)) (x1 : (⟨S1000x256, .f32⟩ : BufTy).Contents (Elt F)) (x2 : (⟨S131072, .i32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_v4 : W (Proc.devRef .tc main_v4) = ReadP.val_main_v4 (F := F) x0)
    (h_main_v15 : W (Proc.devRef .tc main_v15) = ReadP.val_main_v15 (F := F) x2)
    (h_main_v22 : W (Proc.devRef .tc main_v22) = ReadP.val_main_v22 (F := F) x0 x2) :
    after (c4 (F := F)) W (Proc.devRef .tc main_arg0) = x0 := by
  unfold c4
  after_results_simp
  exact h_main_arg0

/-- After operations 38 to 56, run from any contents that hold the earlier stages at the buffers these operations read and the
    three arguments at theirs: what buffer `main_arg1` holds. -/
theorem c4_main_arg1 (W : Valuation τ sig (Elt F)) (x0 : (⟨S131072x256, .f32⟩ : BufTy).Contents (Elt F)) (x1 : (⟨S1000x256, .f32⟩ : BufTy).Contents (Elt F)) (x2 : (⟨S131072, .i32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_v4 : W (Proc.devRef .tc main_v4) = ReadP.val_main_v4 (F := F) x0)
    (h_main_v15 : W (Proc.devRef .tc main_v15) = ReadP.val_main_v15 (F := F) x2)
    (h_main_v22 : W (Proc.devRef .tc main_v22) = ReadP.val_main_v22 (F := F) x0 x2) :
    after (c4 (F := F)) W (Proc.devRef .tc main_arg1) = x1 := by
  unfold c4
  after_results_simp
  exact h_main_arg1

/-- After operations 38 to 56, run from any contents that hold the earlier stages at the buffers these operations read and the
    three arguments at theirs: what buffer `main_arg2` holds. -/
theorem c4_main_arg2 (W : Valuation τ sig (Elt F)) (x0 : (⟨S131072x256, .f32⟩ : BufTy).Contents (Elt F)) (x1 : (⟨S1000x256, .f32⟩ : BufTy).Contents (Elt F)) (x2 : (⟨S131072, .i32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_v4 : W (Proc.devRef .tc main_v4) = ReadP.val_main_v4 (F := F) x0)
    (h_main_v15 : W (Proc.devRef .tc main_v15) = ReadP.val_main_v15 (F := F) x2)
    (h_main_v22 : W (Proc.devRef .tc main_v22) = ReadP.val_main_v22 (F := F) x0 x2) :
    after (c4 (F := F)) W (Proc.devRef .tc main_arg2) = x2 := by
  unfold c4
  after_results_simp
  exact h_main_arg2

/-- After operations 38 to 56, run from any contents that hold the earlier stages at the buffers these operations read and the
    three arguments at theirs: what buffer `main_v4` holds. -/
theorem c4_main_v4 (W : Valuation τ sig (Elt F)) (x0 : (⟨S131072x256, .f32⟩ : BufTy).Contents (Elt F)) (x1 : (⟨S1000x256, .f32⟩ : BufTy).Contents (Elt F)) (x2 : (⟨S131072, .i32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_v4 : W (Proc.devRef .tc main_v4) = ReadP.val_main_v4 (F := F) x0)
    (h_main_v15 : W (Proc.devRef .tc main_v15) = ReadP.val_main_v15 (F := F) x2)
    (h_main_v22 : W (Proc.devRef .tc main_v22) = ReadP.val_main_v22 (F := F) x0 x2) :
    after (c4 (F := F)) W (Proc.devRef .tc main_v4) = ReadP.val_main_v4 (F := F) x0 := by
  unfold c4
  after_results_simp
  exact h_main_v4

/-- After operations 38 to 56, run from any contents that hold the earlier stages at the buffers these operations read and the
    three arguments at theirs: what buffer `main_v37` holds. -/
theorem c4_main_v37 (W : Valuation τ sig (Elt F)) (x0 : (⟨S131072x256, .f32⟩ : BufTy).Contents (Elt F)) (x1 : (⟨S1000x256, .f32⟩ : BufTy).Contents (Elt F)) (x2 : (⟨S131072, .i32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_v4 : W (Proc.devRef .tc main_v4) = ReadP.val_main_v4 (F := F) x0)
    (h_main_v15 : W (Proc.devRef .tc main_v15) = ReadP.val_main_v15 (F := F) x2)
    (h_main_v22 : W (Proc.devRef .tc main_v22) = ReadP.val_main_v22 (F := F) x0 x2) :
    after (c4 (F := F)) W (Proc.devRef .tc main_v37) = ReadP.val_main_v37 (F := F) x0 x1 x2 := by
  unfold c4
  after_results_simp
  try simp only [h_main_arg0, h_main_arg1, h_main_arg2, h_main_v4, h_main_v15, h_main_v22, TRef.ofBuf, TRef.toBuf, cast_eq]
  rfl

/-- Operations 57 to 70 of the line. -/
def c5 : List (HloOp τ sig (Elt F)) :=
  [ TRef.binary (TRef.of (T := ⟨S1000x256, .f32⟩) main_v37) (TRef.of (T := ⟨S1000x256, .f32⟩) main_v37) (TRef.of (T := ⟨S1000x256, .f32⟩) main_call2_v0) mulf,
    TRef.nullary (TRef.of (T := ⟨S_, .f32⟩) main_call2_cst) (constant S_ .f32 0x00000000#32),
    TRef.binary (TRef.of (T := ⟨S1000x256, .f32⟩) main_call2_v0) (TRef.of (T := ⟨S_, .f32⟩) main_call2_cst) (TRef.of (T := ⟨S1000, .f32⟩) main_call2_v1) (fun x v => Host.reduceAdd x v reducesTo_S1000x256_S1000_d1 h_S_),
    TRef.unary (TRef.of (T := ⟨S1000, .f32⟩) main_call2_v1) (TRef.of (T := ⟨S1000x1, .f32⟩) main_call2_v2) (broadcastInDim S1000x1 ![0] bcast_S1000_S1000x1_0),
    TRef.unary (TRef.of (T := ⟨S1000x1, .f32⟩) main_call2_v2) (TRef.of (T := ⟨S1000x1, .f32⟩) main_v38) Host.sqrt,
    nullary main_cst_9 (constant S_ .f32 0x2B8CBCCC#32),
    unary main_cst_9 main_v39 (broadcastInDim S1000x1 ![] bcast_S_S1000x1 : (⟨S_, .f32⟩ : BufTy).Contents (Elt F) → (⟨S1000x1, .f32⟩ : BufTy).Contents (Elt F)),
    binary main_v38 main_v39 main_v40 (maximumf : (⟨S1000x1, .f32⟩ : BufTy).Contents (Elt F) → (⟨S1000x1, .f32⟩ : BufTy).Contents (Elt F) → (⟨S1000x1, .f32⟩ : BufTy).Contents (Elt F)),
    unary main_v40 main_v41 (broadcastInDim S1000x256 ![0, 1] bcast_S1000x1_S1000x256_0_1 : (⟨S1000x1, .f32⟩ : BufTy).Contents (Elt F) → (⟨S1000x256, .f32⟩ : BufTy).Contents (Elt F)),
    binary main_v37 main_v41 main_v42 (Host.divf : (⟨S1000x256, .f32⟩ : BufTy).Contents (Elt F) → (⟨S1000x256, .f32⟩ : BufTy).Contents (Elt F) → (⟨S1000x256, .f32⟩ : BufTy).Contents (Elt F)),
    binary main_v4 main_v42 main_v43 ((fun l r => Host.dotGeneral dot_S131072x256_S1000x256_S131072x1000_1_1_0_0_n_n none l r) : (⟨S131072x256, .f32⟩ : BufTy).Contents (Elt F) → (⟨S1000x256, .f32⟩ : BufTy).Contents (Elt F) → (⟨S131072x1000, .f32⟩ : BufTy).Contents (Elt F)),
    nullary main_cst_10 (constant S_ .f32 0x3F800000#32),
    unary main_cst_10 main_v44 (broadcastInDim S131072x1000 ![] bcast_S_S131072x1000 : (⟨S_, .f32⟩ : BufTy).Contents (Elt F) → (⟨S131072x1000, .f32⟩ : BufTy).Contents (Elt F)),
    binary main_v43 main_v44 main_v45 (Host.divf : (⟨S131072x1000, .f32⟩ : BufTy).Contents (Elt F) → (⟨S131072x1000, .f32⟩ : BufTy).Contents (Elt F) → (⟨S131072x1000, .f32⟩ : BufTy).Contents (Elt F)) ]

/-- After operations 57 to 70, run from any contents that hold the earlier stages at the buffers these operations read and the
    three arguments at theirs: what buffer `main_arg0` holds. -/
theorem c5_main_arg0 (W : Valuation τ sig (Elt F)) (x0 : (⟨S131072x256, .f32⟩ : BufTy).Contents (Elt F)) (x1 : (⟨S1000x256, .f32⟩ : BufTy).Contents (Elt F)) (x2 : (⟨S131072, .i32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_v4 : W (Proc.devRef .tc main_v4) = ReadP.val_main_v4 (F := F) x0)
    (h_main_v37 : W (Proc.devRef .tc main_v37) = ReadP.val_main_v37 (F := F) x0 x1 x2) :
    after (c5 (F := F)) W (Proc.devRef .tc main_arg0) = x0 := by
  unfold c5
  after_results_simp
  exact h_main_arg0

/-- After operations 57 to 70, run from any contents that hold the earlier stages at the buffers these operations read and the
    three arguments at theirs: what buffer `main_arg1` holds. -/
theorem c5_main_arg1 (W : Valuation τ sig (Elt F)) (x0 : (⟨S131072x256, .f32⟩ : BufTy).Contents (Elt F)) (x1 : (⟨S1000x256, .f32⟩ : BufTy).Contents (Elt F)) (x2 : (⟨S131072, .i32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_v4 : W (Proc.devRef .tc main_v4) = ReadP.val_main_v4 (F := F) x0)
    (h_main_v37 : W (Proc.devRef .tc main_v37) = ReadP.val_main_v37 (F := F) x0 x1 x2) :
    after (c5 (F := F)) W (Proc.devRef .tc main_arg1) = x1 := by
  unfold c5
  after_results_simp
  exact h_main_arg1

/-- After operations 57 to 70, run from any contents that hold the earlier stages at the buffers these operations read and the
    three arguments at theirs: what buffer `main_arg2` holds. -/
theorem c5_main_arg2 (W : Valuation τ sig (Elt F)) (x0 : (⟨S131072x256, .f32⟩ : BufTy).Contents (Elt F)) (x1 : (⟨S1000x256, .f32⟩ : BufTy).Contents (Elt F)) (x2 : (⟨S131072, .i32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_v4 : W (Proc.devRef .tc main_v4) = ReadP.val_main_v4 (F := F) x0)
    (h_main_v37 : W (Proc.devRef .tc main_v37) = ReadP.val_main_v37 (F := F) x0 x1 x2) :
    after (c5 (F := F)) W (Proc.devRef .tc main_arg2) = x2 := by
  unfold c5
  after_results_simp
  exact h_main_arg2

/-- After operations 57 to 70, run from any contents that hold the earlier stages at the buffers these operations read and the
    three arguments at theirs: what buffer `main_v45` holds. -/
theorem c5_main_v45 (W : Valuation τ sig (Elt F)) (x0 : (⟨S131072x256, .f32⟩ : BufTy).Contents (Elt F)) (x1 : (⟨S1000x256, .f32⟩ : BufTy).Contents (Elt F)) (x2 : (⟨S131072, .i32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_v4 : W (Proc.devRef .tc main_v4) = ReadP.val_main_v4 (F := F) x0)
    (h_main_v37 : W (Proc.devRef .tc main_v37) = ReadP.val_main_v37 (F := F) x0 x1 x2) :
    after (c5 (F := F)) W (Proc.devRef .tc main_v45) = ReadP.val_main_v45 (F := F) x0 x1 x2 := by
  unfold c5
  after_results_simp
  try simp only [h_main_arg0, h_main_arg1, h_main_arg2, h_main_v4, h_main_v37, TRef.ofBuf, TRef.toBuf, cast_eq]
  rfl

/-- Operations 71 to 85 of the line. -/
def c6 : List (HloOp τ sig (Elt F)) :=
  [ TRef.nullary (TRef.of (T := ⟨S_, .f32⟩) main_call3_cst) (constant S_ .f32 0xFF800000#32),
    TRef.binary (TRef.of (T := ⟨S131072x1000, .f32⟩) main_v45) (TRef.of (T := ⟨S_, .f32⟩) main_call3_cst) (TRef.of (T := ⟨S131072, .f32⟩) main_call3_v0) (fun x v => Host.reduce FloatOps.maximumf x v reducesTo_S131072x1000_S131072_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S131072, .f32⟩) main_call3_v1) (broadcastInDim S131072 ![] bcast_S_S131072),
    TRef.binary (TRef.of (T := ⟨S131072, .f32⟩) main_call3_v1) (TRef.of (T := ⟨S131072, .f32⟩) main_call3_v0) (TRef.of (T := ⟨S131072, .f32⟩) main_call3_v2) maximumf,
    TRef.unary (TRef.of (T := ⟨S131072, .f32⟩) main_call3_v2) (TRef.of (T := ⟨S131072x1, .f32⟩) main_call3_v3) (broadcastInDim S131072x1 ![0] bcast_S131072_S131072x1_0),
    TRef.unary (TRef.of (T := ⟨S131072x1, .f32⟩) main_call3_v3) (TRef.of (T := ⟨S131072x1000, .f32⟩) main_call3_v4) (broadcastInDim S131072x1000 ![0, 1] bcast_S131072x1_S131072x1000_0_1),
    TRef.binary (TRef.of (T := ⟨S131072x1000, .f32⟩) main_v45) (TRef.of (T := ⟨S131072x1000, .f32⟩) main_call3_v4) (TRef.of (T := ⟨S131072x1000, .f32⟩) main_call3_v5) subf,
    TRef.unary (TRef.of (T := ⟨S131072x1000, .f32⟩) main_call3_v5) (TRef.of (T := ⟨S131072x1000, .f32⟩) main_call3_v6) Host.exp,
    TRef.nullary (TRef.of (T := ⟨S_, .f32⟩) main_call3_cst_1) (constant S_ .f32 0x00000000#32),
    TRef.binary (TRef.of (T := ⟨S131072x1000, .f32⟩) main_call3_v6) (TRef.of (T := ⟨S_, .f32⟩) main_call3_cst_1) (TRef.of (T := ⟨S131072, .f32⟩) main_call3_v7) (fun x v => Host.reduceAdd x v reducesTo_S131072x1000_S131072_d1 h_S_),
    TRef.unary (TRef.of (T := ⟨S131072, .f32⟩) main_call3_v7) (TRef.of (T := ⟨S131072x1, .f32⟩) main_call3_v8) (broadcastInDim S131072x1 ![0] bcast_S131072_S131072x1_0),
    TRef.unary (TRef.of (T := ⟨S131072x1, .f32⟩) main_call3_v8) (TRef.of (T := ⟨S131072x1, .f32⟩) main_call3_v9) Host.log,
    TRef.unary (TRef.of (T := ⟨S131072x1, .f32⟩) main_call3_v9) (TRef.of (T := ⟨S131072x1000, .f32⟩) main_call3_v10) (broadcastInDim S131072x1000 ![0, 1] bcast_S131072x1_S131072x1000_0_1),
    TRef.binary (TRef.of (T := ⟨S131072x1000, .f32⟩) main_call3_v5) (TRef.of (T := ⟨S131072x1000, .f32⟩) main_call3_v10) (TRef.of (T := ⟨S131072x1000, .f32⟩) main_v46) subf ]

/-- After operations 71 to 85, run from any contents that hold the earlier stages at the buffers these operations read and the
    three arguments at theirs: what buffer `main_arg0` holds. -/
theorem c6_main_arg0 (W : Valuation τ sig (Elt F)) (x0 : (⟨S131072x256, .f32⟩ : BufTy).Contents (Elt F)) (x1 : (⟨S1000x256, .f32⟩ : BufTy).Contents (Elt F)) (x2 : (⟨S131072, .i32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_v45 : W (Proc.devRef .tc main_v45) = ReadP.val_main_v45 (F := F) x0 x1 x2) :
    after (c6 (F := F)) W (Proc.devRef .tc main_arg0) = x0 := by
  unfold c6
  after_results_simp
  exact h_main_arg0

/-- After operations 71 to 85, run from any contents that hold the earlier stages at the buffers these operations read and the
    three arguments at theirs: what buffer `main_arg1` holds. -/
theorem c6_main_arg1 (W : Valuation τ sig (Elt F)) (x0 : (⟨S131072x256, .f32⟩ : BufTy).Contents (Elt F)) (x1 : (⟨S1000x256, .f32⟩ : BufTy).Contents (Elt F)) (x2 : (⟨S131072, .i32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_v45 : W (Proc.devRef .tc main_v45) = ReadP.val_main_v45 (F := F) x0 x1 x2) :
    after (c6 (F := F)) W (Proc.devRef .tc main_arg1) = x1 := by
  unfold c6
  after_results_simp
  exact h_main_arg1

/-- After operations 71 to 85, run from any contents that hold the earlier stages at the buffers these operations read and the
    three arguments at theirs: what buffer `main_arg2` holds. -/
theorem c6_main_arg2 (W : Valuation τ sig (Elt F)) (x0 : (⟨S131072x256, .f32⟩ : BufTy).Contents (Elt F)) (x1 : (⟨S1000x256, .f32⟩ : BufTy).Contents (Elt F)) (x2 : (⟨S131072, .i32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_v45 : W (Proc.devRef .tc main_v45) = ReadP.val_main_v45 (F := F) x0 x1 x2) :
    after (c6 (F := F)) W (Proc.devRef .tc main_arg2) = x2 := by
  unfold c6
  after_results_simp
  exact h_main_arg2

/-- After operations 71 to 85, run from any contents that hold the earlier stages at the buffers these operations read and the
    three arguments at theirs: what buffer `main_v46` holds. -/
theorem c6_main_v46 (W : Valuation τ sig (Elt F)) (x0 : (⟨S131072x256, .f32⟩ : BufTy).Contents (Elt F)) (x1 : (⟨S1000x256, .f32⟩ : BufTy).Contents (Elt F)) (x2 : (⟨S131072, .i32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_v45 : W (Proc.devRef .tc main_v45) = ReadP.val_main_v45 (F := F) x0 x1 x2) :
    after (c6 (F := F)) W (Proc.devRef .tc main_v46) = ReadP.val_main_v46 (F := F) x0 x1 x2 := by
  unfold c6
  after_results_simp
  try simp only [h_main_arg0, h_main_arg1, h_main_arg2, h_main_v45, TRef.ofBuf, TRef.toBuf, cast_eq]
  rfl

/-- Operations 86 to 104 of the line. -/
def c7 : List (HloOp τ sig (Elt F)) :=
  [ unary main_arg2 main_v47 (broadcastInDim S131072x1 ![0] bcast_S131072_S131072x1_0 : (⟨S131072, .i32⟩ : BufTy).Contents (Elt F) → (⟨S131072x1, .i32⟩ : BufTy).Contents (Elt F)),
    TRef.nullary (TRef.of (T := ⟨S_, .i32⟩) main_call4_c) (constantI S_ 32 0#32),
    TRef.unary (TRef.of (T := ⟨S_, .i32⟩) main_call4_c) (TRef.of (T := ⟨S131072x1, .i32⟩) main_call4_v0) (broadcastInDim S131072x1 ![] bcast_S_S131072x1),
    TRef.binary (TRef.of (T := ⟨S131072x1, .i32⟩) main_v47) (TRef.of (T := ⟨S131072x1, .i32⟩) main_call4_v0) (TRef.of (T := ⟨S131072x1, .i1⟩) main_call4_v1) (cmpi .slt),
    TRef.nullary (TRef.of (T := ⟨S_, .i32⟩) main_call4_c_0) (constantI S_ 32 1000#32),
    TRef.unary (TRef.of (T := ⟨S_, .i32⟩) main_call4_c_0) (TRef.of (T := ⟨S131072x1, .i32⟩) main_call4_v2) (broadcastInDim S131072x1 ![] bcast_S_S131072x1),
    TRef.binary (TRef.of (T := ⟨S131072x1, .i32⟩) main_v47) (TRef.of (T := ⟨S131072x1, .i32⟩) main_call4_v2) (TRef.of (T := ⟨S131072x1, .i32⟩) main_call4_v3) addi,
    TRef.ternary (TRef.of (T := ⟨S131072x1, .i1⟩) main_call4_v1) (TRef.of (T := ⟨S131072x1, .i32⟩) main_call4_v3) (TRef.of (T := ⟨S131072x1, .i32⟩) main_v47) (TRef.of (T := ⟨S131072x1, .i32⟩) main_call4_v4) select,
    TRef.reshape (TRef.of (T := ⟨S131072x1, .i32⟩) main_call4_v4) (TRef.of (T := ⟨S131072x1x1, .i32⟩) main_call4_v5) rfl shapeCasts_S131072x1_S131072x1x1,
    TRef.nullary (TRef.of (T := ⟨S1, .i32⟩) main_call4_c_1) (constantI S1 32 999#32),
    TRef.nullary (TRef.of (T := ⟨S_, .i32⟩) main_call4_c_2) (constantI S_ 32 0#32),
    TRef.unary (TRef.of (T := ⟨S_, .i32⟩) main_call4_c_2) (TRef.of (T := ⟨S131072x1x1, .i32⟩) main_call4_v6) (broadcastInDim S131072x1x1 ![] bcast_S_S131072x1x1),
    TRef.binary (TRef.of (T := ⟨S131072x1x1, .i32⟩) main_call4_v5) (TRef.of (T := ⟨S131072x1x1, .i32⟩) main_call4_v6) (TRef.of (T := ⟨S131072x1x1, .i1⟩) main_call4_v7) (cmpi .sge),
    TRef.unary (TRef.of (T := ⟨S1, .i32⟩) main_call4_c_1) (TRef.of (T := ⟨S1x1x1, .i32⟩) main_call4_v8) (broadcastInDim S1x1x1 ![2] bcast_S1_S1x1x1_2),
    TRef.unary (TRef.of (T := ⟨S1x1x1, .i32⟩) main_call4_v8) (TRef.of (T := ⟨S131072x1x1, .i32⟩) main_call4_v9) (broadcastInDim S131072x1x1 ![0, 1, 2] bcast_S1x1x1_S131072x1x1_0_1_2),
    TRef.binary (TRef.of (T := ⟨S131072x1x1, .i32⟩) main_call4_v5) (TRef.of (T := ⟨S131072x1x1, .i32⟩) main_call4_v9) (TRef.of (T := ⟨S131072x1x1, .i1⟩) main_call4_v10) (cmpi .sle),
    TRef.binary (TRef.of (T := ⟨S131072x1x1, .i1⟩) main_call4_v7) (TRef.of (T := ⟨S131072x1x1, .i1⟩) main_call4_v10) (TRef.of (T := ⟨S131072x1x1, .i1⟩) main_call4_v11) andi,
    TRef.nullary (TRef.of (T := ⟨S_, .i1⟩) main_call4_c_3) (constantI S_ 1 1#1),
    TRef.binary (TRef.of (T := ⟨S131072x1x1, .i1⟩) main_call4_v11) (TRef.of (T := ⟨S_, .i1⟩) main_call4_c_3) (TRef.of (T := ⟨S131072x1, .i1⟩) main_call4_v12) (fun x v => Host.reduce IntOp.andi x v reducesTo_S131072x1x1_S131072x1_d2 h_S_) ]

/-- After operations 86 to 104, run from any contents that hold the earlier stages at the buffers these operations read and the
    three arguments at theirs: what buffer `main_arg0` holds. -/
theorem c7_main_arg0 (W : Valuation τ sig (Elt F)) (x0 : (⟨S131072x256, .f32⟩ : BufTy).Contents (Elt F)) (x1 : (⟨S1000x256, .f32⟩ : BufTy).Contents (Elt F)) (x2 : (⟨S131072, .i32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_v46 : W (Proc.devRef .tc main_v46) = ReadP.val_main_v46 (F := F) x0 x1 x2) :
    after (c7 (F := F)) W (Proc.devRef .tc main_arg0) = x0 := by
  unfold c7
  after_results_simp
  exact h_main_arg0

/-- After operations 86 to 104, run from any contents that hold the earlier stages at the buffers these operations read and the
    three arguments at theirs: what buffer `main_arg1` holds. -/
theorem c7_main_arg1 (W : Valuation τ sig (Elt F)) (x0 : (⟨S131072x256, .f32⟩ : BufTy).Contents (Elt F)) (x1 : (⟨S1000x256, .f32⟩ : BufTy).Contents (Elt F)) (x2 : (⟨S131072, .i32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_v46 : W (Proc.devRef .tc main_v46) = ReadP.val_main_v46 (F := F) x0 x1 x2) :
    after (c7 (F := F)) W (Proc.devRef .tc main_arg1) = x1 := by
  unfold c7
  after_results_simp
  exact h_main_arg1

/-- After operations 86 to 104, run from any contents that hold the earlier stages at the buffers these operations read and the
    three arguments at theirs: what buffer `main_arg2` holds. -/
theorem c7_main_arg2 (W : Valuation τ sig (Elt F)) (x0 : (⟨S131072x256, .f32⟩ : BufTy).Contents (Elt F)) (x1 : (⟨S1000x256, .f32⟩ : BufTy).Contents (Elt F)) (x2 : (⟨S131072, .i32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_v46 : W (Proc.devRef .tc main_v46) = ReadP.val_main_v46 (F := F) x0 x1 x2) :
    after (c7 (F := F)) W (Proc.devRef .tc main_arg2) = x2 := by
  unfold c7
  after_results_simp
  exact h_main_arg2

/-- After operations 86 to 104, run from any contents that hold the earlier stages at the buffers these operations read and the
    three arguments at theirs: what buffer `main_v46` holds. -/
theorem c7_main_v46 (W : Valuation τ sig (Elt F)) (x0 : (⟨S131072x256, .f32⟩ : BufTy).Contents (Elt F)) (x1 : (⟨S1000x256, .f32⟩ : BufTy).Contents (Elt F)) (x2 : (⟨S131072, .i32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_v46 : W (Proc.devRef .tc main_v46) = ReadP.val_main_v46 (F := F) x0 x1 x2) :
    after (c7 (F := F)) W (Proc.devRef .tc main_v46) = ReadP.val_main_v46 (F := F) x0 x1 x2 := by
  unfold c7
  after_results_simp
  exact h_main_v46

/-- After operations 86 to 104, run from any contents that hold the earlier stages at the buffers these operations read and the
    three arguments at theirs: what buffer `main_call4_v5` holds. -/
theorem c7_main_call4_v5 (W : Valuation τ sig (Elt F)) (x0 : (⟨S131072x256, .f32⟩ : BufTy).Contents (Elt F)) (x1 : (⟨S1000x256, .f32⟩ : BufTy).Contents (Elt F)) (x2 : (⟨S131072, .i32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_v46 : W (Proc.devRef .tc main_v46) = ReadP.val_main_v46 (F := F) x0 x1 x2) :
    after (c7 (F := F)) W (Proc.devRef .tc main_call4_v5) = ReadP.val_main_call4_v5 (F := F) x2 := by
  unfold c7
  after_results_simp
  try simp only [h_main_arg0, h_main_arg1, h_main_arg2, h_main_v46, TRef.ofBuf, TRef.toBuf, cast_eq]
  rfl

/-- After operations 86 to 104, run from any contents that hold the earlier stages at the buffers these operations read and the
    three arguments at theirs: what buffer `main_call4_v12` holds. -/
theorem c7_main_call4_v12 (W : Valuation τ sig (Elt F)) (x0 : (⟨S131072x256, .f32⟩ : BufTy).Contents (Elt F)) (x1 : (⟨S1000x256, .f32⟩ : BufTy).Contents (Elt F)) (x2 : (⟨S131072, .i32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_v46 : W (Proc.devRef .tc main_v46) = ReadP.val_main_v46 (F := F) x0 x1 x2) :
    after (c7 (F := F)) W (Proc.devRef .tc main_call4_v12) = ReadP.val_main_call4_v12 (F := F) x2 := by
  unfold c7
  after_results_simp
  try simp only [h_main_arg0, h_main_arg1, h_main_arg2, h_main_v46, TRef.ofBuf, TRef.toBuf, cast_eq]
  rfl

/-- Operations 105 to 113 of the line. -/
def c8 : List (HloOp τ sig (Elt F)) :=
  [ TRef.binary (TRef.of (T := ⟨S131072x1000, .f32⟩) main_v46) (TRef.of (T := ⟨S131072x1x1, .i32⟩) main_call4_v5) (TRef.of (T := ⟨S131072x1, .f32⟩) main_call4_v13) (fun x i => Host.gather gather_S131072x1000_S131072x1x1_S131072x1_n_1_0_0_1_2_11 x i),
    TRef.nullary (TRef.of (T := ⟨S_, .f32⟩) main_call4_cst) (constant S_ .f32 0x7FC00000#32),
    TRef.unary (TRef.of (T := ⟨S_, .f32⟩) main_call4_cst) (TRef.of (T := ⟨S131072x1, .f32⟩) main_call4_v14) (broadcastInDim S131072x1 ![] bcast_S_S131072x1),
    TRef.ternary (TRef.of (T := ⟨S131072x1, .i1⟩) main_call4_v12) (TRef.of (T := ⟨S131072x1, .f32⟩) main_call4_v13) (TRef.of (T := ⟨S131072x1, .f32⟩) main_call4_v14) (TRef.of (T := ⟨S131072x1, .f32⟩) main_v48) select,
    nullary main_cst_11 (constant S_ .f32 0x00000000#32),
    binary main_v48 main_cst_11 main_v49 ((fun x v => Host.reduceAdd x v reducesTo_S131072x1_S_d0_1 h_S_) : (⟨S131072x1, .f32⟩ : BufTy).Contents (Elt F) → (⟨S_, .f32⟩ : BufTy).Contents (Elt F) → (⟨S_, .f32⟩ : BufTy).Contents (Elt F)),
    nullary main_cst_12 (constant S_ .f32 0x48000000#32),
    binary main_v49 main_cst_12 main_v50 (Host.divf : (⟨S_, .f32⟩ : BufTy).Contents (Elt F) → (⟨S_, .f32⟩ : BufTy).Contents (Elt F) → (⟨S_, .f32⟩ : BufTy).Contents (Elt F)),
    unary main_v50 main_v51 (Host.negf : (⟨S_, .f32⟩ : BufTy).Contents (Elt F) → (⟨S_, .f32⟩ : BufTy).Contents (Elt F)) ]

/-- After operations 105 to 113, run from any contents that hold the earlier stages at the buffers these operations read and the
    three arguments at theirs: what buffer `main_arg0` holds. -/
theorem c8_main_arg0 (W : Valuation τ sig (Elt F)) (x0 : (⟨S131072x256, .f32⟩ : BufTy).Contents (Elt F)) (x1 : (⟨S1000x256, .f32⟩ : BufTy).Contents (Elt F)) (x2 : (⟨S131072, .i32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_v46 : W (Proc.devRef .tc main_v46) = ReadP.val_main_v46 (F := F) x0 x1 x2)
    (h_main_call4_v5 : W (Proc.devRef .tc main_call4_v5) = ReadP.val_main_call4_v5 (F := F) x2)
    (h_main_call4_v12 : W (Proc.devRef .tc main_call4_v12) = ReadP.val_main_call4_v12 (F := F) x2) :
    after (c8 (F := F)) W (Proc.devRef .tc main_arg0) = x0 := by
  unfold c8
  after_results_simp
  exact h_main_arg0

/-- After operations 105 to 113, run from any contents that hold the earlier stages at the buffers these operations read and the
    three arguments at theirs: what buffer `main_arg1` holds. -/
theorem c8_main_arg1 (W : Valuation τ sig (Elt F)) (x0 : (⟨S131072x256, .f32⟩ : BufTy).Contents (Elt F)) (x1 : (⟨S1000x256, .f32⟩ : BufTy).Contents (Elt F)) (x2 : (⟨S131072, .i32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_v46 : W (Proc.devRef .tc main_v46) = ReadP.val_main_v46 (F := F) x0 x1 x2)
    (h_main_call4_v5 : W (Proc.devRef .tc main_call4_v5) = ReadP.val_main_call4_v5 (F := F) x2)
    (h_main_call4_v12 : W (Proc.devRef .tc main_call4_v12) = ReadP.val_main_call4_v12 (F := F) x2) :
    after (c8 (F := F)) W (Proc.devRef .tc main_arg1) = x1 := by
  unfold c8
  after_results_simp
  exact h_main_arg1

/-- After operations 105 to 113, run from any contents that hold the earlier stages at the buffers these operations read and the
    three arguments at theirs: what buffer `main_arg2` holds. -/
theorem c8_main_arg2 (W : Valuation τ sig (Elt F)) (x0 : (⟨S131072x256, .f32⟩ : BufTy).Contents (Elt F)) (x1 : (⟨S1000x256, .f32⟩ : BufTy).Contents (Elt F)) (x2 : (⟨S131072, .i32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_v46 : W (Proc.devRef .tc main_v46) = ReadP.val_main_v46 (F := F) x0 x1 x2)
    (h_main_call4_v5 : W (Proc.devRef .tc main_call4_v5) = ReadP.val_main_call4_v5 (F := F) x2)
    (h_main_call4_v12 : W (Proc.devRef .tc main_call4_v12) = ReadP.val_main_call4_v12 (F := F) x2) :
    after (c8 (F := F)) W (Proc.devRef .tc main_arg2) = x2 := by
  unfold c8
  after_results_simp
  exact h_main_arg2

/-- After operations 105 to 113, run from any contents that hold the earlier stages at the buffers these operations read and the
    three arguments at theirs: what buffer `main_v51` holds. -/
theorem c8_main_v51 (W : Valuation τ sig (Elt F)) (x0 : (⟨S131072x256, .f32⟩ : BufTy).Contents (Elt F)) (x1 : (⟨S1000x256, .f32⟩ : BufTy).Contents (Elt F)) (x2 : (⟨S131072, .i32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_v46 : W (Proc.devRef .tc main_v46) = ReadP.val_main_v46 (F := F) x0 x1 x2)
    (h_main_call4_v5 : W (Proc.devRef .tc main_call4_v5) = ReadP.val_main_call4_v5 (F := F) x2)
    (h_main_call4_v12 : W (Proc.devRef .tc main_call4_v12) = ReadP.val_main_call4_v12 (F := F) x2) :
    after (c8 (F := F)) W (Proc.devRef .tc main_v51) = ReadP.val_main_v51 (F := F) x0 x1 x2 := by
  unfold c8
  after_results_simp
  try simp only [h_main_arg0, h_main_arg1, h_main_arg2, h_main_v46, h_main_call4_v5, h_main_call4_v12, TRef.ofBuf, TRef.toBuf, cast_eq]
  rfl

/-- The eight stretches in a row: the result buffer at its stage, the arguments unchanged. -/
theorem after_chunks (V : Valuation τ sig (Elt F)) (x0 : (⟨S131072x256, .f32⟩ : BufTy).Contents (Elt F)) (x1 : (⟨S1000x256, .f32⟩ : BufTy).Contents (Elt F)) (x2 : (⟨S131072, .i32⟩ : BufTy).Contents (Elt F))
    (h_main_arg0 : V (Proc.devRef .tc main_arg0) = x0) (h_main_arg1 : V (Proc.devRef .tc main_arg1) = x1) (h_main_arg2 : V (Proc.devRef .tc main_arg2) = x2) :
    after (c1 ++ c2 ++ c3 ++ c4 ++ c5 ++ c6 ++ c7 ++ c8 : List (HloOp τ sig (Elt F))) V (Proc.devRef .tc main_v51) = ReadP.val_main_v51 (F := F) x0 x1 x2
      ∧ after (c1 ++ c2 ++ c3 ++ c4 ++ c5 ++ c6 ++ c7 ++ c8 : List (HloOp τ sig (Elt F))) V (Proc.devRef .tc main_arg0) = x0
      ∧ after (c1 ++ c2 ++ c3 ++ c4 ++ c5 ++ c6 ++ c7 ++ c8 : List (HloOp τ sig (Elt F))) V (Proc.devRef .tc main_arg1) = x1
      ∧ after (c1 ++ c2 ++ c3 ++ c4 ++ c5 ++ c6 ++ c7 ++ c8 : List (HloOp τ sig (Elt F))) V (Proc.devRef .tc main_arg2) = x2 := by
  simp only [StableHlo.after_append]
  have a1_main_arg0 := c1_main_arg0 (F := F) V x0 x1 x2 h_main_arg0 h_main_arg1 h_main_arg2
  have a1_main_arg1 := c1_main_arg1 (F := F) V x0 x1 x2 h_main_arg0 h_main_arg1 h_main_arg2
  have a1_main_arg2 := c1_main_arg2 (F := F) V x0 x1 x2 h_main_arg0 h_main_arg1 h_main_arg2
  have a1_main_v4 := c1_main_v4 (F := F) V x0 x1 x2 h_main_arg0 h_main_arg1 h_main_arg2
  have a2_main_arg0 := c2_main_arg0 (F := F) (after c1 V) x0 x1 x2 a1_main_arg0 a1_main_arg1 a1_main_arg2 a1_main_v4
  have a2_main_arg1 := c2_main_arg1 (F := F) (after c1 V) x0 x1 x2 a1_main_arg0 a1_main_arg1 a1_main_arg2 a1_main_v4
  have a2_main_arg2 := c2_main_arg2 (F := F) (after c1 V) x0 x1 x2 a1_main_arg0 a1_main_arg1 a1_main_arg2 a1_main_v4
  have a2_main_v4 := c2_main_v4 (F := F) (after c1 V) x0 x1 x2 a1_main_arg0 a1_main_arg1 a1_main_arg2 a1_main_v4
  have a2_main_v7 := c2_main_v7 (F := F) (after c1 V) x0 x1 x2 a1_main_arg0 a1_main_arg1 a1_main_arg2 a1_main_v4
  have a2_main_v15 := c2_main_v15 (F := F) (after c1 V) x0 x1 x2 a1_main_arg0 a1_main_arg1 a1_main_arg2 a1_main_v4
  have a3_main_arg0 := c3_main_arg0 (F := F) (after c2 (after c1 V)) x0 x1 x2 a2_main_arg0 a2_main_arg1 a2_main_arg2 a2_main_v4 a2_main_v7 a2_main_v15
  have a3_main_arg1 := c3_main_arg1 (F := F) (after c2 (after c1 V)) x0 x1 x2 a2_main_arg0 a2_main_arg1 a2_main_arg2 a2_main_v4 a2_main_v7 a2_main_v15
  have a3_main_arg2 := c3_main_arg2 (F := F) (after c2 (after c1 V)) x0 x1 x2 a2_main_arg0 a2_main_arg1 a2_main_arg2 a2_main_v4 a2_main_v7 a2_main_v15
  have a3_main_v4 := c3_main_v4 (F := F) (after c2 (after c1 V)) x0 x1 x2 a2_main_arg0 a2_main_arg1 a2_main_arg2 a2_main_v4 a2_main_v7 a2_main_v15
  have a3_main_v15 := c3_main_v15 (F := F) (after c2 (after c1 V)) x0 x1 x2 a2_main_arg0 a2_main_arg1 a2_main_arg2 a2_main_v4 a2_main_v7 a2_main_v15
  have a3_main_v22 := c3_main_v22 (F := F) (after c2 (after c1 V)) x0 x1 x2 a2_main_arg0 a2_main_arg1 a2_main_arg2 a2_main_v4 a2_main_v7 a2_main_v15
  have a4_main_arg0 := c4_main_arg0 (F := F) (after c3 (after c2 (after c1 V))) x0 x1 x2 a3_main_arg0 a3_main_arg1 a3_main_arg2 a3_main_v4 a3_main_v15 a3_main_v22
  have a4_main_arg1 := c4_main_arg1 (F := F) (after c3 (after c2 (after c1 V))) x0 x1 x2 a3_main_arg0 a3_main_arg1 a3_main_arg2 a3_main_v4 a3_main_v15 a3_main_v22
  have a4_main_arg2 := c4_main_arg2 (F := F) (after c3 (after c2 (after c1 V))) x0 x1 x2 a3_main_arg0 a3_main_arg1 a3_main_arg2 a3_main_v4 a3_main_v15 a3_main_v22
  have a4_main_v4 := c4_main_v4 (F := F) (after c3 (after c2 (after c1 V))) x0 x1 x2 a3_main_arg0 a3_main_arg1 a3_main_arg2 a3_main_v4 a3_main_v15 a3_main_v22
  have a4_main_v37 := c4_main_v37 (F := F) (after c3 (after c2 (after c1 V))) x0 x1 x2 a3_main_arg0 a3_main_arg1 a3_main_arg2 a3_main_v4 a3_main_v15 a3_main_v22
  have a5_main_arg0 := c5_main_arg0 (F := F) (after c4 (after c3 (after c2 (after c1 V)))) x0 x1 x2 a4_main_arg0 a4_main_arg1 a4_main_arg2 a4_main_v4 a4_main_v37
  have a5_main_arg1 := c5_main_arg1 (F := F) (after c4 (after c3 (after c2 (after c1 V)))) x0 x1 x2 a4_main_arg0 a4_main_arg1 a4_main_arg2 a4_main_v4 a4_main_v37
  have a5_main_arg2 := c5_main_arg2 (F := F) (after c4 (after c3 (after c2 (after c1 V)))) x0 x1 x2 a4_main_arg0 a4_main_arg1 a4_main_arg2 a4_main_v4 a4_main_v37
  have a5_main_v45 := c5_main_v45 (F := F) (after c4 (after c3 (after c2 (after c1 V)))) x0 x1 x2 a4_main_arg0 a4_main_arg1 a4_main_arg2 a4_main_v4 a4_main_v37
  have a6_main_arg0 := c6_main_arg0 (F := F) (after c5 (after c4 (after c3 (after c2 (after c1 V))))) x0 x1 x2 a5_main_arg0 a5_main_arg1 a5_main_arg2 a5_main_v45
  have a6_main_arg1 := c6_main_arg1 (F := F) (after c5 (after c4 (after c3 (after c2 (after c1 V))))) x0 x1 x2 a5_main_arg0 a5_main_arg1 a5_main_arg2 a5_main_v45
  have a6_main_arg2 := c6_main_arg2 (F := F) (after c5 (after c4 (after c3 (after c2 (after c1 V))))) x0 x1 x2 a5_main_arg0 a5_main_arg1 a5_main_arg2 a5_main_v45
  have a6_main_v46 := c6_main_v46 (F := F) (after c5 (after c4 (after c3 (after c2 (after c1 V))))) x0 x1 x2 a5_main_arg0 a5_main_arg1 a5_main_arg2 a5_main_v45
  have a7_main_arg0 := c7_main_arg0 (F := F) (after c6 (after c5 (after c4 (after c3 (after c2 (after c1 V)))))) x0 x1 x2 a6_main_arg0 a6_main_arg1 a6_main_arg2 a6_main_v46
  have a7_main_arg1 := c7_main_arg1 (F := F) (after c6 (after c5 (after c4 (after c3 (after c2 (after c1 V)))))) x0 x1 x2 a6_main_arg0 a6_main_arg1 a6_main_arg2 a6_main_v46
  have a7_main_arg2 := c7_main_arg2 (F := F) (after c6 (after c5 (after c4 (after c3 (after c2 (after c1 V)))))) x0 x1 x2 a6_main_arg0 a6_main_arg1 a6_main_arg2 a6_main_v46
  have a7_main_v46 := c7_main_v46 (F := F) (after c6 (after c5 (after c4 (after c3 (after c2 (after c1 V)))))) x0 x1 x2 a6_main_arg0 a6_main_arg1 a6_main_arg2 a6_main_v46
  have a7_main_call4_v5 := c7_main_call4_v5 (F := F) (after c6 (after c5 (after c4 (after c3 (after c2 (after c1 V)))))) x0 x1 x2 a6_main_arg0 a6_main_arg1 a6_main_arg2 a6_main_v46
  have a7_main_call4_v12 := c7_main_call4_v12 (F := F) (after c6 (after c5 (after c4 (after c3 (after c2 (after c1 V)))))) x0 x1 x2 a6_main_arg0 a6_main_arg1 a6_main_arg2 a6_main_v46
  have a8_main_arg0 := c8_main_arg0 (F := F) (after c7 (after c6 (after c5 (after c4 (after c3 (after c2 (after c1 V))))))) x0 x1 x2 a7_main_arg0 a7_main_arg1 a7_main_arg2 a7_main_v46 a7_main_call4_v5 a7_main_call4_v12
  have a8_main_arg1 := c8_main_arg1 (F := F) (after c7 (after c6 (after c5 (after c4 (after c3 (after c2 (after c1 V))))))) x0 x1 x2 a7_main_arg0 a7_main_arg1 a7_main_arg2 a7_main_v46 a7_main_call4_v5 a7_main_call4_v12
  have a8_main_arg2 := c8_main_arg2 (F := F) (after c7 (after c6 (after c5 (after c4 (after c3 (after c2 (after c1 V))))))) x0 x1 x2 a7_main_arg0 a7_main_arg1 a7_main_arg2 a7_main_v46 a7_main_call4_v5 a7_main_call4_v12
  have a8_main_v51 := c8_main_v51 (F := F) (after c7 (after c6 (after c5 (after c4 (after c3 (after c2 (after c1 V))))))) x0 x1 x2 a7_main_arg0 a7_main_arg1 a7_main_arg2 a7_main_v46 a7_main_call4_v5 a7_main_call4_v12
  exact ⟨a8_main_v51, a8_main_arg0, a8_main_arg1, a8_main_arg2⟩

set_option maxRecDepth 8192 in
/-- The line is its eight stretches in a row. -/
theorem ops_eq : (ops : List (HloOp τ sig (Elt F))) = c1 ++ c2 ++ c3 ++ c4 ++ c5 ++ c6 ++ c7 ++ c8 := rfl

/-- After the whole line, from any contents: the result buffer at the last stage of the three arguments' contents, the
    arguments unchanged. -/
theorem after_ops (V : Valuation τ sig (Elt F)) :
    after ops V (Proc.devRef .tc main_v51)
        = ReadP.val_main_v51 (F := F) (V (Proc.devRef .tc main_arg0)) (V (Proc.devRef .tc main_arg1)) (V (Proc.devRef .tc main_arg2))
      ∧ after ops V (Proc.devRef .tc main_arg0) = V (Proc.devRef .tc main_arg0)
      ∧ after ops V (Proc.devRef .tc main_arg1) = V (Proc.devRef .tc main_arg1)
      ∧ after ops V (Proc.devRef .tc main_arg2) = V (Proc.devRef .tc main_arg2) := by
  rw [ops_eq]
  exact after_chunks V _ _ _ rfl rfl rfl

set_option maxRecDepth 8192 in
set_option maxHeartbeats 4000000 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v51)
          = Cert.ReferenceIdeal.ReadP.val_main_v51 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c main_v51).trans (after_ops (launchContents m c)).1,
       (h c main_arg0).trans (after_ops (launchContents m c)).2.1,
       (h c main_arg1).trans (after_ops (launchContents m c)).2.2.1,
       (h c main_arg2).trans (after_ops (launchContents m c)).2.2.2⟩)
    (run_seq scopedRefs_eq scopedSems_eq defs main (fun _ => ops) main_eq (fun _ => ops_sub) m ρ)

end Cert.ReferenceIdeal.RefRun

end
-- ==== Proof.RefBank.lean ====
/-
  The reference's first half read at an index: the normalised features, the class sums and counts (two accumulating
  scatters over the labels), and the bank update as the one function of them.
-/
import proofs.«400353_j90031104459200_3_alg».proof.Proof.ReadP
import proofs.«400353_j90031104459200_3_alg».proof.Proof.Spec
import proofs.«400353_j90031104459200_3_alg».proof.Proof.NewMem
import Idealize.ShloMosaic.Lib.ValueIdx
import Idealize.ShloMosaic.Lib.Pipeline.Value
import Idealize.ShloMosaic.PureOps.Ideal.Laws
import proofs.«400353_j90031104459200_3_alg».proof.Proof.Finite

noncomputable section

namespace Cert.ReferenceIdeal.RefBank

open Cert.ReferenceIdeal Cert.ReferenceIdeal.Gen Cert.ReferenceIdeal.ReadP Idealize.ShloMosaic Idealize.ShloMosaic.ValueIdx

/-- An update lands at operand index `i` exactly when, on every operand axis, its window's start plus its window
    coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · rename_i hc
      have hv : (d.start j idx a + (d.window j a : Int)).toNat = (i a).val :=
        congrArg Fin.val (congrFun (Option.some.inj h) a)
      have := (hc a).1
      omega
    · exact absurd h (by simp)
  · intro h
    have hc : ∀ a, 0 ≤ d.start j idx a + (d.window j a : Int) ∧ d.start j idx a + (d.window j a : Int) < s.size a :=
      fun a => by have := (i a).isLt; rw [h a]; omega
    rw [dif_pos hc]
    refine congrArg some (funext fun a => Fin.ext ?_)
    show (d.start j idx a + (d.window j a : Int)).toNat = (i a).val
    rw [h a]; exact Int.toNat_natCast _

/-- The scatter of the rows: the start on the class axis is the row's label read signed, on the column axis `0`; the
    window coordinate is `0` on the class axis and the update's column on the column axis. -/
theorem sums_start0 (x2 : IVec S131072 32) (n : Fin 131072) (b : Fin 256) :
    scatter_S1000x256_S131072x1_S131072x256_1_0_0_1.start (ix2 n b) (val_main_v6 (F := Ideal) x2) 0
      = (x2 (ix1 n)).toInt := by
  have h0 : (0 : Fin S1000x256.rank) ∈ scatter_S1000x256_S131072x1_S131072x256_1_0_0_1.scatterDimsToOperandDims :=
    List.mem_singleton.2 rfl
  unfold ScatterDims.start
  rw [dif_pos h0, val_main_v6_apply]
  refine congrArg (fun t => (x2 t).toInt) (funext fun a => ?_)
  match a with
  | ⟨0, _⟩ => rfl
theorem sums_start1 (x2 : IVec S131072 32) (n : Fin 131072) (b : Fin 256) :
    scatter_S1000x256_S131072x1_S131072x256_1_0_0_1.start (ix2 n b) (val_main_v6 (F := Ideal) x2) 1 = 0 := by
  rfl
theorem sums_window0 (n : Fin 131072) (b : Fin 256) :
    scatter_S1000x256_S131072x1_S131072x256_1_0_0_1.window (ix2 n b) 0 = 0 := by
  rfl
theorem sums_window1 (n : Fin 131072) (b : Fin 256) :
    scatter_S1000x256_S131072x1_S131072x256_1_0_0_1.window (ix2 n b) 1 = b.val := by
  rfl

/-- A 32-bit word whose signed value is a number below 1000 has that number as its unsigned value, and conversely. -/
theorem toInt_eq_iff_toNat_eq (w : BitVec 32) (c : Nat) (hc : c < 1000) : w.toInt = (c : Int) ↔ w.toNat = c := by
  have hw := w.isLt
  rw [BitVec.toInt_eq_toNat_cond]
  by_cases h : 2 * w.toNat < 2 ^ 32
  · rw [if_pos h]; omega
  · rw [if_neg h]; omega

/-- An update `(n, b)` of the rows' scatter lands at `(c, dd)` exactly when row `n`'s label is `c` and `b = dd`. -/
theorem sums_lands (x2 : IVec S131072 32) (n : Fin 131072) (b : Fin 256) (c : Fin 1000) (dd : Fin 256) :
    scatter_S1000x256_S131072x1_S131072x256_1_0_0_1.resultIdx? (ix2 n b) (val_main_v6 (F := Ideal) x2) = some (ix2 c dd)
      ↔ (x2 (ix1 n)).toNat = c.val ∧ b = dd := by
  rw [resultIdx?_eq_some_iff]
  constructor
  · intro h
    have h0 := h 0
    have h1 := h 1
    rw [sums_start0, sums_window0] at h0
    rw [sums_start1, sums_window1] at h1
    have h0' : (x2 (ix1 n)).toInt = (c.val : Int) := by
      have e : ((ix2 c dd : S1000x256.Idx) 0).val = c.val := rfl
      rw [e] at h0; omega
    have h1' : b.val = dd.val := by
      have e : ((ix2 c dd : S1000x256.Idx) 1).val = dd.val := rfl
      rw [e] at h1; omega
    exact ⟨(toInt_eq_iff_toNat_eq _ _ c.isLt).1 h0', Fin.ext h1'⟩
  · rintro ⟨hP, rfl⟩ a
    have hI := (toInt_eq_iff_toNat_eq _ _ c.isLt).2 hP
    match a with
    | ⟨0, _⟩ =>
      show scatter_S1000x256_S131072x1_S131072x256_1_0_0_1.start (ix2 n b) (val_main_v6 (F := Ideal) x2) 0
        + ((scatter_S1000x256_S131072x1_S131072x256_1_0_0_1.window (ix2 n b) 0 : Nat) : Int) = (c.val : Int)
      rw [sums_start0, sums_window0, hI]; omega
    | ⟨1, _⟩ =>
      show scatter_S1000x256_S131072x1_S131072x256_1_0_0_1.start (ix2 n b) (val_main_v6 (F := Ideal) x2) 1
        + ((scatter_S1000x256_S131072x1_S131072x256_1_0_0_1.window (ix2 n b) 1 : Nat) : Int) = (b.val : Int)
      rw [sums_start1, sums_window1]; omega

/-- A rank-1 index set is its one coordinate range, so a sum over it is the sum over the coordinate. -/
def idxEquiv1 {n : Nat} : (⟨1, ![n]⟩ : Shape).Idx ≃ Fin n where
  toFun i := i 0
  invFun a := ix1 a
  left_inv i := (eq_ix1 i).symm
  right_inv _ := rfl
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The scatter of the ones: the start on the class axis is the row's label read signed; there is no window. -/
theorem counts_start0 (x2 : IVec S131072 32) (n : Fin 131072) :
    scatter_S1000_S131072x1_S131072_n_0_0_1.start (ix1 n) (val_main_v10 (F := Ideal) x2) 0 = (x2 (ix1 n)).toInt := by
  have h0 : (0 : Fin S1000.rank) ∈ scatter_S1000_S131072x1_S131072_n_0_0_1.scatterDimsToOperandDims :=
    List.mem_singleton.2 rfl
  unfold ScatterDims.start
  rw [dif_pos h0, val_main_v10_apply]
  refine congrArg (fun t => (x2 t).toInt) (funext fun a => ?_)
  match a with
  | ⟨0, _⟩ => rfl
theorem counts_window0 (n : Fin 131072) :
    scatter_S1000_S131072x1_S131072_n_0_0_1.window (ix1 n) 0 = 0 := by
  rfl

/-- An update `n` of the ones' scatter lands at class `c` exactly when row `n`'s label is `c`. -/
theorem counts_lands (x2 : IVec S131072 32) (n : Fin 131072) (c : Fin 1000) :
    scatter_S1000_S131072x1_S131072_n_0_0_1.resultIdx? (ix1 n) (val_main_v10 (F := Ideal) x2) = some (ix1 c)
      ↔ (x2 (ix1 n)).toNat = c.val := by
  rw [resultIdx?_eq_some_iff]
  constructor
  · intro h
    have h0 := h 0
    rw [counts_start0, counts_window0] at h0
    have e : ((ix1 c : S1000.Idx) 0).val = c.val := rfl
    rw [e] at h0
    exact (toInt_eq_iff_toNat_eq _ _ c.isLt).1 (by omega)
  · intro hP a
    have hI := (toInt_eq_iff_toNat_eq _ _ c.isLt).2 hP
    match a with
    | ⟨0, _⟩ =>
      show scatter_S1000_S131072x1_S131072_n_0_0_1.start (ix1 n) (val_main_v10 (F := Ideal) x2) 0
        + ((scatter_S1000_S131072x1_S131072_n_0_0_1.window (ix1 n) 0 : Nat) : Int) = (c.val : Int)
      rw [counts_start0, counts_window0, hI]; omega

/-- The normalised features: entry `(n, d)`. -/
theorem featn_apply (x0 : FVec Ideal S131072x256 .f32) (n : Fin 131072) (d : Fin 256) :
    val_main_v4 (F := Ideal) x0 (ix2 n d) = LossSpec.unit x0 n d := by
  rw [val_main_v4_apply, val_main_v3_apply, val_main_v2_apply, val_main_v0_apply, val_main_call0_v2_apply,
    val_main_call0_v1_apply, val_main_v1_apply, val_main_cst_apply, val_main_call0_cst_apply]
  simp only [val_main_call0_v0_apply, Ideal.hostDivf_def, Ideal.maximumf_def, Ideal.hostUnary_sqrt_def, Ideal.mulf_def,
    Ideal.ofBits_def]
  rw [LossSpec.ofBits_zero, zero_add]
  have hidx : ∀ k : Fin 256, idx_main_call0_v1 (idx_main_call0_v2 (idx_main_v3 (ix2 n d))) k = ix2 n k :=
    fun k => funext fun a => Fin.ext (by match a with | ⟨0, _⟩ => rfl | ⟨1, _⟩ => rfl)
  simp only [hidx]
  rfl

/-- The accumulating scatter of the normalised rows over the labels is the class sums (a label outside `[0, 1000)`
    lands nowhere). -/
theorem sums_eq (x0 : FVec Ideal S131072x256 .f32) (x2 : IVec S131072 32) :
    val_main_v7 (F := Ideal) x0 x2 = LossSpec.sumsV x0 x2 := by
  funext j
  obtain ⟨c, dd, rfl⟩ : ∃ (c : Fin 1000) (dd : Fin 256), j = ix2 c dd := ⟨j 0, j 1, eq_ix2 j⟩
  unfold val_main_v7 Host.scatterAdd
  rw [Ideal.hostScatterAdd_def]
  unfold Ideal.hostScatterAdd
  rw [val_main_v5_apply, val_main_cst_0_apply, Ideal.ofBits_def, LossSpec.ofBits_zero, zero_add, Finset.sum_filter,
    sum_idx2]
  show _ = LossSpec.sums x0 x2 c dd
  unfold LossSpec.sums
  refine Finset.sum_congr rfl fun n _ => ?_
  by_cases hP : (x2 (ix1 n)).toNat = c.val
  · rw [if_pos hP, Finset.sum_eq_single dd]
    · rw [if_pos ((sums_lands x2 n dd c dd).2 ⟨hP, rfl⟩), featn_apply]
    · intro b _ hb
      exact if_neg fun h => hb ((sums_lands x2 n b c dd).1 h).2
    · intro h
      exact absurd (Finset.mem_univ _) h
  · rw [if_neg hP]
    exact Finset.sum_eq_zero fun b _ => if_neg fun h => hP ((sums_lands x2 n b c dd).1 h).1

/-- The accumulating scatter of ones over the labels is the class counts. -/
theorem counts_eq (x2 : IVec S131072 32) :
    val_main_v11 (F := Ideal) x2 = LossSpec.countsV x2 := by
  funext j
  obtain ⟨c, rfl⟩ : ∃ c : Fin 1000, j = ix1 c := ⟨j 0, eq_ix1 j⟩
  unfold val_main_v11 Host.scatterAdd
  rw [Ideal.hostScatterAdd_def]
  unfold Ideal.hostScatterAdd
  rw [val_main_v9_apply, val_main_cst_2_apply, Ideal.ofBits_def, LossSpec.ofBits_zero, zero_add, Finset.sum_filter,
    sum_idx1]
  show _ = LossSpec.counts x2 c
  unfold LossSpec.counts
  refine Finset.sum_congr rfl fun n _ => ?_
  rw [val_main_v8_apply, val_main_cst_1_apply, Ideal.ofBits_def, LossSpec.ofBits_one]
  by_cases hP : (x2 (ix1 n)).toNat = c.val
  · rw [if_pos hP, if_pos ((counts_lands x2 n c).2 hP)]
  · rw [if_neg hP, if_neg fun h => hP ((counts_lands x2 n c).1 h)]

/-- The new bank is the bank update of the class sums, the class counts and the old bank. -/
theorem bank_eq {F : FTy → Type} [FloatOps F] (x0 : FVec F S131072x256 .f32) (x1 : FVec F S1000x256 .f32) (x2 : IVec S131072 32) :
    val_main_v42 (F := F) x0 x1 x2
      = Cert.ReferenceIdeal.BankUpdate.newMem (F := F) (val_main_v7 (F := F) x0 x2) (val_main_v11 (F := F) x2) x1 := rfl

end Cert.ReferenceIdeal.RefBank

end
-- ==== Proof.LibTakeAlongAxis.lean ====
/-
  `jnp.take_along_axis(x, idx, axis=1)` of a rank-2 table `x : [N, C]` at one position per row,
  read at an index.

  It prints as a `stablehlo.gather` whose start indices are `idx` as `[N, 1, 1]`, with the table's
  axis 0 a batching axis (paired with the indices' axis 0), axis 1 collapsed and start-indexed, slice
  sizes `[1, 1]`, the index vector on axis 2 and the result `[N, 1]`. Result element `(n, 0)` is row
  `n` of the table at the column `idx[n, 0, 0]`, read as a signed integer and clamped into
  `[0, C - 1]` as StableHLO clamps every start index.
-/
import Idealize.ShloMosaic.PureOps.ShapeOps
import Idealize.ShloMosaic.Lib.ValueIdx

noncomputable section

namespace Idealize.ShloMosaic.TakeAlongAxis

open Idealize.ShloMosaic Idealize.ShloMosaic.ValueIdx

variable {α : Type}

/-- Index `(n, 0, 0)` of the start indices. -/
abbrev ixN00 {N : Nat} (n : Fin N) : (⟨3, ![N, 1, 1]⟩ : Shape).Idx :=
  fun a => match a with | ⟨0, _⟩ => n | ⟨1, _⟩ => (0 : Fin 1) | ⟨2, _⟩ => (0 : Fin 1)

/-- THE READ: with the printed dimension numbers (each hypothesis is `rfl` on a program's record), result
    `(n, 0)` is the table at row `n` and the clamped column `idx[n, 0, 0]`. -/
theorem gather_apply {N C w : Nat} (hC : 0 < C)
    (d : GatherDims (⟨2, ![N, C]⟩ : Shape) (⟨3, ![N, 1, 1]⟩ : Shape) (⟨2, ![N, 1]⟩ : Shape))
    (hoff : d.offsetDims = []) (hcoll : d.collapsedSliceDims = [1]) (hob : d.operandBatchingDims = [0])
    (hsb : d.startIndicesBatchingDims = [0]) (hsim : d.startIndexMap = [1]) (hivd : d.indexVectorDim = 2)
    (x : (⟨2, ![N, C]⟩ : Shape).Idx → α) (idx : IVec (⟨3, ![N, 1, 1]⟩ : Shape) w) (n : Fin N) :
    Host.gather d x idx (ix2 n (0 : Fin 1))
      = x (ix2 n (⟨min (idx (ixN00 n)).toInt.toNat (C - 1), by omega⟩ : Fin C)) := by
  have hsl : d.sliceSizes 1 = 1 := d.slice_collapsed 1 (by rw [hcoll]; exact List.mem_singleton.mpr rfl)
  obtain ⟨od, cd, ob, sb, sm, iv, ss, wf⟩ := d
  simp only at hoff hcoll hob hsb hsim hivd hsl
  subst hoff hcoll hob hsb hsim hivd
  unfold Host.gather
  refine congrArg x (funext fun a => Fin.ext ?_)
  match a with
  | ⟨0, _⟩ =>
    show GatherDims.start _ _ idx _ + GatherDims.batchCoord _ _ _ + GatherDims.offCoord _ _ _ = n.val
    simp [GatherDims.start, GatherDims.batchCoord, GatherDims.offCoord, GatherDims.siCoord, GatherDims.sKept, GatherDims.siKept, GatherDims.batchDims, Shape.kept]
    rfl
  | ⟨1, _⟩ =>
    show GatherDims.start _ _ idx _ + GatherDims.batchCoord _ _ _ + GatherDims.offCoord _ _ _ = min (idx (ixN00 n)).toInt.toNat (C - 1)
    simp [GatherDims.start, GatherDims.batchCoord, GatherDims.offCoord, GatherDims.siCoord, GatherDims.sKept, GatherDims.siKept, GatherDims.batchDims, Shape.kept, hsl]
    congr 3
    refine congrArg idx ?_
    funext b
    apply Fin.ext
    fin_cases b
    · simp [GatherDims.siIdx, GatherDims.siCoord, GatherDims.siKept, GatherDims.batchDims, Shape.kept]
      rfl
    · simp [GatherDims.siIdx, GatherDims.siCoord, GatherDims.siKept, GatherDims.batchDims, Shape.kept]
    · simp [GatherDims.siIdx]

end Idealize.ShloMosaic.TakeAlongAxis

end
-- ==== Proof.RefLoss.lean ====
/-
  The reference's second half read at an index: the logits against the new bank, the log-softmax shifted by the row
  maximum, the entry at the row's label, and minus the mean.
-/
import proofs.«400353_j90031104459200_3_alg».proof.Proof.ReadP
import proofs.«400353_j90031104459200_3_alg».proof.Proof.Spec
import proofs.«400353_j90031104459200_3_alg».proof.Proof.Finite
import proofs.«400353_j90031104459200_3_alg».proof.Proof.RefBank
import proofs.«400353_j90031104459200_3_alg».proof.Proof.LibTakeAlongAxis
import Idealize.ShloMosaic.Lib.ValueIdx
import Idealize.ShloMosaic.Lib.Pipeline.Value
import Idealize.ShloMosaic.PureOps.Ideal.Laws

noncomputable section

namespace Cert.ReferenceIdeal.RefLoss

open Cert.ReferenceIdeal Cert.ReferenceIdeal.Gen Cert.ReferenceIdeal.ReadP Idealize.ShloMosaic Idealize.ShloMosaic.ValueIdx

/-! ## The logits -/

/-- Division by one is the identity on the extended reals. -/
theorem div_one' (x : EReal) : Ideal.div x 1 = x := by
  rw [← EReal.coe_one, Ideal.div_coe one_ne_zero, one_div, inv_one, EReal.coe_one, mul_one]

/-- Entry `(n, c)` of the logits is row `n`'s inner product with row `c` of the new bank. -/
theorem logit_apply (x0 : FVec Ideal S131072x256 .f32) (x1 : FVec Ideal S1000x256 .f32) (x2 : IVec S131072 32)
    (n : Fin 131072) (c : Fin 1000) :
    val_main_v45 (F := Ideal) x0 x1 x2 (ix2 n c) = LossSpec.logit x0 (val_main_v42 (F := Ideal) x0 x1 x2) n c := by
  have el : ∀ k : Fin 256, lidx_main_v43 (ix2 n c) k = ix2 n k := fun k =>
    funext fun a => Fin.ext (by match a with | ⟨0, _⟩ => rfl | ⟨1, _⟩ => rfl)
  have er : ∀ k : Fin 256, ridx_main_v43 (ix2 n c) k = ix2 c k := fun k =>
    funext fun a => Fin.ext (by match a with | ⟨0, _⟩ => rfl | ⟨1, _⟩ => rfl)
  rw [val_main_v45_apply, val_main_v43_apply, val_main_v44_apply, val_main_cst_10_apply]
  simp only [Ideal.hostDivf_def, Ideal.ofBits_def]
  rw [LossSpec.ofBits_one, div_one']
  unfold LossSpec.logit
  refine Finset.sum_congr rfl fun k _ => ?_
  rw [el k, er k, RefBank.featn_apply]

/-! ## The row maximum -/

/-- The reduced index `n` with class `k` put back is `(n, k)`. -/
theorem lift_row (h : S131072x1000.Reduces [1] S131072) (n : Fin 131072) (k : Fin (S131072x1000.size 1)) :
    h.lift (ix1 n) k = ix2 n (⟨k.val, k.isLt⟩ : Fin 1000) := by
  funext a
  apply Fin.ext
  match a with
  | ⟨0, _⟩ => rfl
  | ⟨1, _⟩ => rfl

/-- A fold of the maximum from `-∞` is the supremum. -/
theorem fold_max_bot {ι : Type} (s : Finset ι) (g : ι → EReal) :
    s.fold (FloatOps.maximumf (F := Ideal) (φ := .f32)) (⊥ : EReal) g = s.sup g := rfl

/-- The maximum over the classes of row `n`'s logits. -/
theorem rmax_apply (x0 : FVec Ideal S131072x256 .f32) (x1 : FVec Ideal S1000x256 .f32) (x2 : IVec S131072 32)
    (n : Fin 131072) :
    val_main_call3_v2 (F := Ideal) x0 x1 x2 (ix1 n) = LossSpec.rMax x0 (val_main_v42 (F := Ideal) x0 x1 x2) n := by
  have h : S131072x1000.Reduces [1] S131072 := by decide
  rw [val_main_call3_v2_apply, val_main_call3_v1_apply, val_main_call3_cst_0_apply]
  unfold val_main_call3_v0
  rw [Host.reduce_eq_fold_single (α := Ideal .f32) (s := S131072x1000) (t := S131072) (a := 1) (u := S_)
      (FloatOps.maximumf (F := Ideal) (φ := .f32)) (val_main_v45 (F := Ideal) x0 x1 x2) (val_main_call3_cst (F := Ideal))
      reducesTo_S131072x1000_S131072_d1 h h_S_ (ix1 n),
    val_main_call3_cst_apply]
  simp only [Ideal.maximumf_def, Ideal.ofBits_def]
  rw [LossSpec.ofBits_neg_inf, max_eq_right bot_le]
  have hf : (val_main_v45 (F := Ideal) x0 x1 x2 ∘ h.lift (ix1 n))
      = fun k : Fin 1000 => LossSpec.logit x0 (val_main_v42 (F := Ideal) x0 x1 x2) n k :=
    funext fun k => (congrArg (val_main_v45 (F := Ideal) x0 x1 x2) (lift_row h n k)).trans (logit_apply x0 x1 x2 n _)
  exact (congrArg (fun f => Finset.fold (FloatOps.maximumf (F := Ideal) (φ := .f32)) (⊥ : EReal) f (Finset.univ : Finset (Fin 1000))) hf).trans
    (fold_max_bot _ _)

/-! ## The log-softmax -/

/-- Entry `(n, c)` of the shifted logits. -/
theorem shift_apply (x0 : FVec Ideal S131072x256 .f32) (x1 : FVec Ideal S1000x256 .f32) (x2 : IVec S131072 32)
    (n : Fin 131072) (c : Fin 1000) :
    val_main_call3_v5 (F := Ideal) x0 x1 x2 (ix2 n c)
      = LossSpec.logit x0 (val_main_v42 (F := Ideal) x0 x1 x2) n c - LossSpec.rMax x0 (val_main_v42 (F := Ideal) x0 x1 x2) n := by
  have e : idx_main_call3_v3 (idx_main_call3_v4 (ix2 n c)) = ix1 n :=
    funext fun a => Fin.ext (by match a with | ⟨0, _⟩ => rfl)
  rw [val_main_call3_v5_apply, val_main_call3_v4_apply, val_main_call3_v3_apply, e, rmax_apply, logit_apply]
  simp only [Ideal.subf_def]

/-- Row `n`'s sum of exponentials of the shifted logits. -/
theorem sumexp_apply (x0 : FVec Ideal S131072x256 .f32) (x1 : FVec Ideal S1000x256 .f32) (x2 : IVec S131072 32)
    (n : Fin 131072) :
    val_main_call3_v7 (F := Ideal) x0 x1 x2 (ix1 n)
      = ∑ c : Fin 1000, Ideal.exp (LossSpec.logit x0 (val_main_v42 (F := Ideal) x0 x1 x2) n c
          - LossSpec.rMax x0 (val_main_v42 (F := Ideal) x0 x1 x2) n) := by
  have e : ∀ k : Fin 1000, idx_main_call3_v7 (ix1 n) k = ix2 n k := fun k =>
    funext fun a => Fin.ext (by match a with | ⟨0, _⟩ => rfl | ⟨1, _⟩ => rfl)
  rw [val_main_call3_v7_apply, val_main_call3_cst_1_apply]
  simp only [Ideal.ofBits_def]
  rw [LossSpec.ofBits_zero, zero_add]
  refine Finset.sum_congr rfl fun k _ => ?_
  rw [e k, val_main_call3_v6_apply, shift_apply]
  simp only [Ideal.hostUnary_exp_def]

/-- Entry `(n, c)` of the log-softmax is the log-probability of class `c` in row `n`. -/
theorem logp_apply (x0 : FVec Ideal S131072x256 .f32) (x1 : FVec Ideal S1000x256 .f32) (x2 : IVec S131072 32)
    (n : Fin 131072) (c : Fin 1000) :
    val_main_v46 (F := Ideal) x0 x1 x2 (ix2 n c) = LossSpec.rLogp x0 (val_main_v42 (F := Ideal) x0 x1 x2) n c := by
  have e : idx_main_call3_v8 (idx_main_call3_v10 (ix2 n c)) = ix1 n :=
    funext fun a => Fin.ext (by match a with | ⟨0, _⟩ => rfl)
  rw [val_main_v46_apply, val_main_call3_v10_apply, val_main_call3_v9_apply, val_main_call3_v8_apply, e, sumexp_apply,
    shift_apply]
  simp only [Ideal.subf_def, Ideal.hostUnary_log_def]
  rfl

/-! ## The labels as signed words -/

/-- A word below 1000 is not negative as a signed word. -/
theorem lab_nonneg (b : BitVec 32) (hb : b.toNat < 1000) : IntOp.cmpi .slt b 0#32 = 0#1 := by
  show BitVec.ofBool (b.slt 0#32) = 0#1
  rw [BitVec.slt_zero_eq_msb, BitVec.msb_eq_false_iff_two_mul_lt.mpr (by omega)]
  rfl

/-- A word below 1000 lies in `[0, 999]` as a signed word. -/
theorem lab_in_range (b : BitVec 32) (hb : b.toNat < 1000) :
    IntOp.andi (IntOp.cmpi .sge b 0#32) (IntOp.cmpi .sle b 999#32) = 1#1 := by
  have ht : b.toInt = (b.toNat : Int) := BitVec.toInt_eq_toNat_of_lt (by omega)
  have h1 : (0#32).sle b = true := by
    rw [BitVec.sle_eq_decide, decide_eq_true_iff, BitVec.toInt_zero, ht]
    omega
  have h2 : b.sle 999#32 = true := by
    rw [BitVec.sle_eq_decide, decide_eq_true_iff, ht, show (999#32).toInt = 999 from by decide]
    omega
  show IntOp.andi (BitVec.ofBool ((0#32).sle b)) (BitVec.ofBool (b.sle 999#32)) = 1#1
  rw [h1, h2]
  rfl

/-- A word below 1000, read as a signed integer and clamped into `[0, 999]`, is itself. -/
theorem lab_clamp (b : BitVec 32) (hb : b.toNat < 1000) : min b.toInt.toNat (1000 - 1) = b.toNat % 1000 := by
  rw [BitVec.toNat_toInt_of_msb b (BitVec.msb_eq_false_iff_two_mul_lt.mpr (by omega)), Nat.mod_eq_of_lt hb]
  omega

theorem select_zero {α : Type} (a b : α) : Scalar.select 0#1 a b = b := by
  unfold Scalar.select
  rw [if_neg (by decide)]

theorem select_one {α : Type} (a b : α) : Scalar.select 1#1 a b = a := by
  unfold Scalar.select
  exact if_pos (by decide)

/-- A fold of `and` over ones from one is one. -/
theorem fold_andi_one {ι : Type} (s : Finset ι) :
    s.fold (IntOp.andi (w := 1)) 1#1 (fun _ => 1#1) = 1#1 := by
  classical
  refine Finset.induction_on s ?_ ?_
  · rfl
  · intro a t ha ih
    rw [Finset.fold_insert ha, ih]
    rfl

/-! ## The entry at the label -/

section Take

variable (x2 : IVec S131072 32) (hl : ∀ n : Fin 131072, (x2 (ix1 n)).toNat < 1000)
include hl

theorem hl_idx (j : S131072.Idx) : (x2 j).toNat < 1000 := by
  have e := eq_ix1 j
  rw [e]
  exact hl (j 0)

/-- With every label a class the wrapped label is the label. -/
theorem idx5_apply (i : S131072x1x1.Idx) :
    val_main_call4_v5 (F := Ideal) x2 i = x2 (idx_main_v47 (idx_main_call4_v5 i)) := by
  rw [val_main_call4_v5_apply, val_main_call4_v4_apply, val_main_call4_v1_apply, val_main_call4_v0_apply,
    val_main_call4_c_apply, val_main_v47_apply, lab_nonneg _ (hl_idx x2 hl _), select_zero]

/-- … and lies in range. -/
theorem inrange_apply (i : S131072x1x1.Idx) : val_main_call4_v11 (F := Ideal) x2 i = 1#1 := by
  rw [val_main_call4_v11_apply, val_main_call4_v7_apply, val_main_call4_v10_apply, val_main_call4_v6_apply,
    val_main_call4_c_2_apply, val_main_call4_v9_apply, val_main_call4_v8_apply, val_main_call4_c_1_apply,
    idx5_apply x2 hl]
  exact lab_in_range _ (hl_idx x2 hl _)

/-- The in-range mask is one at every row. -/
theorem mask_apply (j : S131072x1.Idx) : val_main_call4_v12 (F := Ideal) x2 j = 1#1 := by
  have h : S131072x1x1.Reduces [2] S131072x1 := by decide
  unfold val_main_call4_v12
  rw [Host.reduce_eq_fold_single (α := BitVec 1) (s := S131072x1x1) (t := S131072x1) (a := 2) (u := S_)
      (IntOp.andi (w := 1)) (val_main_call4_v11 (F := Ideal) x2) (val_main_call4_c_3 (F := Ideal))
      reducesTo_S131072x1x1_S131072x1_d2 h h_S_ j,
    val_main_call4_c_3_apply]
  have hf : (val_main_call4_v11 (F := Ideal) x2 ∘ h.lift j) = fun _ => 1#1 :=
    funext fun k => inrange_apply x2 hl _
  rw [hf]
  exact fold_andi_one _

end Take

/-- The gather at `(n, 0)` is the log-softmax at row `n` and the clamped column. -/
theorem gather_at (x0 : FVec Ideal S131072x256 .f32) (x1 : FVec Ideal S1000x256 .f32) (x2 : IVec S131072 32)
    (n : Fin 131072) :
    val_main_call4_v13 (F := Ideal) x0 x1 x2 (ix2 n (0 : Fin 1))
      = val_main_v46 (F := Ideal) x0 x1 x2
          (ix2 n (⟨min (val_main_call4_v5 (F := Ideal) x2 (TakeAlongAxis.ixN00 n)).toInt.toNat (1000 - 1), by omega⟩ : Fin 1000)) := by
  unfold val_main_call4_v13
  exact TakeAlongAxis.gather_apply (N := 131072) (C := 1000) (w := 32) (by decide)
    gather_S131072x1000_S131072x1x1_S131072x1_n_1_0_0_1_2_11 rfl rfl rfl rfl rfl rfl
    (val_main_v46 (F := Ideal) x0 x1 x2) (val_main_call4_v5 (F := Ideal) x2) n

/-- Entry `(n, 0)` of the taken column is row `n`'s log-probability at its label. -/
theorem take_apply (x0 : FVec Ideal S131072x256 .f32) (x1 : FVec Ideal S1000x256 .f32) (x2 : IVec S131072 32)
    (hl : ∀ n : Fin 131072, (x2 (ix1 n)).toNat < 1000) (n : Fin 131072) :
    val_main_v48 (F := Ideal) x0 x1 x2 (ix2 n (0 : Fin 1))
      = LossSpec.rLogp x0 (val_main_v42 (F := Ideal) x0 x1 x2) n (LossSpec.lab x2 n) := by
  have e : idx_main_v47 (idx_main_call4_v5 (TakeAlongAxis.ixN00 n)) = ix1 n :=
    funext fun a => Fin.ext (by
      match a with
      | ⟨0, _⟩ =>
        show ((n.val * 1 + 0) * 1 + 0) / 1 = n.val
        omega)
  rw [val_main_v48_apply, mask_apply x2 hl, select_one, gather_at, logp_apply]
  refine congrArg (LossSpec.rLogp x0 (val_main_v42 (F := Ideal) x0 x1 x2) n) (Fin.ext ?_)
  show min (val_main_call4_v5 (F := Ideal) x2 (TakeAlongAxis.ixN00 n)).toInt.toNat (1000 - 1) = (x2 (ix1 n)).toNat % 1000
  rw [idx5_apply x2 hl, e]
  exact lab_clamp _ (hl n)

/-! ## Minus the mean -/

/-- With every label a class, the reference's result is the loss in the reference's arrangement, over the new bank
    as the reference computes it. -/
theorem loss_apply (x0 : FVec Ideal S131072x256 .f32) (x1 : FVec Ideal S1000x256 .f32) (x2 : IVec S131072 32)
    (hl : ∀ n : Fin 131072, (x2 (ix1 n)).toNat < 1000) :
    val_main_v51 (F := Ideal) x0 x1 x2 = fun _ => LossSpec.rLoss x0 (val_main_v42 (F := Ideal) x0 x1 x2) x2 := by
  funext i
  rw [val_main_v51_apply, val_main_v50_apply, val_main_v49_apply, val_main_cst_11_apply, val_main_cst_12_apply]
  simp only [Ideal.hostNegf_def, Ideal.negf_def, Ideal.hostDivf_def, Ideal.ofBits_def]
  rw [LossSpec.ofBits_zero, LossSpec.ofBits_count, zero_add, sum_idx2]
  unfold LossSpec.rLoss
  refine congrArg (fun s => -(Ideal.div s ((131072 : ℝ) : EReal))) (Finset.sum_congr rfl fun n _ => ?_)
  rw [Fintype.sum_unique]
  exact take_apply x0 x1 x2 hl n

end Cert.ReferenceIdeal.RefLoss

end
-- ==== Proof.lean ====
/-
  The certificate of the memory-bank loss kernel against its jnp reference, over the extended reals.

  Both programs normalise each of the 131072 feature rows by `max (‖row‖, ε)`, sum the normalised rows class by class
  (the kernel as a one-hot matrix product accumulated tile by tile on two cores, the reference as an accumulating
  scatter), update the 1000-row bank from the class sums and counts by the same chain of host operations, and take the
  mean over the rows of minus the log-softmax, at the row's label, of the row's inner products with the new bank.  The
  kernel pads the bank to 1024 rows and masks the 24 padding classes with a fill NAMED `-∞` (the ledger's one entry);
  it adds the row maximum back outside the logarithm where the reference subtracts it inside, and picks the label's
  logit by a one-hot row sum where the reference gathers it.  The precondition says the inputs are finite and every
  label is a class, `0 ≤ label < 1000`; only the second is used: a row divided by `max (‖row‖, ε)` has real entries
  whatever it holds, so every logit is real and the two arrangements of the log-softmax agree.

  Frames: the kernel's are the generated ones; the reference's is its run with the result dropped.
-/
import proofs.«400353_j90031104459200_3_alg».proof.Defs
import proofs.«400353_j90031104459200_3_alg».proof.Proof.Gen.Kernel
import proofs.«400353_j90031104459200_3_alg».proof.Proof.Gen.Kernel.Skeleton
import proofs.«400353_j90031104459200_3_alg».proof.Proof.Gen.Kernel.Launch
import proofs.«400353_j90031104459200_3_alg».proof.Proof.Gen.Kernel.Points
import proofs.«400353_j90031104459200_3_alg».proof.Proof.Gen.Kernel.Frame
import proofs.«400353_j90031104459200_3_alg».proof.Proof.Gen.KernelIdeal
import proofs.«400353_j90031104459200_3_alg».proof.Proof.Gen.KernelIdeal.Skeleton
import proofs.«400353_j90031104459200_3_alg».proof.Proof.Gen.KernelIdeal.Launch
import proofs.«400353_j90031104459200_3_alg».proof.Proof.Gen.KernelIdeal.Points
import proofs.«400353_j90031104459200_3_alg».proof.Proof.Gen.KernelIdeal.Frame
import proofs.«400353_j90031104459200_3_alg».proof.Proof.Gen.ReferenceIdeal
import proofs.«400353_j90031104459200_3_alg».proof.Proof.Gen.Pre_finite_inputs
import proofs.«400353_j90031104459200_3_alg».proof.Proof.KernelRun
import proofs.«400353_j90031104459200_3_alg».proof.Proof.KernelValue
import proofs.«400353_j90031104459200_3_alg».proof.Proof.Spec
import proofs.«400353_j90031104459200_3_alg».proof.Proof.NewMem
import proofs.«400353_j90031104459200_3_alg».proof.Proof.NewMemRead
import proofs.«400353_j90031104459200_3_alg».proof.Proof.Finite
import proofs.«400353_j90031104459200_3_alg».proof.Proof.LossEq
import proofs.«400353_j90031104459200_3_alg».proof.Proof.PreLabel
import proofs.«400353_j90031104459200_3_alg».proof.Proof.ReadP
import proofs.«400353_j90031104459200_3_alg».proof.Proof.RefRun
import proofs.«400353_j90031104459200_3_alg».proof.Proof.RefBank
import proofs.«400353_j90031104459200_3_alg».proof.Proof.RefLoss
import Idealize.ShloMosaic.Lib.ValueIdx
import Idealize.ShloMosaic.Adequacy
import Idealize.ShloMosaic.Init

set_option maxRecDepth 16384

noncomputable section

open Idealize.ShloMosaic Idealize.ShloMosaic.TcCoe Idealize.SL.Sem Idealize.ShloMosaic.ValueIdx

namespace Cert.Proof.Claims

/-- With every label a class, the reference's result is the loss in the reference's arrangement over the same bank
    update of the same class sums and counts. -/
theorem ref_result (x0 : FVec Ideal Cert.ReferenceIdeal.S131072x256 .f32) (x1 : FVec Ideal Cert.ReferenceIdeal.S1000x256 .f32)
    (x2 : IVec Cert.ReferenceIdeal.S131072 32) (hl : ∀ n : Fin 131072, (x2 (ix1 n)).toNat < 1000) :
    Cert.ReferenceIdeal.ReadP.val_main_v51 (F := Ideal) x0 x1 x2
      = fun _ => LossSpec.rLoss x0 (Cert.ReferenceIdeal.BankUpdate.newMem (F := Ideal) (LossSpec.sumsV x0 x2) (LossSpec.countsV x2) x1) x2 := by
  rw [Cert.ReferenceIdeal.RefLoss.loss_apply x0 x1 x2 hl, Cert.ReferenceIdeal.RefBank.bank_eq,
    Cert.ReferenceIdeal.RefBank.sums_eq, Cert.ReferenceIdeal.RefBank.counts_eq]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run (F := Ideal) m ρ)

/-- The one ledger entry: the mask fill is named `-∞`, and the printed constant is that value at `Ideal`. -/
theorem preserves : Cert.preserves_Kernel_KernelIdeal :=
  IdealRules.named_const.statement Cert.KernelIdeal.κ "neg_big" .f32 0xFF333332#32 ⊥ rfl

/-- Both programs end at the loss of the same features, bank and labels — the kernel's in its tiled, padded and masked
    arrangement, the reference's in its own —, and the two arrangements agree where the labels are classes. -/
theorem algebraic : Cert.algebraic_KernelIdeal_ReferenceIdeal := by
  intro m ρ m' ρ' hpre hagree
  refine ⟨fun c => Cert.KernelIdeal.Gen.W9 m ρ c (Proc.devRef .tc Cert.KernelIdeal.main_v44),
    Cert.KernelIdeal.Gen.run_result (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]
  have hl := Cert.PreLabel.label_range _ _ _ (hpre c)
  refine (ref_result _ _ _ hl).trans ((Cert.KernelIdeal.Value.result_eq m ρ c).trans ?_).symm
  funext _
  exact LossSpec.loss_eq _ _ _ hl (fun cc d => Cert.ReferenceIdeal.BankUpdate.newMem_real _ _ _ cc d)

end Cert.Proof.Claims

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
